-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x64 : Shape := ⟨2, ![10000, 64]⟩
abbrev S64x128 : Shape := ⟨2, ![64, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg7 : FVec F S64x128 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  main_v38

def fn_part1 {F : FTy → Type} [FloatOps F] (main_arg4 : FVec F S64x128 .f32) (main_arg5 : FVec F S64x128 .f32) (main_arg6 : FVec F S64x128 .f32) (main_arg7 : FVec F S64x128 .f32) (main_v13 : IVec S_ 1) (main_v16 : IVec S10000x64 1) : IVec S_ 1 :=
  let main_c_5 : IVec S_ 1 := constantI S_ 1 1#1
  let main_v17 : IVec S_ 1 := (fun x v => Host.reduce IntOp.andi x v reducesTo_S10000x64_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x10000 .f32) (main_arg2 : FVec F S10000x64 .f32) (main_arg3 : FVec F S10000x64 .f32) (main_arg4 : FVec F S64x128 .f32) (main_arg5 : FVec F S64x128 .f32) (main_arg6 : FVec F S64x128 .f32) (main_arg7 : FVec F S64x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x64 .f32 := Host.absf main_arg2
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S10000x64 .f32 := Host.absf main_arg3
  let main_cst_4 : FVec F S_ .f32 := constant S_ .f32 0x7F800000#32
  let main_v15 : FVec F S10000x64 .f32 := broadcastInDim S10000x64 ![] bcast_S_S10000x64 main_cst_4
  let main_v16 : IVec S10000x64 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x64 : Shape := ⟨2, ![10000, 64]⟩
abbrev S64x128 : Shape := ⟨2, ![64, 128]⟩
abbrev S64x64 : Shape := ⟨2, ![64, 64]⟩
abbrev S200x10000 : Shape := ⟨2, ![200, 10000]⟩
abbrev S400x64 : Shape := ⟨2, ![400, 64]⟩
abbrev S200x64 : Shape := ⟨2, ![200, 64]⟩
abbrev S400 : Shape := ⟨1, ![400]⟩
abbrev S400x1 : Shape := ⟨2, ![400, 1]⟩

abbrev nBuf : Space → Nat
  | .hbm => 28
  | .vmem => 44
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x64, .f32⟩
  | .hbm, ⟨3, _⟩ => ⟨S10000x64, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S10000x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S10000x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S10000x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x64, .f32⟩
  | .local _ .vmem, ⟨5, _⟩ => ⟨S400x64, .f32⟩
  | .local _ .vmem, ⟨6, _⟩ => ⟨S400x64, .f32⟩
  | .local _ .vmem, ⟨7, _⟩ => ⟨S64x64, .f32⟩
  | .local _ .vmem, ⟨8, _⟩ => ⟨S64x64, .f32⟩
  | .local _ .vmem, ⟨9, _⟩ => ⟨S400x64, .f32⟩
  | .local _ .vmem, ⟨10, _⟩ => ⟨S400x64, .f32⟩
  | .local _ .vmem, ⟨11, _⟩ => ⟨S200x10000, .f32⟩
  | .local _ .vmem, ⟨12, _⟩ => ⟨S200x10000, .f32⟩
  | .local _ .vmem, ⟨13, _⟩ => ⟨S200x10000, .f32⟩
  | .local _ .vmem, ⟨14, _⟩ => ⟨S200x10000, .f32⟩
  | .local _ .vmem, ⟨15, _⟩ => ⟨S10000x64, .f32⟩
  | .local _ .vmem, ⟨16, _⟩ => ⟨S400x64, .f32⟩
  | .local _ .vmem, ⟨17, _⟩ => ⟨S400x64, .f32⟩
  | .local _ .vmem, ⟨18, _⟩ => ⟨S64x64, .f32⟩
  | .local _ .vmem, ⟨19, _⟩ => ⟨S64x64, .f32⟩
  | .local _ .vmem, ⟨20, _⟩ => ⟨S400x64, .f32⟩
  | .local _ .vmem, ⟨21, _⟩ => ⟨S400x64, .f32⟩
  | .local _ .vmem, ⟨22, _⟩ => ⟨S200x10000, .f32⟩
  | .local _ .vmem, ⟨23, _⟩ => ⟨S200x10000, .f32⟩
  | .local _ .vmem, ⟨24, _⟩ => ⟨S200x10000, .f32⟩
  | .local _ .vmem, ⟨25, _⟩ => ⟨S200x10000, .f32⟩
  | .local _ .vmem, ⟨26, _⟩ => ⟨S10000x64, .f32⟩
  | .local _ .vmem, ⟨27, _⟩ => ⟨S400x64, .f32⟩
  | .local _ .vmem, ⟨28, _⟩ => ⟨S400x64, .f32⟩
  | .local _ .vmem, ⟨29, _⟩ => ⟨S64x64, .f32⟩
  | .local _ .vmem, ⟨30, _⟩ => ⟨S64x64, .f32⟩
  | .local _ .vmem, ⟨31, _⟩ => ⟨S400x64, .f32⟩
  | .local _ .vmem, ⟨32, _⟩ => ⟨S400x64, .f32⟩
  | .local _ .vmem, ⟨33, _⟩ => ⟨S200x10000, .f32⟩
  | .local _ .vmem, ⟨34, _⟩ => ⟨S200x10000, .f32⟩
  | .local _ .vmem, ⟨35, _⟩ => ⟨S200x10000, .f32⟩
  | .local _ .vmem, ⟨36, _⟩ => ⟨S200x10000, .f32⟩
  | .local _ .vmem, ⟨37, _⟩ => ⟨S10000x64, .f32⟩
  | .local _ .vmem, ⟨38, _⟩ => ⟨S400x64, .f32⟩
  | .local _ .vmem, ⟨39, _⟩ => ⟨S400x64, .f32⟩
  | .local _ .vmem, ⟨40, _⟩ => ⟨S64x64, .f32⟩
  | .local _ .vmem, ⟨41, _⟩ => ⟨S64x64, .f32⟩
  | .local _ .vmem, ⟨42, _⟩ => ⟨S400x64, .f32⟩
  | .local _ .vmem, ⟨43, _⟩ => ⟨S400x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_v1 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_v2 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_call3_v3 : Ref sig .tc := ⟨.hbm, 26, rfl⟩
abbrev main_v3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem3_1 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S200x10000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S400x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S64x128_S64x64_0_0 : S64x128.Slices ![0, 0] S64x64
  transposes_S64x64_S64x64_1_0 : S64x64.Transposes [1, 0] S64x64
  slices_S64x128_S64x64_0_64 : S64x128.Slices ![0, 64] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  concatenates_S200x64_S200x64_S400x64_d0 : Shape.Concatenates [S200x64, S200x64] S400x64 0
  inb_S400x64_S400x64_0_0 : ∀ a, (![0, 0] : Fin 2 → Nat) a + S400x64.size a ≤ S400x64.size a
  h_S400x64 : 0 < S400x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S400x64_S400 : S400x64.Reduces [1] S400
  shapeCasts_S400_S400x1 : S400.ShapeCasts S400x1
  broadcasts_S400x1_S400x64 : S400x1.Broadcasts S400x64
  shapeCasts_S10000x64_S10000x64 : S10000x64.ShapeCasts S10000x64
  shapeCasts_S400x64_S400x64 : S400x64.ShapeCasts S400x64
  dot_S200x10000_S10000x64_S200x64_1_0_0_1_n_n_wf : DotDims.WF S200x10000 S10000x64 S200x64 [1] [0] [0] [1] [] []
  dot_S400x64_S64x64_S400x64_1_0_0_1_n_n_wf : DotDims.WF S400x64 S64x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S10000x64.size a
  hwx0_2 : ∀ i : grid0.Coords, EltTy.bits .f32 = 32 ∨ (Rect.block (s := S10000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x64.size a ≤ S10000x64.size a
  hwx0_3 : ∀ i : grid0.Coords, EltTy.bits .f32 = 32 ∨ (Rect.block (s := S10000x64) S400x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S10000x64.size a
  hwx1_2 : ∀ i : grid1.Coords, EltTy.bits .f32 = 32 ∨ (Rect.block (s := S10000x64) S10000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x64.size a ≤ S10000x64.size a
  hwx1_6 : ∀ i : grid1.Coords, EltTy.bits .f32 = 32 ∨ (Rect.block (s := S10000x64) S400x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S10000x64.size a
  hwx2_2 : ∀ i : grid2.Coords, EltTy.bits .f32 = 32 ∨ (Rect.block (s := S10000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x64.size a ≤ S10000x64.size a
  hwx2_6 : ∀ i : grid2.Coords, EltTy.bits .f32 = 32 ∨ (Rect.block (s := S10000x64) S400x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S200x10000.size a ≤ S10000x10000.size a
  hwx3_1 : ∀ i : grid3.Coords, EltTy.bits .f32 = 32 ∨ (Rect.block (s := S10000x10000) S200x10000.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S10000x64.size a
  hwx3_2 : ∀ i : grid3.Coords, EltTy.bits .f32 = 32 ∨ (Rect.block (s := S10000x64) S10000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x64.size a ≤ S10000x64.size a
  hwx3_3 : ∀ i : grid3.Coords, EltTy.bits .f32 = 32 ∨ (Rect.block (s := S10000x64) S400x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x64.size a ≤ S10000x64.size a
  hwx3_6 : ∀ i : grid3.Coords, EltTy.bits .f32 = 32 ∨ (Rect.block (s := S10000x64) S400x64.size (cc3_transform_6 i) (hinb3_6 i)).WholeWords (EltTy.packing .f32)

variable [Facts₀]

def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S400x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S10000x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S400x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call1_v1) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call1_v3) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S400x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S10000x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call2_v1) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call2_v3) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v2) S400x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S200x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S10000x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S400x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_call3_v1) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call3_v3) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v3) S400x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S10000x10000 : Shape := ⟨2, ![10000, 10000]⟩
abbrev S10000x64 : Shape := ⟨2, ![10000, 64]⟩
abbrev S64x128 : Shape := ⟨2, ![64, 128]⟩
abbrev S10000x128 : Shape := ⟨2, ![10000, 128]⟩
abbrev S128x64 : Shape := ⟨2, ![128, 64]⟩
abbrev S_ : Shape := ⟨0, ![]⟩
abbrev S10000 : Shape := ⟨1, ![10000]⟩
abbrev S10000x1 : Shape := ⟨2, ![10000, 1]⟩

abbrev nBuf : Space → Nat
  | .hbm => 76
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x64, .f32⟩
  | .hbm, ⟨3, _⟩ => ⟨S10000x64, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S10000x64, .f32⟩
  | .hbm, ⟨9, _⟩ => ⟨S10000x64, .f32⟩
  | .hbm, ⟨10, _⟩ => ⟨S10000x128, .f32⟩
  | .hbm, ⟨11, _⟩ => ⟨S128x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000, .f32⟩
  | .hbm, ⟨19, _⟩ => ⟨S10000x1, .f32⟩
  | .hbm, ⟨20, _⟩ => ⟨S10000x1, .f32⟩
  | .hbm, ⟨21, _⟩ => ⟨S_, .f32⟩
  | .hbm, ⟨22, _⟩ => ⟨S10000x1, .f32⟩
  | .hbm, ⟨23, _⟩ => ⟨S10000x1, .f32⟩
  | .hbm, ⟨24, _⟩ => ⟨S10000x64, .f32⟩
  | .hbm, ⟨25, _⟩ => ⟨S10000x64, .f32⟩
  | .hbm, ⟨26, _⟩ => ⟨S10000x128, .f32⟩
  | .hbm, ⟨27, _⟩ => ⟨S128x64, .f32⟩
  | .hbm, ⟨28, _⟩ => ⟨S10000x64, .f32⟩
  | .hbm, ⟨29, _⟩ => ⟨S_, .f32⟩
  | .hbm, ⟨30, _⟩ => ⟨S10000x64, .f32⟩
  | .hbm, ⟨31, _⟩ => ⟨S10000x64, .f32⟩
  | .hbm, ⟨32, _⟩ => ⟨S10000x64, .f32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S10000x1, .f32⟩
  | .hbm, ⟨37, _⟩ => ⟨S_, .f32⟩
  | .hbm, ⟨38, _⟩ => ⟨S10000x1, .f32⟩
  | .hbm, ⟨39, _⟩ => ⟨S10000x1, .f32⟩
  | .hbm, ⟨40, _⟩ => ⟨S10000x64, .f32⟩
  | .hbm, ⟨41, _⟩ => ⟨S10000x64, .f32⟩
  | .hbm, ⟨42, _⟩ => ⟨S10000x64, .f32⟩
  | .hbm, ⟨43, _⟩ => ⟨S10000x64, .f32⟩
  | .hbm, ⟨44, _⟩ => ⟨S10000x128, .f32⟩
  | .hbm, ⟨45, _⟩ => ⟨S128x64, .f32⟩
  | .hbm, ⟨46, _⟩ => ⟨S10000x64, .f32⟩
  | .hbm, ⟨47, _⟩ => ⟨S_, .f32⟩
  | .hbm, ⟨48, _⟩ => ⟨S10000x64, .f32⟩
  | .hbm, ⟨49, _⟩ => ⟨S10000x64, .f32⟩
  | .hbm, ⟨50, _⟩ => ⟨S10000x64, .f32⟩
  | .hbm, ⟨51, _⟩ => ⟨S_, .f32⟩
  | .hbm, ⟨52, _⟩ => ⟨S10000, .f32⟩
  | .hbm, ⟨53, _⟩ => ⟨S10000x1, .f32⟩
  | .hbm, ⟨54, _⟩ => ⟨S10000x1, .f32⟩
  | .hbm, ⟨55, _⟩ => ⟨S_, .f32⟩
  | .hbm, ⟨56, _⟩ => ⟨S10000x1, .f32⟩
  | .hbm, ⟨57, _⟩ => ⟨S10000x1, .f32⟩
  | .hbm, ⟨58, _⟩ => ⟨S10000x64, .f32⟩
  | .hbm, ⟨59, _⟩ => ⟨S10000x64, .f32⟩
  | .hbm, ⟨60, _⟩ => ⟨S10000x128, .f32⟩
  | .hbm, ⟨61, _⟩ => ⟨S128x64, .f32⟩
  | .hbm, ⟨62, _⟩ => ⟨S10000x64, .f32⟩
  | .hbm, ⟨63, _⟩ => ⟨S_, .f32⟩
  | .hbm, ⟨64, _⟩ => ⟨S10000x64, .f32⟩
  | .hbm, ⟨65, _⟩ => ⟨S10000x64, .f32⟩
  | .hbm, ⟨66, _⟩ => ⟨S10000x64, .f32⟩
  | .hbm, ⟨67, _⟩ => ⟨S_, .f32⟩
  | .hbm, ⟨68, _⟩ => ⟨S10000, .f32⟩
  | .hbm, ⟨69, _⟩ => ⟨S10000x1, .f32⟩
  | .hbm, ⟨70, _⟩ => ⟨S10000x1, .f32⟩
  | .hbm, ⟨71, _⟩ => ⟨S_, .f32⟩
  | .hbm, ⟨72, _⟩ => ⟨S10000x1, .f32⟩
  | .hbm, ⟨73, _⟩ => ⟨S10000x1, .f32⟩
  | .hbm, ⟨74, _⟩ => ⟨S10000x64, .f32⟩
  | .hbm, ⟨75, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call2_cst : Ref sig .tc := ⟨.hbm, 47, rfl⟩
abbrev main_call2_v0 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call3_cst : Ref sig .tc := ⟨.hbm, 63, rfl⟩
abbrev main_call3_v0 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  concatenates_S10000x64_S10000x64_S10000x128_d1 : Shape.Concatenates [S10000x64, S10000x64] S10000x128 1
  transposes_S64x128_S128x64_1_0 : S64x128.Transposes [1, 0] S128x64
  bcast_S_S10000x64 : S_.BroadcastsInDim S10000x64 (![] : Fin 0 → Fin S10000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x64_0_1 : S10000x1.BroadcastsInDim S10000x64 (![0, 1] : Fin 2 → Fin S10000x64.rank)
  dot_S10000x10000_S10000x64_S10000x64_1_0_0_1_n_n_wf : DotDims.WF S10000x10000 S10000x64 S10000x64 [1] [0] [0] [1] [] []
  dot_S10000x128_S128x64_S10000x64_1_0_0_1_n_n_wf : DotDims.WF S10000x128 S128x64 S10000x64 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.BitsRun.Region0.lean ====
import proofs.«147371_g55860344651847_cont_9to1c4b_578_10_alg».proof.Proof.Gen.Kernel.Launch
import proofs.«147371_g55860344651847_cont_9to1c4b_578_10_alg».proof.Proof.Gen.Kernel.Skeleton
import proofs.«147371_g55860344651847_cont_9to1c4b_578_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: one layer-side update as a pipeline over 25 row blocks

At a parameter `V`, the buffer contents the region is entered from. Point `t` of the grid reads rows
`400 t … 400 t + 199` of the adjacency matrix through window 0 and rows `400 t + 200 … 400 t + 399` through
window 1 (two windows on ONE array), the whole neighbour table through window 2, rows `400 t … 400 t + 399`
of the self table through window 3, the two 64×64 weight pieces through windows 4 and 5, and writes rows
`400 t … 400 t + 399` of the result through window 6: one whole store of a pure function of the six loads. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rA0 : Rect S200x10000 := Rect.unit (s := S200x10000) ![0, 0] S200x10000.size inb_S200x10000_S200x10000_0_0
abbrev rH0 : Rect S10000x64 := Rect.unit (s := S10000x64) ![0, 0] S10000x64.size inb_S10000x64_S10000x64_0_0
abbrev rB0 : Rect S400x64 := Rect.unit (s := S400x64) ![0, 0] S400x64.size inb_S400x64_S400x64_0_0
abbrev rW0 : Rect S64x64 := Rect.unit (s := S64x64) ![0, 0] S64x64.size inb_S64x64_S64x64_0_0

/-- What the body leaves in the result window's buffer: its one whole store, the layer's arithmetic of the six
    loaded blocks (the two adjacency halves `a0`, `a1`, the neighbour table `ho`, the self rows `hs`, the two weight
    pieces `ws`, `wn`). -/
def out0_6 (a0 a1 : Vec F S200x10000 .f32) (ho : Vec F S10000x64 .f32) (hs : Vec F S400x64 .f32) (ws wn : Vec F S64x64 .f32) : Vec F S400x64 .f32 :=
  View.canon [⟨rB0, k0_pay1 (View.ld ho rH0) (View.ld a0 rA0) (View.ld a1 rA0) (View.ld hs rB0) (View.ld ws rW0) (View.ld wn rW0)⟩]

/-- The one store covers the buffer. -/
theorem cover0_6 (p0 : Vec F S400x64 .f32) (y : S400x64.Idx) :
    ∃ pc ∈ ([⟨rB0, p0⟩] : List (View.Piece (Elt F) S400x64 .f32)), y ∈ pc.1.set :=
  View.cover_of_tiled [⟨rB0, p0⟩] S400x64.size (by rfl) y

set_option maxHeartbeats 1000000 in
/-- The body on whole staging buffers: the six inputs at read contents, the result's at anything, runs to the inputs
    as they were and the result's buffer at `out0_6` of them. -/
theorem sound_kernel0 (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x64 .f32) (harg3 : arg3.IsWhole) (arg4 : Memref sig .tc .vmem S400x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S400x64 .f32) (harg7 : arg7.IsWhole)
    (a0 a1 : Vec F S200x10000 .f32) (ho : Vec F S10000x64 .f32) (hs : Vec F S400x64 .f32) (ws wn : Vec F S64x64 .f32) (K : PUnit → sProp 𝕄) :
    iprop(owns (c : Thread nD τ) arg1 fullShare a0 ∗ owns (c : Thread nD τ) arg2 fullShare a1 ∗ owns (c : Thread nD τ) arg3 fullShare ho
        ∗ owns (c : Thread nD τ) arg4 fullShare hs ∗ owns (c : Thread nD τ) arg5 fullShare ws ∗ owns (c : Thread nD τ) arg6 fullShare wn
        ∗ (∃ d, owns (c : Thread nD τ) arg7 fullShare d)
        ∗ (iprop(owns (c : Thread nD τ) arg1 fullShare a0 ∗ owns (c : Thread nD τ) arg2 fullShare a1 ∗ owns (c : Thread nD τ) arg3 fullShare ho
            ∗ owns (c : Thread nD τ) arg4 fullShare hs ∗ owns (c : Thread nD τ) arg5 fullShare ws ∗ owns (c : Thread nD τ) arg6 fullShare wn
            ∗ owns (c : Thread nD τ) arg7 fullShare (out0_6 a0 a1 ho hs ws wn)) -∗ K ⟨⟩))
      ⊢ wp frame (wpE (defs₀ (F := F)) Variants.none c none) E (cc0__layer_side_body i arg1 harg1 arg2 harg2 arg3 harg3 arg4 harg4 arg5 harg5 arg6 harg6 arg7 harg7) K := by
  simp only [cc0__layer_side_body_eq_skeleton]; unfold cc0__layer_side_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_6 _)

/-- The proof data of pipeline 0 on core `c`: the arrays as the region finds them; after the body each input's
    buffer at its block, the result's at `out0_6` of the blocks; the invariant the scoped rest and the generator
    register, untouched; nothing owed; the adjacency matrix, which two windows read, held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- What the body is handed at point `t`: the invariant, what the core owes, and each window's current buffer, the
    inputs' and the result's alike at what they then hold. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it hands back: the same invariant and debt, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: each input buffer holds its block there, so the body's triple applies at the six blocks;
    the invariant and the debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRun.Region1.lean ====
import proofs.«147371_g55860344651847_cont_9to1c4b_578_10_alg».proof.Proof.Gen.Kernel.Launch
import proofs.«147371_g55860344651847_cont_9to1c4b_578_10_alg».proof.Proof.Gen.Kernel.Skeleton
import proofs.«147371_g55860344651847_cont_9to1c4b_578_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: one layer-side update as a pipeline over 25 row blocks

At a parameter `V`, the buffer contents the region is entered from. Point `t` of the grid reads rows
`400 t … 400 t + 199` of the adjacency matrix through window 0 and rows `400 t + 200 … 400 t + 399` through
window 1 (two windows on ONE array), the whole neighbour table through window 2, rows `400 t … 400 t + 399`
of the self table through window 3, the two 64×64 weight pieces through windows 4 and 5, and writes rows
`400 t … 400 t + 399` of the result through window 6: one whole store of a pure function of the six loads. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rA1 : Rect S200x10000 := Rect.unit (s := S200x10000) ![0, 0] S200x10000.size inb_S200x10000_S200x10000_0_0
abbrev rH1 : Rect S10000x64 := Rect.unit (s := S10000x64) ![0, 0] S10000x64.size inb_S10000x64_S10000x64_0_0
abbrev rB1 : Rect S400x64 := Rect.unit (s := S400x64) ![0, 0] S400x64.size inb_S400x64_S400x64_0_0
abbrev rW1 : Rect S64x64 := Rect.unit (s := S64x64) ![0, 0] S64x64.size inb_S64x64_S64x64_0_0

/-- What the body leaves in the result window's buffer: its one whole store, the layer's arithmetic of the six
    loaded blocks (the two adjacency halves `a0`, `a1`, the neighbour table `ho`, the self rows `hs`, the two weight
    pieces `ws`, `wn`). -/
def out1_6 (a0 a1 : Vec F S200x10000 .f32) (ho : Vec F S10000x64 .f32) (hs : Vec F S400x64 .f32) (ws wn : Vec F S64x64 .f32) : Vec F S400x64 .f32 :=
  View.canon [⟨rB1, k1_pay1 (View.ld ho rH1) (View.ld a0 rA1) (View.ld a1 rA1) (View.ld hs rB1) (View.ld ws rW1) (View.ld wn rW1)⟩]

/-- The one store covers the buffer. -/
theorem cover1_6 (p0 : Vec F S400x64 .f32) (y : S400x64.Idx) :
    ∃ pc ∈ ([⟨rB1, p0⟩] : List (View.Piece (Elt F) S400x64 .f32)), y ∈ pc.1.set :=
  View.cover_of_tiled [⟨rB1, p0⟩] S400x64.size (by rfl) y

set_option maxHeartbeats 1000000 in
/-- The body on whole staging buffers: the six inputs at read contents, the result's at anything, runs to the inputs
    as they were and the result's buffer at `out1_6` of them. -/
theorem sound_kernel1 (c : Dev nD) (E : Set ℕ) (i : grid1.Coords)
    (arg1 : Memref sig .tc .vmem S200x10000 .f32) (harg1 : arg1.IsWhole) (arg2 : Memref sig .tc .vmem S200x10000 .f32) (harg2 : arg2.IsWhole)
    (arg3 : Memref sig .tc .vmem S10000x64 .f32) (harg3 : arg3.IsWhole) (arg4 : Memref sig .tc .vmem S400x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S400x64 .f32) (harg7 : arg7.IsWhole)
    (a0 a1 : Vec F S200x10000 .f32) (ho : Vec F S10000x64 .f32) (hs : Vec F S400x64 .f32) (ws wn : Vec F S64x64 .f32) (K : PUnit → sProp 𝕄) :
    iprop(owns (c : Thread nD τ) arg1 fullShare a0 ∗ owns (c : Thread nD τ) arg2 fullShare a1 ∗ owns (c : Thread nD τ) arg3 fullShare ho
        ∗ owns (c : Thread nD τ) arg4 fullShare hs ∗ owns (c : Thread nD τ) arg5 fullShare ws ∗ owns (c : Thread nD τ) arg6 fullShare wn
        ∗ (∃ d, owns (c : Thread nD τ) arg7 fullShare d)
        ∗ (iprop(owns (c : Thread nD τ) arg1 fullShare a0 ∗ owns (c : Thread nD τ) arg2 fullShare a1 ∗ owns (c : Thread nD τ) arg3 fullShare ho
            ∗ owns (c : Thread nD τ) arg4 fullShare hs ∗ owns (c : Thread nD τ) arg5 fullShare ws ∗ owns (c : Thread nD τ) arg6 fullShare wn
            ∗ owns (c : Thread nD τ) arg7 fullShare (out1_6 a0 a1 ho hs ws wn)) -∗ K ⟨⟩))
      ⊢ wp frame (wpE (defs₀ (F := F)) Variants.none c none) E (cc1__layer_side_body i arg1 harg1 arg2 harg2 arg3 harg3 arg4 harg4 arg5 harg5 arg6 harg6 arg7 harg7) K := by
  simp only [cc1__layer_side_body_eq_skeleton]; unfold cc1__layer_side_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-- The proof data of pipeline 1 on core `c`: the arrays as the region finds them; after the body each input's
    buffer at its block, the result's at `out1_6` of the blocks; the invariant the scoped rest and the generator
    register, untouched; nothing owed; the adjacency matrix, which two windows read, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- What the body is handed at point `t`: the invariant, what the core owes, and each window's current buffer, the
    inputs' and the result's alike at what they then hold. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back: the same invariant and debt, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: each input buffer holds its block there, so the body's triple applies at the six blocks;
    the invariant and the debt are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.Region2.lean ====
import proofs.«147371_g55860344651847_cont_9to1c4b_578_10_alg».proof.Proof.Gen.Kernel.Launch
import proofs.«147371_g55860344651847_cont_9to1c4b_578_10_alg».proof.Proof.Gen.Kernel.Skeleton
import proofs.«147371_g55860344651847_cont_9to1c4b_578_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: one layer-side update as a pipeline over 25 row blocks

At a parameter `V`, the buffer contents the region is entered from. Point `t` of the grid reads rows
`400 t … 400 t + 199` of the adjacency matrix through window 0 and rows `400 t + 200 … 400 t + 399` through
window 1 (two windows on ONE array), the whole neighbour table through window 2, rows `400 t … 400 t + 399`
of the self table through window 3, the two 64×64 weight pieces through windows 4 and 5, and writes rows
`400 t … 400 t + 399` of the result through window 6: one whole store of a pure function of the six loads. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rA2 : Rect S200x10000 := Rect.unit (s := S200x10000) ![0, 0] S200x10000.size inb_S200x10000_S200x10000_0_0
abbrev rH2 : Rect S10000x64 := Rect.unit (s := S10000x64) ![0, 0] S10000x64.size inb_S10000x64_S10000x64_0_0
abbrev rB2 : Rect S400x64 := Rect.unit (s := S400x64) ![0, 0] S400x64.size inb_S400x64_S400x64_0_0
abbrev rW2 : Rect S64x64 := Rect.unit (s := S64x64) ![0, 0] S64x64.size inb_S64x64_S64x64_0_0

/-- What the body leaves in the result window's buffer: its one whole store, the layer's arithmetic of the six
    loaded blocks (the two adjacency halves `a0`, `a1`, the neighbour table `ho`, the self rows `hs`, the two weight
    pieces `ws`, `wn`). -/
def out2_6 (a0 a1 : Vec F S200x10000 .f32) (ho : Vec F S10000x64 .f32) (hs : Vec F S400x64 .f32) (ws wn : Vec F S64x64 .f32) : Vec F S400x64 .f32 :=
  View.canon [⟨rB2, k2_pay1 (View.ld ho rH2) (View.ld a0 rA2) (View.ld a1 rA2) (View.ld hs rB2) (View.ld ws rW2) (View.ld wn rW2)⟩]

/-- The one store covers the buffer. -/
theorem cover2_6 (p0 : Vec F S400x64 .f32) (y : S400x64.Idx) :
    ∃ pc ∈ ([⟨rB2, p0⟩] : List (View.Piece (Elt F) S400x64 .f32)), y ∈ pc.1.set :=
  View.cover_of_tiled [⟨rB2, p0⟩] S400x64.size (by rfl) y

set_option maxHeartbeats 1000000 in
/-- The body on whole staging buffers: the six inputs at read contents, the result's at anything, runs to the inputs
    as they were and the result's buffer at `out2_6` of them. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole)
    (arg3 : Memref sig .tc .vmem S10000x64 .f32) (harg3 : arg3.IsWhole) (arg4 : Memref sig .tc .vmem S400x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S400x64 .f32) (harg7 : arg7.IsWhole)
    (a0 a1 : Vec F S200x10000 .f32) (ho : Vec F S10000x64 .f32) (hs : Vec F S400x64 .f32) (ws wn : Vec F S64x64 .f32) (K : PUnit → sProp 𝕄) :
    iprop(owns (c : Thread nD τ) arg1 fullShare a0 ∗ owns (c : Thread nD τ) arg2 fullShare a1 ∗ owns (c : Thread nD τ) arg3 fullShare ho
        ∗ owns (c : Thread nD τ) arg4 fullShare hs ∗ owns (c : Thread nD τ) arg5 fullShare ws ∗ owns (c : Thread nD τ) arg6 fullShare wn
        ∗ (∃ d, owns (c : Thread nD τ) arg7 fullShare d)
        ∗ (iprop(owns (c : Thread nD τ) arg1 fullShare a0 ∗ owns (c : Thread nD τ) arg2 fullShare a1 ∗ owns (c : Thread nD τ) arg3 fullShare ho
            ∗ owns (c : Thread nD τ) arg4 fullShare hs ∗ owns (c : Thread nD τ) arg5 fullShare ws ∗ owns (c : Thread nD τ) arg6 fullShare wn
            ∗ owns (c : Thread nD τ) arg7 fullShare (out2_6 a0 a1 ho hs ws wn)) -∗ K ⟨⟩))
      ⊢ wp frame (wpE (defs₀ (F := F)) Variants.none c none) E (cc2__layer_side_body i arg1 harg1 arg2 harg2 arg3 harg3 arg4 harg4 arg5 harg5 arg6 harg6 arg7 harg7) K := by
  simp only [cc2__layer_side_body_eq_skeleton]; unfold cc2__layer_side_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_6 _)

/-- The proof data of pipeline 2 on core `c`: the arrays as the region finds them; after the body each input's
    buffer at its block, the result's at `out2_6` of the blocks; the invariant the scoped rest and the generator
    register, untouched; nothing owed; the adjacency matrix, which two windows read, held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- What the body is handed at point `t`: the invariant, what the core owes, and each window's current buffer, the
    inputs' and the result's alike at what they then hold. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it hands back: the same invariant and debt, each buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: each input buffer holds its block there, so the body's triple applies at the six blocks;
    the invariant and the debt are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRun.Region3.lean ====
import proofs.«147371_g55860344651847_cont_9to1c4b_578_10_alg».proof.Proof.Gen.Kernel.Launch
import proofs.«147371_g55860344651847_cont_9to1c4b_578_10_alg».proof.Proof.Gen.Kernel.Skeleton
import proofs.«147371_g55860344651847_cont_9to1c4b_578_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: one layer-side update as a pipeline over 25 row blocks

At a parameter `V`, the buffer contents the region is entered from. Point `t` of the grid reads rows
`400 t … 400 t + 199` of the adjacency matrix through window 0 and rows `400 t + 200 … 400 t + 399` through
window 1 (two windows on ONE array), the whole neighbour table through window 2, rows `400 t … 400 t + 399`
of the self table through window 3, the two 64×64 weight pieces through windows 4 and 5, and writes rows
`400 t … 400 t + 399` of the result through window 6: one whole store of a pure function of the six loads. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev rA3 : Rect S200x10000 := Rect.unit (s := S200x10000) ![0, 0] S200x10000.size inb_S200x10000_S200x10000_0_0
abbrev rH3 : Rect S10000x64 := Rect.unit (s := S10000x64) ![0, 0] S10000x64.size inb_S10000x64_S10000x64_0_0
abbrev rB3 : Rect S400x64 := Rect.unit (s := S400x64) ![0, 0] S400x64.size inb_S400x64_S400x64_0_0
abbrev rW3 : Rect S64x64 := Rect.unit (s := S64x64) ![0, 0] S64x64.size inb_S64x64_S64x64_0_0

/-- What the body leaves in the result window's buffer: its one whole store, the layer's arithmetic of the six
    loaded blocks (the two adjacency halves `a0`, `a1`, the neighbour table `ho`, the self rows `hs`, the two weight
    pieces `ws`, `wn`). -/
def out3_6 (a0 a1 : Vec F S200x10000 .f32) (ho : Vec F S10000x64 .f32) (hs : Vec F S400x64 .f32) (ws wn : Vec F S64x64 .f32) : Vec F S400x64 .f32 :=
  View.canon [⟨rB3, k3_pay1 (View.ld ho rH3) (View.ld a0 rA3) (View.ld a1 rA3) (View.ld hs rB3) (View.ld ws rW3) (View.ld wn rW3)⟩]

/-- The one store covers the buffer. -/
theorem cover3_6 (p0 : Vec F S400x64 .f32) (y : S400x64.Idx) :
    ∃ pc ∈ ([⟨rB3, p0⟩] : List (View.Piece (Elt F) S400x64 .f32)), y ∈ pc.1.set :=
  View.cover_of_tiled [⟨rB3, p0⟩] S400x64.size (by rfl) y

set_option maxHeartbeats 1000000 in
/-- The body on whole staging buffers: the six inputs at read contents, the result's at anything, runs to the inputs
    as they were and the result's buffer at `out3_6` of them. -/
theorem sound_kernel3 (c : Dev nD) (E : Set ℕ) (i : grid3.Coords)
    (arg1 : Memref sig .tc .vmem S200x10000 .f32) (harg1 : arg1.IsWhole) (arg2 : Memref sig .tc .vmem S200x10000 .f32) (harg2 : arg2.IsWhole)
    (arg3 : Memref sig .tc .vmem S10000x64 .f32) (harg3 : arg3.IsWhole) (arg4 : Memref sig .tc .vmem S400x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S400x64 .f32) (harg7 : arg7.IsWhole)
    (a0 a1 : Vec F S200x10000 .f32) (ho : Vec F S10000x64 .f32) (hs : Vec F S400x64 .f32) (ws wn : Vec F S64x64 .f32) (K : PUnit → sProp 𝕄) :
    iprop(owns (c : Thread nD τ) arg1 fullShare a0 ∗ owns (c : Thread nD τ) arg2 fullShare a1 ∗ owns (c : Thread nD τ) arg3 fullShare ho
        ∗ owns (c : Thread nD τ) arg4 fullShare hs ∗ owns (c : Thread nD τ) arg5 fullShare ws ∗ owns (c : Thread nD τ) arg6 fullShare wn
        ∗ (∃ d, owns (c : Thread nD τ) arg7 fullShare d)
        ∗ (iprop(owns (c : Thread nD τ) arg1 fullShare a0 ∗ owns (c : Thread nD τ) arg2 fullShare a1 ∗ owns (c : Thread nD τ) arg3 fullShare ho
            ∗ owns (c : Thread nD τ) arg4 fullShare hs ∗ owns (c : Thread nD τ) arg5 fullShare ws ∗ owns (c : Thread nD τ) arg6 fullShare wn
            ∗ owns (c : Thread nD τ) arg7 fullShare (out3_6 a0 a1 ho hs ws wn)) -∗ K ⟨⟩))
      ⊢ wp frame (wpE (defs₀ (F := F)) Variants.none c none) E (cc3__layer_side_body i arg1 harg1 arg2 harg2 arg3 harg3 arg4 harg4 arg5 harg5 arg6 harg6 arg7 harg7) K := by
  simp only [cc3__layer_side_body_eq_skeleton]; unfold cc3__layer_side_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_6 _)

/-- The proof data of pipeline 3 on core `c`: the arrays as the region finds them; after the body each input's
    buffer at its block, the result's at `out3_6` of the blocks; the invariant the scoped rest and the generator
    register, untouched; nothing owed; the adjacency matrix, which two windows read, held half and half. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

/-- What the body is handed at point `t`: the invariant, what the core owes, and each window's current buffer, the
    inputs' and the result's alike at what they then hold. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- What it hands back: the same invariant and debt, each buffer at what the body leaves there. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: each input buffer holds its block there, so the body's triple applies at the six blocks;
    the invariant and the debt are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRun.Chain.lean ====
import proofs.«147371_g55860344651847_cont_9to1c4b_578_10_alg».proof.Proof.BitsRun.Region0
import proofs.«147371_g55860344651847_cont_9to1c4b_578_10_alg».proof.Proof.BitsRun.Region1
import proofs.«147371_g55860344651847_cont_9to1c4b_578_10_alg».proof.Proof.BitsRun.Region2
import proofs.«147371_g55860344651847_cont_9to1c4b_578_10_alg».proof.Proof.BitsRun.Region3

/-! # The buffers' contents at each boundary of @main

@main is: a host stretch (the two weight pieces of the call's weight matrix, sliced and transposed), a region, and
so four times. Core `c`'s unscoped buffers hold `X0` at launch; after a host stretch what `StableHlo.after` makes
of the valuation before it; after a region the valuation before it with the region's result buffer at what the
25 write-backs of the pipeline leave there (`Dat.arrAt … N`) — a region changes no other unscoped buffer. `TJ` is
`XJ` read at the TensorCore's references, which is what a region's proof data take. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At launch. -/
abbrev X0 (c : Dev nD) : Valuation τ sig (Elt F) := fun b => m (c, b)
/-- After the first host stretch: region 0's entry. -/
abbrev X1 (c : Dev nD) : Valuation τ sig (Elt F) := StableHlo.after hostOps0 (X0 m c)
abbrev T1 : (c : Dev nD) → (b : Ref sig .tc) → Buf (Elt F) ((c : Thread nD τ).loc b) := fun c b => X1 m c b
/-- After region 0: `main_v0` at what pipeline 0 leaves. -/
def X2 (c : Dev nD) : Valuation τ sig (Elt F) := Function.update (X1 m c) main_v0 ((dat0 (T1 m) c).arrAt 6 cfg0.N)
/-- After the second host stretch: region 1's entry. -/
abbrev X3 (c : Dev nD) : Valuation τ sig (Elt F) := StableHlo.after hostOps1 (X2 m c)
abbrev T3 : (c : Dev nD) → (b : Ref sig .tc) → Buf (Elt F) ((c : Thread nD τ).loc b) := fun c b => X3 m c b
/-- After region 1: `main_v1` at what pipeline 1 leaves. -/
def X4 (c : Dev nD) : Valuation τ sig (Elt F) := Function.update (X3 m c) main_v1 ((dat1 (T3 m) c).arrAt 6 cfg1.N)
/-- After the third host stretch: region 2's entry. -/
abbrev X5 (c : Dev nD) : Valuation τ sig (Elt F) := StableHlo.after hostOps2 (X4 m c)
abbrev T5 : (c : Dev nD) → (b : Ref sig .tc) → Buf (Elt F) ((c : Thread nD τ).loc b) := fun c b => X5 m c b
/-- After region 2: `main_v2` at what pipeline 2 leaves. -/
def X6 (c : Dev nD) : Valuation τ sig (Elt F) := Function.update (X5 m c) main_v2 ((dat2 (T5 m) c).arrAt 6 cfg2.N)
/-- After the fourth host stretch: region 3's entry. -/
abbrev X7 (c : Dev nD) : Valuation τ sig (Elt F) := StableHlo.after hostOps3 (X6 m c)
abbrev T7 : (c : Dev nD) → (b : Ref sig .tc) → Buf (Elt F) ((c : Thread nD τ).loc b) := fun c b => X7 m c b
/-- After region 3, at the return: `main_v3` at what pipeline 3 leaves. -/
def X8 (c : Dev nD) : Valuation τ sig (Elt F) := Function.update (X7 m c) main_v3 ((dat3 (T7 m) c).arrAt 6 cfg3.N)

/-- The same read at the TensorCore's references. -/
abbrev T2 : (c : Dev nD) → (b : Ref sig .tc) → Buf (Elt F) ((c : Thread nD τ).loc b) := fun c b => X2 m c b
abbrev T4 : (c : Dev nD) → (b : Ref sig .tc) → Buf (Elt F) ((c : Thread nD τ).loc b) := fun c b => X4 m c b
abbrev T6 : (c : Dev nD) → (b : Ref sig .tc) → Buf (Elt F) ((c : Thread nD τ).loc b) := fun c b => X6 m c b
abbrev T8 : (c : Dev nD) → (b : Ref sig .tc) → Buf (Elt F) ((c : Thread nD τ).loc b) := fun c b => X8 m c b

end Cert.Kernel.Hand

end
-- ==== Proof.BitsRun.Region0Seg.lean ====
import proofs.«147371_g55860344651847_cont_9to1c4b_578_10_alg».proof.Proof.BitsRun.Region0

/-! # Region 0 at its boundaries: the arrays out of the core's unscoped buffers and back

The adjacency matrix is ONE buffer read by two windows, so at the region's entry its whole-buffer ownership is
split into two half shares, one per window, and at the exit the two halves are joined again; every other
window's array is a buffer of its own held whole. The result's array leaves the region at what the write-backs
of the 25 points made of it; every other buffer leaves as it entered. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows are six: window 1's is window 0's, the others pairwise distinct. -/
theorem arrImage0 : Finset.univ.image (Pipeline.arrRef spec0)
    = [Pipeline.arrRef spec0 0, Pipeline.arrRef spec0 2, Pipeline.arrRef spec0 3, Pipeline.arrRef spec0 4,
       Pipeline.arrRef spec0 5, Pipeline.arrRef spec0 6].toFinset := by decide

theorem arrNodup0 : [Pipeline.arrRef spec0 0, Pipeline.arrRef spec0 2, Pipeline.arrRef spec0 3, Pipeline.arrRef spec0 4,
       Pipeline.arrRef spec0 5, Pipeline.arrRef spec0 6].Nodup := by decide

/-- The pipeline's arrays at contents `G`, window by window, each a whole buffer at the window's share: windows 0 and 1
    read one buffer, window 0 holding its left half share and window 1 its right half share; every other window holds
    its own buffer whole. -/
theorem arrays_eq0 (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare.left} G 0)
          ∗ (((c : Thread nD τ).loc (Pipeline.arrRef spec0 1)) ↦{fullShare.right} G 1)
          ∗ (((c : Thread nD τ).loc (Pipeline.arrRef spec0 2)) ↦{fullShare} G 2)
          ∗ (((c : Thread nD τ).loc (Pipeline.arrRef spec0 3)) ↦{fullShare} G 3)
          ∗ (((c : Thread nD τ).loc (Pipeline.arrRef spec0 4)) ↦{fullShare} G 4)
          ∗ (((c : Thread nD τ).loc (Pipeline.arrRef spec0 5)) ↦{fullShare} G 5)
          ∗ (((c : Thread nD τ).loc (Pipeline.arrRef spec0 6)) ↦{fullShare} G 6)) := by
  unfold Dat.arrays
  refine (bigSep_congr (Ψ := fun w => (((c : Thread nD τ).loc (Pipeline.arrRef spec0 w)) ↦{(dat0 V c).share w} G w : sProp 𝕄))
    fun w _ => by rw [(arr_whole0 w).set_eq_univ]).trans ?_
  rw [bigSep_W0]
  rfl

/-- The six buffers behind the windows, each whole at contents `X`, are the seven windows' holdings at `X`: the
    buffer windows 0 and 1 share is cut into its left and right half shares, and two halves at the same contents
    join to the whole again. -/
theorem arrBufs_split0 (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      ⊣⊢ iprop((((c : Thread nD τ).loc (Pipeline.arrRef spec0 0)) ↦{fullShare.left} X (Pipeline.arrRef spec0 0))
          ∗ (((c : Thread nD τ).loc (Pipeline.arrRef spec0 1)) ↦{fullShare.right} X (Pipeline.arrRef spec0 1))
          ∗ (((c : Thread nD τ).loc (Pipeline.arrRef spec0 2)) ↦{fullShare} X (Pipeline.arrRef spec0 2))
          ∗ (((c : Thread nD τ).loc (Pipeline.arrRef spec0 3)) ↦{fullShare} X (Pipeline.arrRef spec0 3))
          ∗ (((c : Thread nD τ).loc (Pipeline.arrRef spec0 4)) ↦{fullShare} X (Pipeline.arrRef spec0 4))
          ∗ (((c : Thread nD τ).loc (Pipeline.arrRef spec0 5)) ↦{fullShare} X (Pipeline.arrRef spec0 5))
          ∗ (((c : Thread nD τ).loc (Pipeline.arrRef spec0 6)) ↦{fullShare} X (Pipeline.arrRef spec0 6))) := by
  unfold Pipeline.arrBufs
  rw [bigSep_eq_bigSepL_of_eq _ arrImage0 arrNodup0]
  constructor
  · show iprop((((c : Thread nD τ).loc (Pipeline.arrRef spec0 0)) ↦{fullShare} X (Pipeline.arrRef spec0 0))
          ∗ (((c : Thread nD τ).loc (Pipeline.arrRef spec0 2)) ↦{fullShare} X (Pipeline.arrRef spec0 2))
          ∗ (((c : Thread nD τ).loc (Pipeline.arrRef spec0 3)) ↦{fullShare} X (Pipeline.arrRef spec0 3))
          ∗ (((c : Thread nD τ).loc (Pipeline.arrRef spec0 4)) ↦{fullShare} X (Pipeline.arrRef spec0 4))
          ∗ (((c : Thread nD τ).loc (Pipeline.arrRef spec0 5)) ↦{fullShare} X (Pipeline.arrRef spec0 5))
          ∗ (((c : Thread nD τ).loc (Pipeline.arrRef spec0 6)) ↦{fullShare} X (Pipeline.arrRef spec0 6))) ⊢ _
    iintro ⟨H0, H2, H3, H4, H5, H6⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    iexact H6
  · show _ ⊢ iprop((((c : Thread nD τ).loc (Pipeline.arrRef spec0 0)) ↦{fullShare} X (Pipeline.arrRef spec0 0))
          ∗ (((c : Thread nD τ).loc (Pipeline.arrRef spec0 2)) ↦{fullShare} X (Pipeline.arrRef spec0 2))
          ∗ (((c : Thread nD τ).loc (Pipeline.arrRef spec0 3)) ↦{fullShare} X (Pipeline.arrRef spec0 3))
          ∗ (((c : Thread nD τ).loc (Pipeline.arrRef spec0 4)) ↦{fullShare} X (Pipeline.arrRef spec0 4))
          ∗ (((c : Thread nD τ).loc (Pipeline.arrRef spec0 5)) ↦{fullShare} X (Pipeline.arrRef spec0 5))
          ∗ (((c : Thread nD τ).loc (Pipeline.arrRef spec0 6)) ↦{fullShare} X (Pipeline.arrRef spec0 6)))
    iintro ⟨Hl, Hr, H2, H3, H4, H5, H6⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    iexact H6

/-- ENTRY: the core's unscoped buffers at `V c` are the pipeline's arrays at the proof data's entry contents — the
    shared adjacency buffer split half and half between windows 0 and 1 — and the unscoped rest at `V c`. -/
theorem entry0 (c : Dev nD) :
    (unscopedBufs c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrays_eq0]
  exact sep_mono (arrBufs_split0 c (V c)).1 .rfl

/-- At the region's end every window's array holds what the valuation `V'` has at its buffer: the result's by
    hypothesis, an input's because no point writes it and `V'` agrees with the entry valuation off the result. -/
theorem arrAt_end0 (c : Dev nD) (V' : (b : Ref sig .tc) → Buf (Elt F) ((c : Thread nD τ).loc b))
    (hF : V' (Pipeline.arrRef spec0 6) = (dat0 V c).arrAt 6 cfg0.N)
    (hrest : ∀ b : Ref sig .tc, b ≠ Pipeline.arrRef spec0 6 → V' b = V c b) :
    ∀ w : Fin cfg0.W, (dat0 V c).arrAt w cfg0.N = V' (Pipeline.arrRef spec0 w)
  | ⟨0, _⟩ => ((dat0 V c).arrAt_in 0 rfl _).trans (hrest _ (by decide)).symm
  | ⟨1, _⟩ => ((dat0 V c).arrAt_in 1 rfl _).trans (hrest _ (by decide)).symm
  | ⟨2, _⟩ => ((dat0 V c).arrAt_in 2 rfl _).trans (hrest _ (by decide)).symm
  | ⟨3, _⟩ => ((dat0 V c).arrAt_in 3 rfl _).trans (hrest _ (by decide)).symm
  | ⟨4, _⟩ => ((dat0 V c).arrAt_in 4 rfl _).trans (hrest _ (by decide)).symm
  | ⟨5, _⟩ => ((dat0 V c).arrAt_in 5 rfl _).trans (hrest _ (by decide)).symm
  | ⟨6, _⟩ => hF.symm

/-- EXIT: the pipeline's arrays at their final contents and the unscoped rest at `V c` are the core's unscoped
    buffers at any valuation `V'` that has the result's array at what the pipeline left and agrees with `V c`
    everywhere else (the two halves of the adjacency buffer, which no point wrote, joined again). -/
theorem exit0 (c : Dev nD) (V' : (b : Ref sig .tc) → Buf (Elt F) ((c : Thread nD τ).loc b))
    (hF : V' (Pipeline.arrRef spec0 6) = (dat0 V c).arrAt 6 cfg0.N)
    (hrest : ∀ b : Ref sig .tc, b ≠ Pipeline.arrRef spec0 6 → V' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs c V' : sProp 𝕄) := by
  rw [Pipeline.unscopedBufs_split₀ cfgs 0 winFacts₀0.arr_unscoped c V', arrays_eq0]
  simp only [arrAt_end0 V c V' hF hrest]
  refine sep_mono (arrBufs_split0 c V').2 (Entails.of_eq ?_)
  unfold Pipeline.unscopedRest
  exact bigSep_congr fun b hb => by
    rw [hrest b fun e => (Finset.mem_sdiff.mp hb).2 (e ▸ Finset.mem_image_of_mem _ (Finset.mem_univ _))]

end Cert.Kernel.Hand

end
-- ==== Proof.BitsRun.Region1Seg.lean ====
import proofs.«147371_g55860344651847_cont_9to1c4b_578_10_alg».proof.Proof.BitsRun.Region1

/-! # Region 1 at its boundaries: the arrays out of the core's unscoped buffers and back

The adjacency matrix is ONE buffer read by two windows, so at the region's entry its whole-buffer ownership is
split into two half shares, one per window, and at the exit the two halves are joined again; every other
window's array is a buffer of its own held whole. The result's array leaves the region at what the write-backs
of the 25 points made of it; every other buffer leaves as it entered. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows are six: window 1's is window 0's, the others pairwise distinct. -/
theorem arrImage1 : Finset.univ.image (Pipeline.arrRef spec1)
    = [Pipeline.arrRef spec1 0, Pipeline.arrRef spec1 2, Pipeline.arrRef spec1 3, Pipeline.arrRef spec1 4,
       Pipeline.arrRef spec1 5, Pipeline.arrRef spec1 6].toFinset := by decide

theorem arrNodup1 : [Pipeline.arrRef spec1 0, Pipeline.arrRef spec1 2, Pipeline.arrRef spec1 3, Pipeline.arrRef spec1 4,
       Pipeline.arrRef spec1 5, Pipeline.arrRef spec1 6].Nodup := by decide

/-- The pipeline's arrays at contents `G`, window by window, each a whole buffer at the window's share: windows 0 and 1
    read one buffer, window 0 holding its left half share and window 1 its right half share; every other window holds
    its own buffer whole. -/
theorem arrays_eq1 (c : Dev nD) (G : (w : Fin cfg1.W) → Buf (Elt F) ((cfg1.win w).arr.view.loc (c : Thread nD τ))) :
    ((dat1 V c).arrays G : sProp 𝕄)
      = iprop((((c : Thread nD τ).loc (Pipeline.arrRef spec1 0)) ↦{fullShare.left} G 0)
          ∗ (((c : Thread nD τ).loc (Pipeline.arrRef spec1 1)) ↦{fullShare.right} G 1)
          ∗ (((c : Thread nD τ).loc (Pipeline.arrRef spec1 2)) ↦{fullShare} G 2)
          ∗ (((c : Thread nD τ).loc (Pipeline.arrRef spec1 3)) ↦{fullShare} G 3)
          ∗ (((c : Thread nD τ).loc (Pipeline.arrRef spec1 4)) ↦{fullShare} G 4)
          ∗ (((c : Thread nD τ).loc (Pipeline.arrRef spec1 5)) ↦{fullShare} G 5)
          ∗ (((c : Thread nD τ).loc (Pipeline.arrRef spec1 6)) ↦{fullShare} G 6)) := by
  unfold Dat.arrays
  refine (bigSep_congr (Ψ := fun w => (((c : Thread nD τ).loc (Pipeline.arrRef spec1 w)) ↦{(dat1 V c).share w} G w : sProp 𝕄))
    fun w _ => by rw [(arr_whole1 w).set_eq_univ]).trans ?_
  rw [bigSep_W1]
  rfl

/-- The six buffers behind the windows, each whole at contents `X`, are the seven windows' holdings at `X`: the
    buffer windows 0 and 1 share is cut into its left and right half shares, and two halves at the same contents
    join to the whole again. -/
theorem arrBufs_split1 (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      ⊣⊢ iprop((((c : Thread nD τ).loc (Pipeline.arrRef spec1 0)) ↦{fullShare.left} X (Pipeline.arrRef spec1 0))
          ∗ (((c : Thread nD τ).loc (Pipeline.arrRef spec1 1)) ↦{fullShare.right} X (Pipeline.arrRef spec1 1))
          ∗ (((c : Thread nD τ).loc (Pipeline.arrRef spec1 2)) ↦{fullShare} X (Pipeline.arrRef spec1 2))
          ∗ (((c : Thread nD τ).loc (Pipeline.arrRef spec1 3)) ↦{fullShare} X (Pipeline.arrRef spec1 3))
          ∗ (((c : Thread nD τ).loc (Pipeline.arrRef spec1 4)) ↦{fullShare} X (Pipeline.arrRef spec1 4))
          ∗ (((c : Thread nD τ).loc (Pipeline.arrRef spec1 5)) ↦{fullShare} X (Pipeline.arrRef spec1 5))
          ∗ (((c : Thread nD τ).loc (Pipeline.arrRef spec1 6)) ↦{fullShare} X (Pipeline.arrRef spec1 6))) := by
  unfold Pipeline.arrBufs
  rw [bigSep_eq_bigSepL_of_eq _ arrImage1 arrNodup1]
  constructor
  · show iprop((((c : Thread nD τ).loc (Pipeline.arrRef spec1 0)) ↦{fullShare} X (Pipeline.arrRef spec1 0))
          ∗ (((c : Thread nD τ).loc (Pipeline.arrRef spec1 2)) ↦{fullShare} X (Pipeline.arrRef spec1 2))
          ∗ (((c : Thread nD τ).loc (Pipeline.arrRef spec1 3)) ↦{fullShare} X (Pipeline.arrRef spec1 3))
          ∗ (((c : Thread nD τ).loc (Pipeline.arrRef spec1 4)) ↦{fullShare} X (Pipeline.arrRef spec1 4))
          ∗ (((c : Thread nD τ).loc (Pipeline.arrRef spec1 5)) ↦{fullShare} X (Pipeline.arrRef spec1 5))
          ∗ (((c : Thread nD τ).loc (Pipeline.arrRef spec1 6)) ↦{fullShare} X (Pipeline.arrRef spec1 6))) ⊢ _
    iintro ⟨H0, H2, H3, H4, H5, H6⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    iexact H6
  · show _ ⊢ iprop((((c : Thread nD τ).loc (Pipeline.arrRef spec1 0)) ↦{fullShare} X (Pipeline.arrRef spec1 0))
          ∗ (((c : Thread nD τ).loc (Pipeline.arrRef spec1 2)) ↦{fullShare} X (Pipeline.arrRef spec1 2))
          ∗ (((c : Thread nD τ).loc (Pipeline.arrRef spec1 3)) ↦{fullShare} X (Pipeline.arrRef spec1 3))
          ∗ (((c : Thread nD τ).loc (Pipeline.arrRef spec1 4)) ↦{fullShare} X (Pipeline.arrRef spec1 4))
          ∗ (((c : Thread nD τ).loc (Pipeline.arrRef spec1 5)) ↦{fullShare} X (Pipeline.arrRef spec1 5))
          ∗ (((c : Thread nD τ).loc (Pipeline.arrRef spec1 6)) ↦{fullShare} X (Pipeline.arrRef spec1 6)))
    iintro ⟨Hl, Hr, H2, H3, H4, H5, H6⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    iexact H6

/-- ENTRY: the core's unscoped buffers at `V c` are the pipeline's arrays at the proof data's entry contents — the
    shared adjacency buffer split half and half between windows 0 and 1 — and the unscoped rest at `V c`. -/
theorem entry1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [Pipeline.unscopedBufs_split₀ cfgs 1 winFacts₀1.arr_unscoped c (V c), arrays_eq1]
  exact sep_mono (arrBufs_split1 c (V c)).1 .rfl

/-- At the region's end every window's array holds what the valuation `V'` has at its buffer: the result's by
    hypothesis, an input's because no point writes it and `V'` agrees with the entry valuation off the result. -/
theorem arrAt_end1 (c : Dev nD) (V' : (b : Ref sig .tc) → Buf (Elt F) ((c : Thread nD τ).loc b))
    (hF : V' (Pipeline.arrRef spec1 6) = (dat1 V c).arrAt 6 cfg1.N)
    (hrest : ∀ b : Ref sig .tc, b ≠ Pipeline.arrRef spec1 6 → V' b = V c b) :
    ∀ w : Fin cfg1.W, (dat1 V c).arrAt w cfg1.N = V' (Pipeline.arrRef spec1 w)
  | ⟨0, _⟩ => ((dat1 V c).arrAt_in 0 rfl _).trans (hrest _ (by decide)).symm
  | ⟨1, _⟩ => ((dat1 V c).arrAt_in 1 rfl _).trans (hrest _ (by decide)).symm
  | ⟨2, _⟩ => ((dat1 V c).arrAt_in 2 rfl _).trans (hrest _ (by decide)).symm
  | ⟨3, _⟩ => ((dat1 V c).arrAt_in 3 rfl _).trans (hrest _ (by decide)).symm
  | ⟨4, _⟩ => ((dat1 V c).arrAt_in 4 rfl _).trans (hrest _ (by decide)).symm
  | ⟨5, _⟩ => ((dat1 V c).arrAt_in 5 rfl _).trans (hrest _ (by decide)).symm
  | ⟨6, _⟩ => hF.symm

/-- EXIT: the pipeline's arrays at their final contents and the unscoped rest at `V c` are the core's unscoped
    buffers at any valuation `V'` that has the result's array at what the pipeline left and agrees with `V c`
    everywhere else (the two halves of the adjacency buffer, which no point wrote, joined again). -/
theorem exit1 (c : Dev nD) (V' : (b : Ref sig .tc) → Buf (Elt F) ((c : Thread nD τ).loc b))
    (hF : V' (Pipeline.arrRef spec1 6) = (dat1 V c).arrAt 6 cfg1.N)
    (hrest : ∀ b : Ref sig .tc, b ≠ Pipeline.arrRef spec1 6 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V', arrays_eq1]
  simp only [arrAt_end1 V c V' hF hrest]
  refine sep_mono (arrBufs_split1 c V').2 (Entails.of_eq ?_)
  unfold Pipeline.unscopedRest
  exact bigSep_congr fun b hb => by
    rw [hrest b fun e => (Finset.mem_sdiff.mp hb).2 (e ▸ Finset.mem_image_of_mem _ (Finset.mem_univ _))]

end Cert.Kernel.Hand

end
-- ==== Proof.BitsRun.Region2Seg.lean ====
import proofs.«147371_g55860344651847_cont_9to1c4b_578_10_alg».proof.Proof.BitsRun.Region2

/-! # Region 2 at its boundaries: the arrays out of the core's unscoped buffers and back

The adjacency matrix is ONE buffer read by two windows, so at the region's entry its whole-buffer ownership is
split into two half shares, one per window, and at the exit the two halves are joined again; every other
window's array is a buffer of its own held whole. The result's array leaves the region at what the write-backs
of the 25 points made of it; every other buffer leaves as it entered. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows are six: window 1's is window 0's, the others pairwise distinct. -/
theorem arrImage2 : Finset.univ.image (Pipeline.arrRef spec2)
    = [Pipeline.arrRef spec2 0, Pipeline.arrRef spec2 2, Pipeline.arrRef spec2 3, Pipeline.arrRef spec2 4,
       Pipeline.arrRef spec2 5, Pipeline.arrRef spec2 6].toFinset := by decide

theorem arrNodup2 : [Pipeline.arrRef spec2 0, Pipeline.arrRef spec2 2, Pipeline.arrRef spec2 3, Pipeline.arrRef spec2 4,
       Pipeline.arrRef spec2 5, Pipeline.arrRef spec2 6].Nodup := by decide

/-- The pipeline's arrays at contents `G`, window by window, each a whole buffer at the window's share: windows 0 and 1
    read one buffer, window 0 holding its left half share and window 1 its right half share; every other window holds
    its own buffer whole. -/
theorem arrays_eq2 (c : Dev nD) (G : (w : Fin cfg2.W) → Buf (Elt F) ((cfg2.win w).arr.view.loc (c : Thread nD τ))) :
    ((dat2 V c).arrays G : sProp 𝕄)
      = iprop((((c : Thread nD τ).loc (Pipeline.arrRef spec2 0)) ↦{fullShare.left} G 0)
          ∗ (((c : Thread nD τ).loc (Pipeline.arrRef spec2 1)) ↦{fullShare.right} G 1)
          ∗ (((c : Thread nD τ).loc (Pipeline.arrRef spec2 2)) ↦{fullShare} G 2)
          ∗ (((c : Thread nD τ).loc (Pipeline.arrRef spec2 3)) ↦{fullShare} G 3)
          ∗ (((c : Thread nD τ).loc (Pipeline.arrRef spec2 4)) ↦{fullShare} G 4)
          ∗ (((c : Thread nD τ).loc (Pipeline.arrRef spec2 5)) ↦{fullShare} G 5)
          ∗ (((c : Thread nD τ).loc (Pipeline.arrRef spec2 6)) ↦{fullShare} G 6)) := by
  unfold Dat.arrays
  refine (bigSep_congr (Ψ := fun w => (((c : Thread nD τ).loc (Pipeline.arrRef spec2 w)) ↦{(dat2 V c).share w} G w : sProp 𝕄))
    fun w _ => by rw [(arr_whole2 w).set_eq_univ]).trans ?_
  rw [bigSep_W2]
  rfl

/-- The six buffers behind the windows, each whole at contents `X`, are the seven windows' holdings at `X`: the
    buffer windows 0 and 1 share is cut into its left and right half shares, and two halves at the same contents
    join to the whole again. -/
theorem arrBufs_split2 (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      ⊣⊢ iprop((((c : Thread nD τ).loc (Pipeline.arrRef spec2 0)) ↦{fullShare.left} X (Pipeline.arrRef spec2 0))
          ∗ (((c : Thread nD τ).loc (Pipeline.arrRef spec2 1)) ↦{fullShare.right} X (Pipeline.arrRef spec2 1))
          ∗ (((c : Thread nD τ).loc (Pipeline.arrRef spec2 2)) ↦{fullShare} X (Pipeline.arrRef spec2 2))
          ∗ (((c : Thread nD τ).loc (Pipeline.arrRef spec2 3)) ↦{fullShare} X (Pipeline.arrRef spec2 3))
          ∗ (((c : Thread nD τ).loc (Pipeline.arrRef spec2 4)) ↦{fullShare} X (Pipeline.arrRef spec2 4))
          ∗ (((c : Thread nD τ).loc (Pipeline.arrRef spec2 5)) ↦{fullShare} X (Pipeline.arrRef spec2 5))
          ∗ (((c : Thread nD τ).loc (Pipeline.arrRef spec2 6)) ↦{fullShare} X (Pipeline.arrRef spec2 6))) := by
  unfold Pipeline.arrBufs
  rw [bigSep_eq_bigSepL_of_eq _ arrImage2 arrNodup2]
  constructor
  · show iprop((((c : Thread nD τ).loc (Pipeline.arrRef spec2 0)) ↦{fullShare} X (Pipeline.arrRef spec2 0))
          ∗ (((c : Thread nD τ).loc (Pipeline.arrRef spec2 2)) ↦{fullShare} X (Pipeline.arrRef spec2 2))
          ∗ (((c : Thread nD τ).loc (Pipeline.arrRef spec2 3)) ↦{fullShare} X (Pipeline.arrRef spec2 3))
          ∗ (((c : Thread nD τ).loc (Pipeline.arrRef spec2 4)) ↦{fullShare} X (Pipeline.arrRef spec2 4))
          ∗ (((c : Thread nD τ).loc (Pipeline.arrRef spec2 5)) ↦{fullShare} X (Pipeline.arrRef spec2 5))
          ∗ (((c : Thread nD τ).loc (Pipeline.arrRef spec2 6)) ↦{fullShare} X (Pipeline.arrRef spec2 6))) ⊢ _
    iintro ⟨H0, H2, H3, H4, H5, H6⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    iexact H6
  · show _ ⊢ iprop((((c : Thread nD τ).loc (Pipeline.arrRef spec2 0)) ↦{fullShare} X (Pipeline.arrRef spec2 0))
          ∗ (((c : Thread nD τ).loc (Pipeline.arrRef spec2 2)) ↦{fullShare} X (Pipeline.arrRef spec2 2))
          ∗ (((c : Thread nD τ).loc (Pipeline.arrRef spec2 3)) ↦{fullShare} X (Pipeline.arrRef spec2 3))
          ∗ (((c : Thread nD τ).loc (Pipeline.arrRef spec2 4)) ↦{fullShare} X (Pipeline.arrRef spec2 4))
          ∗ (((c : Thread nD τ).loc (Pipeline.arrRef spec2 5)) ↦{fullShare} X (Pipeline.arrRef spec2 5))
          ∗ (((c : Thread nD τ).loc (Pipeline.arrRef spec2 6)) ↦{fullShare} X (Pipeline.arrRef spec2 6)))
    iintro ⟨Hl, Hr, H2, H3, H4, H5, H6⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    iexact H6

/-- ENTRY: the core's unscoped buffers at `V c` are the pipeline's arrays at the proof data's entry contents — the
    shared adjacency buffer split half and half between windows 0 and 1 — and the unscoped rest at `V c`. -/
theorem entry2 (c : Dev nD) :
    (unscopedBufs c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [Pipeline.unscopedBufs_split₀ cfgs 2 winFacts₀2.arr_unscoped c (V c), arrays_eq2]
  exact sep_mono (arrBufs_split2 c (V c)).1 .rfl

/-- At the region's end every window's array holds what the valuation `V'` has at its buffer: the result's by
    hypothesis, an input's because no point writes it and `V'` agrees with the entry valuation off the result. -/
theorem arrAt_end2 (c : Dev nD) (V' : (b : Ref sig .tc) → Buf (Elt F) ((c : Thread nD τ).loc b))
    (hF : V' (Pipeline.arrRef spec2 6) = (dat2 V c).arrAt 6 cfg2.N)
    (hrest : ∀ b : Ref sig .tc, b ≠ Pipeline.arrRef spec2 6 → V' b = V c b) :
    ∀ w : Fin cfg2.W, (dat2 V c).arrAt w cfg2.N = V' (Pipeline.arrRef spec2 w)
  | ⟨0, _⟩ => ((dat2 V c).arrAt_in 0 rfl _).trans (hrest _ (by decide)).symm
  | ⟨1, _⟩ => ((dat2 V c).arrAt_in 1 rfl _).trans (hrest _ (by decide)).symm
  | ⟨2, _⟩ => ((dat2 V c).arrAt_in 2 rfl _).trans (hrest _ (by decide)).symm
  | ⟨3, _⟩ => ((dat2 V c).arrAt_in 3 rfl _).trans (hrest _ (by decide)).symm
  | ⟨4, _⟩ => ((dat2 V c).arrAt_in 4 rfl _).trans (hrest _ (by decide)).symm
  | ⟨5, _⟩ => ((dat2 V c).arrAt_in 5 rfl _).trans (hrest _ (by decide)).symm
  | ⟨6, _⟩ => hF.symm

/-- EXIT: the pipeline's arrays at their final contents and the unscoped rest at `V c` are the core's unscoped
    buffers at any valuation `V'` that has the result's array at what the pipeline left and agrees with `V c`
    everywhere else (the two halves of the adjacency buffer, which no point wrote, joined again). -/
theorem exit2 (c : Dev nD) (V' : (b : Ref sig .tc) → Buf (Elt F) ((c : Thread nD τ).loc b))
    (hF : V' (Pipeline.arrRef spec2 6) = (dat2 V c).arrAt 6 cfg2.N)
    (hrest : ∀ b : Ref sig .tc, b ≠ Pipeline.arrRef spec2 6 → V' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs c V' : sProp 𝕄) := by
  rw [Pipeline.unscopedBufs_split₀ cfgs 2 winFacts₀2.arr_unscoped c V', arrays_eq2]
  simp only [arrAt_end2 V c V' hF hrest]
  refine sep_mono (arrBufs_split2 c V').2 (Entails.of_eq ?_)
  unfold Pipeline.unscopedRest
  exact bigSep_congr fun b hb => by
    rw [hrest b fun e => (Finset.mem_sdiff.mp hb).2 (e ▸ Finset.mem_image_of_mem _ (Finset.mem_univ _))]

end Cert.Kernel.Hand

end
-- ==== Proof.BitsRun.Region3Seg.lean ====
import proofs.«147371_g55860344651847_cont_9to1c4b_578_10_alg».proof.Proof.BitsRun.Region3

/-! # Region 3 at its boundaries: the arrays out of the core's unscoped buffers and back

The adjacency matrix is ONE buffer read by two windows, so at the region's entry its whole-buffer ownership is
split into two half shares, one per window, and at the exit the two halves are joined again; every other
window's array is a buffer of its own held whole. The result's array leaves the region at what the write-backs
of the 25 points made of it; every other buffer leaves as it entered. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows are six: window 1's is window 0's, the others pairwise distinct. -/
theorem arrImage3 : Finset.univ.image (Pipeline.arrRef spec3)
    = [Pipeline.arrRef spec3 0, Pipeline.arrRef spec3 2, Pipeline.arrRef spec3 3, Pipeline.arrRef spec3 4,
       Pipeline.arrRef spec3 5, Pipeline.arrRef spec3 6].toFinset := by decide

theorem arrNodup3 : [Pipeline.arrRef spec3 0, Pipeline.arrRef spec3 2, Pipeline.arrRef spec3 3, Pipeline.arrRef spec3 4,
       Pipeline.arrRef spec3 5, Pipeline.arrRef spec3 6].Nodup := by decide

/-- The pipeline's arrays at contents `G`, window by window, each a whole buffer at the window's share: windows 0 and 1
    read one buffer, window 0 holding its left half share and window 1 its right half share; every other window holds
    its own buffer whole. -/
theorem arrays_eq3 (c : Dev nD) (G : (w : Fin cfg3.W) → Buf (Elt F) ((cfg3.win w).arr.view.loc (c : Thread nD τ))) :
    ((dat3 V c).arrays G : sProp 𝕄)
      = iprop((((c : Thread nD τ).loc (Pipeline.arrRef spec3 0)) ↦{fullShare.left} G 0)
          ∗ (((c : Thread nD τ).loc (Pipeline.arrRef spec3 1)) ↦{fullShare.right} G 1)
          ∗ (((c : Thread nD τ).loc (Pipeline.arrRef spec3 2)) ↦{fullShare} G 2)
          ∗ (((c : Thread nD τ).loc (Pipeline.arrRef spec3 3)) ↦{fullShare} G 3)
          ∗ (((c : Thread nD τ).loc (Pipeline.arrRef spec3 4)) ↦{fullShare} G 4)
          ∗ (((c : Thread nD τ).loc (Pipeline.arrRef spec3 5)) ↦{fullShare} G 5)
          ∗ (((c : Thread nD τ).loc (Pipeline.arrRef spec3 6)) ↦{fullShare} G 6)) := by
  unfold Dat.arrays
  refine (bigSep_congr (Ψ := fun w => (((c : Thread nD τ).loc (Pipeline.arrRef spec3 w)) ↦{(dat3 V c).share w} G w : sProp 𝕄))
    fun w _ => by rw [(arr_whole3 w).set_eq_univ]).trans ?_
  rw [bigSep_W3]
  rfl

/-- The six buffers behind the windows, each whole at contents `X`, are the seven windows' holdings at `X`: the
    buffer windows 0 and 1 share is cut into its left and right half shares, and two halves at the same contents
    join to the whole again. -/
theorem arrBufs_split3 (c : Dev nD) (X : (b : Ref sig .tc) → Buf (Elt F) ((c : Thread nD τ).loc b)) :
    (Pipeline.arrBufs (Ix := Unit) (Name := ℕ) (U := UR sig nD τ) (Lvl := ℕ) spec3 c X : sProp 𝕄)
      ⊣⊢ iprop((((c : Thread nD τ).loc (Pipeline.arrRef spec3 0)) ↦{fullShare.left} X (Pipeline.arrRef spec3 0))
          ∗ (((c : Thread nD τ).loc (Pipeline.arrRef spec3 1)) ↦{fullShare.right} X (Pipeline.arrRef spec3 1))
          ∗ (((c : Thread nD τ).loc (Pipeline.arrRef spec3 2)) ↦{fullShare} X (Pipeline.arrRef spec3 2))
          ∗ (((c : Thread nD τ).loc (Pipeline.arrRef spec3 3)) ↦{fullShare} X (Pipeline.arrRef spec3 3))
          ∗ (((c : Thread nD τ).loc (Pipeline.arrRef spec3 4)) ↦{fullShare} X (Pipeline.arrRef spec3 4))
          ∗ (((c : Thread nD τ).loc (Pipeline.arrRef spec3 5)) ↦{fullShare} X (Pipeline.arrRef spec3 5))
          ∗ (((c : Thread nD τ).loc (Pipeline.arrRef spec3 6)) ↦{fullShare} X (Pipeline.arrRef spec3 6))) := by
  unfold Pipeline.arrBufs
  rw [bigSep_eq_bigSepL_of_eq _ arrImage3 arrNodup3]
  constructor
  · show iprop((((c : Thread nD τ).loc (Pipeline.arrRef spec3 0)) ↦{fullShare} X (Pipeline.arrRef spec3 0))
          ∗ (((c : Thread nD τ).loc (Pipeline.arrRef spec3 2)) ↦{fullShare} X (Pipeline.arrRef spec3 2))
          ∗ (((c : Thread nD τ).loc (Pipeline.arrRef spec3 3)) ↦{fullShare} X (Pipeline.arrRef spec3 3))
          ∗ (((c : Thread nD τ).loc (Pipeline.arrRef spec3 4)) ↦{fullShare} X (Pipeline.arrRef spec3 4))
          ∗ (((c : Thread nD τ).loc (Pipeline.arrRef spec3 5)) ↦{fullShare} X (Pipeline.arrRef spec3 5))
          ∗ (((c : Thread nD τ).loc (Pipeline.arrRef spec3 6)) ↦{fullShare} X (Pipeline.arrRef spec3 6))) ⊢ _
    iintro ⟨H0, H2, H3, H4, H5, H6⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    iexact H6
  · show _ ⊢ iprop((((c : Thread nD τ).loc (Pipeline.arrRef spec3 0)) ↦{fullShare} X (Pipeline.arrRef spec3 0))
          ∗ (((c : Thread nD τ).loc (Pipeline.arrRef spec3 2)) ↦{fullShare} X (Pipeline.arrRef spec3 2))
          ∗ (((c : Thread nD τ).loc (Pipeline.arrRef spec3 3)) ↦{fullShare} X (Pipeline.arrRef spec3 3))
          ∗ (((c : Thread nD τ).loc (Pipeline.arrRef spec3 4)) ↦{fullShare} X (Pipeline.arrRef spec3 4))
          ∗ (((c : Thread nD τ).loc (Pipeline.arrRef spec3 5)) ↦{fullShare} X (Pipeline.arrRef spec3 5))
          ∗ (((c : Thread nD τ).loc (Pipeline.arrRef spec3 6)) ↦{fullShare} X (Pipeline.arrRef spec3 6)))
    iintro ⟨Hl, Hr, H2, H3, H4, H5, H6⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    iexact H6

/-- ENTRY: the core's unscoped buffers at `V c` are the pipeline's arrays at the proof data's entry contents — the
    shared adjacency buffer split half and half between windows 0 and 1 — and the unscoped rest at `V c`. -/
theorem entry3 (c : Dev nD) :
    (unscopedBufs c (V c) : sProp 𝕄)
      ⊢ iprop((dat3 V c).arrays ((dat3 V c).arrAt · 0)
          ∗ Pipeline.unscopedRest (Ix := Unit) (Name := ℕ) (U := UR sig nD τ) (Lvl := ℕ) spec3 c (V c)) := by
  rw [Pipeline.unscopedBufs_split₀ cfgs 3 winFacts₀3.arr_unscoped c (V c), arrays_eq3]
  exact sep_mono (arrBufs_split3 c (V c)).1 .rfl

/-- At the region's end every window's array holds what the valuation `V'` has at its buffer: the result's by
    hypothesis, an input's because no point writes it and `V'` agrees with the entry valuation off the result. -/
theorem arrAt_end3 (c : Dev nD) (V' : (b : Ref sig .tc) → Buf (Elt F) ((c : Thread nD τ).loc b))
    (hF : V' (Pipeline.arrRef spec3 6) = (dat3 V c).arrAt 6 cfg3.N)
    (hrest : ∀ b : Ref sig .tc, b ≠ Pipeline.arrRef spec3 6 → V' b = V c b) :
    ∀ w : Fin cfg3.W, (dat3 V c).arrAt w cfg3.N = V' (Pipeline.arrRef spec3 w)
  | ⟨0, _⟩ => ((dat3 V c).arrAt_in 0 rfl _).trans (hrest _ (by decide)).symm
  | ⟨1, _⟩ => ((dat3 V c).arrAt_in 1 rfl _).trans (hrest _ (by decide)).symm
  | ⟨2, _⟩ => ((dat3 V c).arrAt_in 2 rfl _).trans (hrest _ (by decide)).symm
  | ⟨3, _⟩ => ((dat3 V c).arrAt_in 3 rfl _).trans (hrest _ (by decide)).symm
  | ⟨4, _⟩ => ((dat3 V c).arrAt_in 4 rfl _).trans (hrest _ (by decide)).symm
  | ⟨5, _⟩ => ((dat3 V c).arrAt_in 5 rfl _).trans (hrest _ (by decide)).symm
  | ⟨6, _⟩ => hF.symm

/-- EXIT: the pipeline's arrays at their final contents and the unscoped rest at `V c` are the core's unscoped
    buffers at any valuation `V'` that has the result's array at what the pipeline left and agrees with `V c`
    everywhere else (the two halves of the adjacency buffer, which no point wrote, joined again). -/
theorem exit3 (c : Dev nD) (V' : (b : Ref sig .tc) → Buf (Elt F) ((c : Thread nD τ).loc b))
    (hF : V' (Pipeline.arrRef spec3 6) = (dat3 V c).arrAt 6 cfg3.N)
    (hrest : ∀ b : Ref sig .tc, b ≠ Pipeline.arrRef spec3 6 → V' b = V c b) :
    iprop((dat3 V c).arrays ((dat3 V c).arrAt · cfg3.N)
        ∗ Pipeline.unscopedRest (Ix := Unit) (Name := ℕ) (U := UR sig nD τ) (Lvl := ℕ) spec3 c (V c))
      ⊢ (unscopedBufs c V' : sProp 𝕄) := by
  rw [Pipeline.unscopedBufs_split₀ cfgs 3 winFacts₀3.arr_unscoped c V', arrays_eq3]
  simp only [arrAt_end3 V c V' hF hrest]
  refine sep_mono (arrBufs_split3 c V').2 (Entails.of_eq ?_)
  unfold Pipeline.unscopedRest
  exact bigSep_congr fun b hb => by
    rw [hrest b fun e => (Finset.mem_sdiff.mp hb).2 (e ▸ Finset.mem_image_of_mem _ (Finset.mem_univ _))]

end Cert.Kernel.Hand

end
-- ==== Proof.BitsRun.Run.lean ====
import proofs.«147371_g55860344651847_cont_9to1c4b_578_10_alg».proof.Proof.BitsRun.Chain
import proofs.«147371_g55860344651847_cont_9to1c4b_578_10_alg».proof.Proof.BitsRun.Region0Seg
import proofs.«147371_g55860344651847_cont_9to1c4b_578_10_alg».proof.Proof.BitsRun.Region1Seg
import proofs.«147371_g55860344651847_cont_9to1c4b_578_10_alg».proof.Proof.BitsRun.Region2Seg
import proofs.«147371_g55860344651847_cont_9to1c4b_578_10_alg».proof.Proof.BitsRun.Region3Seg
import proofs.«147371_g55860344651847_cont_9to1c4b_578_10_alg».proof.Proof.Gen.Kernel.Regions

/-! # The run of @main: four host stretches and four regions, from the launch to the return

Every weakly fair execution terminates without a fault, and at the return every unscoped buffer of core `c` holds
`X8 m c`: the fold of the chain of boundary contents. The arguments are buffers no host stretch writes and no region
changes, so they end as launched: the frame. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The chain of boundary contents, step by step

A host stretch changes only the buffers its operations write; a region changes only its result's buffer, which it
leaves at what the pipeline's write-backs made of it. -/

/-- A buffer the first host stretch does not write is as launched after it. -/
theorem X1_of_unwritten (c : Dev nD) (r : Ref sig .tc) (h : r ∉ hostOps0_W) : X1 m c r = X0 m c r :=
  StableHlo.after_of_writes_sub hostOps0 _ hostOps0_writes h
/-- Region 0 leaves its result's buffer at what pipeline 0's write-backs made of it, -/
theorem X2_result (c : Dev nD) : T2 m c (Pipeline.arrRef spec0 6) = (dat0 (T1 m) c).arrAt 6 cfg0.N := by
  show X2 m c (Proc.devRef .tc main_v0) = _
  unfold X2; exact Function.update_self _ _ _
/-- and every other buffer as entered. -/
theorem X2_of_ne (c : Dev nD) (r : Ref sig .tc) (h : r ≠ Pipeline.arrRef spec0 6) : T2 m c r = T1 m c r := by
  show X2 m c (Proc.devRef .tc r) = X1 m c (Proc.devRef .tc r)
  unfold X2; exact Function.update_of_ne (StableHlo.devRef_ne_of_ne h) _ _
/-- A buffer the second host stretch does not write is unchanged by it. -/
theorem X3_of_unwritten (c : Dev nD) (r : Ref sig .tc) (h : r ∉ hostOps1_W) : X3 m c r = X2 m c r :=
  StableHlo.after_of_writes_sub hostOps1 _ hostOps1_writes h
/-- Region 1 leaves its result's buffer at what pipeline 1's write-backs made of it, -/
theorem X4_result (c : Dev nD) : T4 m c (Pipeline.arrRef spec1 6) = (dat1 (T3 m) c).arrAt 6 cfg1.N := by
  show X4 m c (Proc.devRef .tc main_v1) = _
  unfold X4; exact Function.update_self _ _ _
/-- and every other buffer as entered. -/
theorem X4_of_ne (c : Dev nD) (r : Ref sig .tc) (h : r ≠ Pipeline.arrRef spec1 6) : T4 m c r = T3 m c r := by
  show X4 m c (Proc.devRef .tc r) = X3 m c (Proc.devRef .tc r)
  unfold X4; exact Function.update_of_ne (StableHlo.devRef_ne_of_ne h) _ _
/-- A buffer the third host stretch does not write is unchanged by it. -/
theorem X5_of_unwritten (c : Dev nD) (r : Ref sig .tc) (h : r ∉ hostOps2_W) : X5 m c r = X4 m c r :=
  StableHlo.after_of_writes_sub hostOps2 _ hostOps2_writes h
/-- Region 2 leaves its result's buffer at what pipeline 2's write-backs made of it, -/
theorem X6_result (c : Dev nD) : T6 m c (Pipeline.arrRef spec2 6) = (dat2 (T5 m) c).arrAt 6 cfg2.N := by
  show X6 m c (Proc.devRef .tc main_v2) = _
  unfold X6; exact Function.update_self _ _ _
/-- and every other buffer as entered. -/
theorem X6_of_ne (c : Dev nD) (r : Ref sig .tc) (h : r ≠ Pipeline.arrRef spec2 6) : T6 m c r = T5 m c r := by
  show X6 m c (Proc.devRef .tc r) = X5 m c (Proc.devRef .tc r)
  unfold X6; exact Function.update_of_ne (StableHlo.devRef_ne_of_ne h) _ _
/-- A buffer the fourth host stretch does not write is unchanged by it. -/
theorem X7_of_unwritten (c : Dev nD) (r : Ref sig .tc) (h : r ∉ hostOps3_W) : X7 m c r = X6 m c r :=
  StableHlo.after_of_writes_sub hostOps3 _ hostOps3_writes h
/-- Region 3 leaves its result's buffer at what pipeline 3's write-backs made of it, -/
theorem X8_result (c : Dev nD) : T8 m c (Pipeline.arrRef spec3 6) = (dat3 (T7 m) c).arrAt 6 cfg3.N := by
  show X8 m c (Proc.devRef .tc main_v3) = _
  unfold X8; exact Function.update_self _ _ _
/-- and every other buffer as entered. -/
theorem X8_of_ne (c : Dev nD) (r : Ref sig .tc) (h : r ≠ Pipeline.arrRef spec3 6) : T8 m c r = T7 m c r := by
  show X8 m c (Proc.devRef .tc r) = X7 m c (Proc.devRef .tc r)
  unfold X8; exact Function.update_of_ne (StableHlo.devRef_ne_of_ne h) _ _

/-! ## The proof data of the four pipelines, and what rides beside the buffers -/

/-- Every pipeline's proof data, each at the contents its region is entered from. -/
def pdats : (p : Fin 4) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
  | ⟨3, _⟩ => fun c => dat3 (T7 m) c
abbrev noVariants : Variants := Variants.none
/-- No core owes another anything: no pair of cores is assigned a level. -/
abbrev noPairs : GSem nD τ sig → Finset Unit := fun _ => ∅
abbrev noLevel : GSem nD τ sig → Unit → ℕ := fun _ _ => 0
/-- Beside the buffers, through every stretch and region: the core's generator register at some state, and the core
    owing nothing. -/
abbrev rideAlong (c : Dev nD) : sProp 𝕄 := iprop((∃ r, prngReg c r) ∗ ∃ W, owes (c : Thread nD τ) (0 : CellTallies nD τ sig Unit) W)
/-- A host stretch from the contents `W`: it runs to the unscoped buffers at `StableHlo.after ops (W c)`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rideAlong
/-- At the return, the core's debt apart: every unscoped buffer at the last boundary's contents, the generator
    register at some state. -/
abbrev lastState (c : Dev nD) : sProp 𝕄 := iprop(StableHlo.held (c : Thread nD τ) (Pipeline.ucRefs τ sig) (X8 m c) ∗ ∃ r, prngReg c r)

/-! ## The regions between their boundaries -/

set_option backward.isDefEq.respectTransparency.types false in
/-- Region 0 between its two boundaries: entered with every unscoped buffer at `X1`, left with them at `X2`.
    The pipeline's arrays are taken out of the unscoped buffers at the entry (the shared adjacency buffer as two
    halves) and put back at the exit with the result's array at what the write-backs made of it; the generator
    register goes into the pipeline's invariant and comes back; nothing is owed. -/
def region0 : Pipeline.RegionSeg (pcfgs (F := F)) adm (pdats m) () defs₀ noVariants noPairs noLevel 0 where
  win := winFacts₀0
  block_pos := block_pos0
  stage_whole := stage_whole0
  K := PEmpty
  osem k := k.elim
  ho := Pipeline.OwnSemFacts.none _
  hbody c := (body_obligation0 (T1 m) c).loose
  hwaits := Pipeline.hwaits_of_owed_zero _ _ _ _ noPairs noLevel 0 fun _ _ => rfl
  pre c := iprop(StableHlo.held (c : Thread nD τ) (Pipeline.ucRefs τ sig) (X1 m c) ∗ rideAlong c)
  post c := iprop(StableHlo.held (c : Thread nD τ) (Pipeline.ucRefs τ sig) (X2 m c) ∗ rideAlong c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := entry0 (T1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (T1 m) c (T2 m c) (X2_result m c) (fun b hb => X2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 between its two boundaries: entered with every unscoped buffer at `X3`, left with them at `X4`.
    The pipeline's arrays are taken out of the unscoped buffers at the entry (the shared adjacency buffer as two
    halves) and put back at the exit with the result's array at what the write-backs made of it; the generator
    register goes into the pipeline's invariant and comes back; nothing is owed. -/
def region1 : Pipeline.RegionSeg (pcfgs (F := F)) adm (pdats m) () defs₀ noVariants noPairs noLevel 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ noPairs noLevel 1 fun _ _ => rfl
  pre c := iprop(StableHlo.held (c : Thread nD τ) (Pipeline.ucRefs τ sig) (X3 m c) ∗ rideAlong c)
  post c := iprop(StableHlo.held (c : Thread nD τ) (Pipeline.ucRefs τ sig) (X4 m c) ∗ rideAlong c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := entry1 (T3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (T3 m) c (T4 m c) (X4_result m c) (fun b hb => X4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 between its two boundaries: entered with every unscoped buffer at `X5`, left with them at `X6`.
    The pipeline's arrays are taken out of the unscoped buffers at the entry (the shared adjacency buffer as two
    halves) and put back at the exit with the result's array at what the write-backs made of it; the generator
    register goes into the pipeline's invariant and comes back; nothing is owed. -/
def region2 : Pipeline.RegionSeg (pcfgs (F := F)) adm (pdats m) () defs₀ noVariants noPairs noLevel 2 where
  win := winFacts₀2
  block_pos := block_pos2
  stage_whole := stage_whole2
  K := PEmpty
  osem k := k.elim
  ho := Pipeline.OwnSemFacts.none _
  hbody c := (body_obligation2 (T5 m) c).loose
  hwaits := Pipeline.hwaits_of_owed_zero _ _ _ _ noPairs noLevel 2 fun _ _ => rfl
  pre c := iprop(StableHlo.held (c : Thread nD τ) (Pipeline.ucRefs τ sig) (X5 m c) ∗ rideAlong c)
  post c := iprop(StableHlo.held (c : Thread nD τ) (Pipeline.ucRefs τ sig) (X6 m c) ∗ rideAlong c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := entry2 (T5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (T5 m) c (T6 m c) (X6_result m c) (fun b hb => X6_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 3 between its two boundaries: entered with every unscoped buffer at `X7`, left with them at `X8`.
    The pipeline's arrays are taken out of the unscoped buffers at the entry (the shared adjacency buffer as two
    halves) and put back at the exit with the result's array at what the write-backs made of it; the generator
    register goes into the pipeline's invariant and comes back; nothing is owed. -/
def region3 : Pipeline.RegionSeg (pcfgs (F := F)) adm (pdats m) () defs₀ noVariants noPairs noLevel 3 where
  win := winFacts₀3
  block_pos := block_pos3
  stage_whole := stage_whole3
  K := PEmpty
  osem k := k.elim
  ho := Pipeline.OwnSemFacts.none _
  hbody c := (body_obligation3 (T7 m) c).loose
  hwaits := Pipeline.hwaits_of_owed_zero _ _ _ _ noPairs noLevel 3 fun _ _ => rfl
  pre c := iprop(StableHlo.held (c : Thread nD τ) (Pipeline.ucRefs τ sig) (X7 m c) ∗ rideAlong c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := entry3 (T7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (T7 m) c (T8 m c) (X8_result m c) (fun b hb => X8_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as its eight items, and the launch -/

/-- @main's items in order: each host stretch from its boundary's contents, each region. -/
abbrev items : List (Pipeline.Seg (pcfgs (F := F)) adm (pdats m) () defs₀ noVariants noPairs noLevel) :=
  [ .host (hostStretch hostOps0 hostOps0_sub hostOps0_fresh (X0 m)),
    .region (region0 m),
    .host (hostStretch hostOps1 hostOps1_sub hostOps1_fresh (X2 m)),
    .region (region1 m),
    .host (hostStretch hostOps2 hostOps2_sub hostOps2_fresh (X4 m)),
    .region (region2 m),
    .host (hostStretch hostOps3 hostOps3_sub hostOps3_fresh (X6 m)),
    .region (region3 m) ]
/-- @main is the run of its items. -/
theorem main_run (c : Dev nD) : main (F := F) c = Pipeline.Seg.run (items m) :=
  main_segs adm (pdats m) () noVariants noPairs noLevel _ _ _ _ _ _ _ _ rfl rfl rfl rfl c

set_option backward.isDefEq.respectTransparency.types false in
/-- THE RUN: at the return every unscoped buffer holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X8 m c b) :=
  Pipeline.θ_run_regions_kit (pcfgs (F := F)) adm (pdats m) () cellOf_inj emb₁ defs₀ noVariants noPairs noLevel m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ rideAlong c)) (Tₙ := lastState m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h => h)

/-- An unscoped TensorCore reference is among those read at the return. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments through the chain -/

/-- A buffer that no host stretch writes and that is no region's result reaches the return as launched: at it the
    chain of boundary contents walks back, step by step, to the launch memory. -/
theorem X8_of_untouched (c : Dev nD) (r : Ref sig .tc)
    (h0 : r ∉ hostOps0_W) (h1 : r ∉ hostOps1_W) (h2 : r ∉ hostOps2_W) (h3 : r ∉ hostOps3_W)
    (hv0 : r ≠ Pipeline.arrRef spec0 6) (hv1 : r ≠ Pipeline.arrRef spec1 6)
    (hv2 : r ≠ Pipeline.arrRef spec2 6) (hv3 : r ≠ Pipeline.arrRef spec3 6) :
    X8 m c r = m ((c : Thread nD τ).loc r) :=
  (X8_of_ne m c r hv3).trans <| (X7_of_unwritten m c r h3).trans <| (X6_of_ne m c r hv2).trans <| (X5_of_unwritten m c r h2).trans <|
    (X4_of_ne m c r hv1).trans <| (X3_of_unwritten m c r h1).trans <| (X2_of_ne m c r hv0).trans <| (X1_of_unwritten m c r h0).trans rfl

/-- Each argument's buffer reaches the return as launched. -/
theorem X8_main_arg0 (c : Dev nD) : X8 m c main_arg0 = m ((c : Thread nD τ).loc main_arg0) :=
  X8_of_untouched m c main_arg0 (by decide) (by decide) (by decide) (by decide) (by decide) (by decide) (by decide) (by decide)
theorem X8_main_arg1 (c : Dev nD) : X8 m c main_arg1 = m ((c : Thread nD τ).loc main_arg1) :=
  X8_of_untouched m c main_arg1 (by decide) (by decide) (by decide) (by decide) (by decide) (by decide) (by decide) (by decide)
theorem X8_main_arg2 (c : Dev nD) : X8 m c main_arg2 = m ((c : Thread nD τ).loc main_arg2) :=
  X8_of_untouched m c main_arg2 (by decide) (by decide) (by decide) (by decide) (by decide) (by decide) (by decide) (by decide)
theorem X8_main_arg3 (c : Dev nD) : X8 m c main_arg3 = m ((c : Thread nD τ).loc main_arg3) :=
  X8_of_untouched m c main_arg3 (by decide) (by decide) (by decide) (by decide) (by decide) (by decide) (by decide) (by decide)
theorem X8_main_arg4 (c : Dev nD) : X8 m c main_arg4 = m ((c : Thread nD τ).loc main_arg4) :=
  X8_of_untouched m c main_arg4 (by decide) (by decide) (by decide) (by decide) (by decide) (by decide) (by decide) (by decide)
theorem X8_main_arg5 (c : Dev nD) : X8 m c main_arg5 = m ((c : Thread nD τ).loc main_arg5) :=
  X8_of_untouched m c main_arg5 (by decide) (by decide) (by decide) (by decide) (by decide) (by decide) (by decide) (by decide)
theorem X8_main_arg6 (c : Dev nD) : X8 m c main_arg6 = m ((c : Thread nD τ).loc main_arg6) :=
  X8_of_untouched m c main_arg6 (by decide) (by decide) (by decide) (by decide) (by decide) (by decide) (by decide) (by decide)
theorem X8_main_arg7 (c : Dev nD) : X8 m c main_arg7 = m ((c : Thread nD τ).loc main_arg7) :=
  X8_of_untouched m c main_arg7 (by decide) (by decide) (by decide) (by decide) (by decide) (by decide) (by decide) (by decide)

/-- THE FRAME: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (X8_main_arg0 m c),
     (h c _ (mem_uc main_arg1 (by decide))).trans (X8_main_arg1 m c),
     (h c _ (mem_uc main_arg2 (by decide))).trans (X8_main_arg2 m c),
     (h c _ (mem_uc main_arg3 (by decide))).trans (X8_main_arg3 m c),
     (h c _ (mem_uc main_arg4 (by decide))).trans (X8_main_arg4 m c),
     (h c _ (mem_uc main_arg5 (by decide))).trans (X8_main_arg5 m c),
     (h c _ (mem_uc main_arg6 (by decide))).trans (X8_main_arg6 m c),
     (h c _ (mem_uc main_arg7 (by decide))).trans (X8_main_arg7 m c)⟩) (run_all m ρ)

end Cert.Kernel.Hand

end
-- ==== Proof.IdealRun.Region0.lean ====
import proofs.«147371_g55860344651847_cont_9to1c4b_578_10_alg».proof.Proof.Gen.KernelIdeal.Launch
import proofs.«147371_g55860344651847_cont_9to1c4b_578_10_alg».proof.Proof.Gen.KernelIdeal.Skeleton
import proofs.«147371_g55860344651847_cont_9to1c4b_578_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: one layer-side update as a pipeline over 25 row blocks

At a parameter `V`, the buffer contents the region is entered from. Point `t` of the grid reads rows
`400 t … 400 t + 199` of the adjacency matrix through window 0 and rows `400 t + 200 … 400 t + 399` through
window 1 (two windows on ONE array), the whole neighbour table through window 2, rows `400 t … 400 t + 399`
of the self table through window 3, the two 64×64 weight pieces through windows 4 and 5, and writes rows
`400 t … 400 t + 399` of the result through window 6: one whole store of a pure function of the six loads. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rA0 : Rect S200x10000 := Rect.unit (s := S200x10000) ![0, 0] S200x10000.size inb_S200x10000_S200x10000_0_0
abbrev rH0 : Rect S10000x64 := Rect.unit (s := S10000x64) ![0, 0] S10000x64.size inb_S10000x64_S10000x64_0_0
abbrev rB0 : Rect S400x64 := Rect.unit (s := S400x64) ![0, 0] S400x64.size inb_S400x64_S400x64_0_0
abbrev rW0 : Rect S64x64 := Rect.unit (s := S64x64) ![0, 0] S64x64.size inb_S64x64_S64x64_0_0

/-- What the body leaves in the result window's buffer: its one whole store, the layer's arithmetic of the six
    loaded blocks (the two adjacency halves `a0`, `a1`, the neighbour table `ho`, the self rows `hs`, the two weight
    pieces `ws`, `wn`). -/
def out0_6 (a0 a1 : Vec F S200x10000 .f32) (ho : Vec F S10000x64 .f32) (hs : Vec F S400x64 .f32) (ws wn : Vec F S64x64 .f32) : Vec F S400x64 .f32 :=
  View.canon [⟨rB0, k0_pay1 (View.ld ho rH0) (View.ld a0 rA0) (View.ld a1 rA0) (View.ld hs rB0) (View.ld ws rW0) (View.ld wn rW0)⟩]

/-- The one store covers the buffer. -/
theorem cover0_6 (p0 : Vec F S400x64 .f32) (y : S400x64.Idx) :
    ∃ pc ∈ ([⟨rB0, p0⟩] : List (View.Piece (Elt F) S400x64 .f32)), y ∈ pc.1.set :=
  View.cover_of_tiled [⟨rB0, p0⟩] S400x64.size (by rfl) y

set_option maxHeartbeats 1000000 in
/-- The body on whole staging buffers: the six inputs at read contents, the result's at anything, runs to the inputs
    as they were and the result's buffer at `out0_6` of them. -/
theorem sound_kernel0 (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x64 .f32) (harg3 : arg3.IsWhole) (arg4 : Memref sig .tc .vmem S400x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S400x64 .f32) (harg7 : arg7.IsWhole)
    (a0 a1 : Vec F S200x10000 .f32) (ho : Vec F S10000x64 .f32) (hs : Vec F S400x64 .f32) (ws wn : Vec F S64x64 .f32) (K : PUnit → sProp 𝕄) :
    iprop(owns (c : Thread nD τ) arg1 fullShare a0 ∗ owns (c : Thread nD τ) arg2 fullShare a1 ∗ owns (c : Thread nD τ) arg3 fullShare ho
        ∗ owns (c : Thread nD τ) arg4 fullShare hs ∗ owns (c : Thread nD τ) arg5 fullShare ws ∗ owns (c : Thread nD τ) arg6 fullShare wn
        ∗ (∃ d, owns (c : Thread nD τ) arg7 fullShare d)
        ∗ (iprop(owns (c : Thread nD τ) arg1 fullShare a0 ∗ owns (c : Thread nD τ) arg2 fullShare a1 ∗ owns (c : Thread nD τ) arg3 fullShare ho
            ∗ owns (c : Thread nD τ) arg4 fullShare hs ∗ owns (c : Thread nD τ) arg5 fullShare ws ∗ owns (c : Thread nD τ) arg6 fullShare wn
            ∗ owns (c : Thread nD τ) arg7 fullShare (out0_6 a0 a1 ho hs ws wn)) -∗ K ⟨⟩))
      ⊢ wp frame (wpE (defs₀ (F := F)) Variants.none c none) E (cc0__layer_side_body i arg1 harg1 arg2 harg2 arg3 harg3 arg4 harg4 arg5 harg5 arg6 harg6 arg7 harg7) K := by
  simp only [cc0__layer_side_body_eq_skeleton]; unfold cc0__layer_side_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_6 _)

/-- The proof data of pipeline 0 on core `c`: the arrays as the region finds them; after the body each input's
    buffer at its block, the result's at `out0_6` of the blocks; the invariant the scoped rest and the generator
    register, untouched; nothing owed; the adjacency matrix, which two windows read, held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- What the body is handed at point `t`: the invariant, what the core owes, and each window's current buffer, the
    inputs' and the result's alike at what they then hold. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it hands back: the same invariant and debt, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: each input buffer holds its block there, so the body's triple applies at the six blocks;
    the invariant and the debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRun.Region1.lean ====
import proofs.«147371_g55860344651847_cont_9to1c4b_578_10_alg».proof.Proof.Gen.KernelIdeal.Launch
import proofs.«147371_g55860344651847_cont_9to1c4b_578_10_alg».proof.Proof.Gen.KernelIdeal.Skeleton
import proofs.«147371_g55860344651847_cont_9to1c4b_578_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: one layer-side update as a pipeline over 25 row blocks

At a parameter `V`, the buffer contents the region is entered from. Point `t` of the grid reads rows
`400 t … 400 t + 199` of the adjacency matrix through window 0 and rows `400 t + 200 … 400 t + 399` through
window 1 (two windows on ONE array), the whole neighbour table through window 2, rows `400 t … 400 t + 399`
of the self table through window 3, the two 64×64 weight pieces through windows 4 and 5, and writes rows
`400 t … 400 t + 399` of the result through window 6: one whole store of a pure function of the six loads. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rA1 : Rect S200x10000 := Rect.unit (s := S200x10000) ![0, 0] S200x10000.size inb_S200x10000_S200x10000_0_0
abbrev rH1 : Rect S10000x64 := Rect.unit (s := S10000x64) ![0, 0] S10000x64.size inb_S10000x64_S10000x64_0_0
abbrev rB1 : Rect S400x64 := Rect.unit (s := S400x64) ![0, 0] S400x64.size inb_S400x64_S400x64_0_0
abbrev rW1 : Rect S64x64 := Rect.unit (s := S64x64) ![0, 0] S64x64.size inb_S64x64_S64x64_0_0

/-- What the body leaves in the result window's buffer: its one whole store, the layer's arithmetic of the six
    loaded blocks (the two adjacency halves `a0`, `a1`, the neighbour table `ho`, the self rows `hs`, the two weight
    pieces `ws`, `wn`). -/
def out1_6 (a0 a1 : Vec F S200x10000 .f32) (ho : Vec F S10000x64 .f32) (hs : Vec F S400x64 .f32) (ws wn : Vec F S64x64 .f32) : Vec F S400x64 .f32 :=
  View.canon [⟨rB1, k1_pay1 (View.ld ho rH1) (View.ld a0 rA1) (View.ld a1 rA1) (View.ld hs rB1) (View.ld ws rW1) (View.ld wn rW1)⟩]

/-- The one store covers the buffer. -/
theorem cover1_6 (p0 : Vec F S400x64 .f32) (y : S400x64.Idx) :
    ∃ pc ∈ ([⟨rB1, p0⟩] : List (View.Piece (Elt F) S400x64 .f32)), y ∈ pc.1.set :=
  View.cover_of_tiled [⟨rB1, p0⟩] S400x64.size (by rfl) y

set_option maxHeartbeats 1000000 in
/-- The body on whole staging buffers: the six inputs at read contents, the result's at anything, runs to the inputs
    as they were and the result's buffer at `out1_6` of them. -/
theorem sound_kernel1 (c : Dev nD) (E : Set ℕ) (i : grid1.Coords)
    (arg1 : Memref sig .tc .vmem S200x10000 .f32) (harg1 : arg1.IsWhole) (arg2 : Memref sig .tc .vmem S200x10000 .f32) (harg2 : arg2.IsWhole)
    (arg3 : Memref sig .tc .vmem S10000x64 .f32) (harg3 : arg3.IsWhole) (arg4 : Memref sig .tc .vmem S400x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S400x64 .f32) (harg7 : arg7.IsWhole)
    (a0 a1 : Vec F S200x10000 .f32) (ho : Vec F S10000x64 .f32) (hs : Vec F S400x64 .f32) (ws wn : Vec F S64x64 .f32) (K : PUnit → sProp 𝕄) :
    iprop(owns (c : Thread nD τ) arg1 fullShare a0 ∗ owns (c : Thread nD τ) arg2 fullShare a1 ∗ owns (c : Thread nD τ) arg3 fullShare ho
        ∗ owns (c : Thread nD τ) arg4 fullShare hs ∗ owns (c : Thread nD τ) arg5 fullShare ws ∗ owns (c : Thread nD τ) arg6 fullShare wn
        ∗ (∃ d, owns (c : Thread nD τ) arg7 fullShare d)
        ∗ (iprop(owns (c : Thread nD τ) arg1 fullShare a0 ∗ owns (c : Thread nD τ) arg2 fullShare a1 ∗ owns (c : Thread nD τ) arg3 fullShare ho
            ∗ owns (c : Thread nD τ) arg4 fullShare hs ∗ owns (c : Thread nD τ) arg5 fullShare ws ∗ owns (c : Thread nD τ) arg6 fullShare wn
            ∗ owns (c : Thread nD τ) arg7 fullShare (out1_6 a0 a1 ho hs ws wn)) -∗ K ⟨⟩))
      ⊢ wp frame (wpE (defs₀ (F := F)) Variants.none c none) E (cc1__layer_side_body i arg1 harg1 arg2 harg2 arg3 harg3 arg4 harg4 arg5 harg5 arg6 harg6 arg7 harg7) K := by
  simp only [cc1__layer_side_body_eq_skeleton]; unfold cc1__layer_side_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-- The proof data of pipeline 1 on core `c`: the arrays as the region finds them; after the body each input's
    buffer at its block, the result's at `out1_6` of the blocks; the invariant the scoped rest and the generator
    register, untouched; nothing owed; the adjacency matrix, which two windows read, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- What the body is handed at point `t`: the invariant, what the core owes, and each window's current buffer, the
    inputs' and the result's alike at what they then hold. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back: the same invariant and debt, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: each input buffer holds its block there, so the body's triple applies at the six blocks;
    the invariant and the debt are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.Region2.lean ====
import proofs.«147371_g55860344651847_cont_9to1c4b_578_10_alg».proof.Proof.Gen.KernelIdeal.Launch
import proofs.«147371_g55860344651847_cont_9to1c4b_578_10_alg».proof.Proof.Gen.KernelIdeal.Skeleton
import proofs.«147371_g55860344651847_cont_9to1c4b_578_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: one layer-side update as a pipeline over 25 row blocks

At a parameter `V`, the buffer contents the region is entered from. Point `t` of the grid reads rows
`400 t … 400 t + 199` of the adjacency matrix through window 0 and rows `400 t + 200 … 400 t + 399` through
window 1 (two windows on ONE array), the whole neighbour table through window 2, rows `400 t … 400 t + 399`
of the self table through window 3, the two 64×64 weight pieces through windows 4 and 5, and writes rows
`400 t … 400 t + 399` of the result through window 6: one whole store of a pure function of the six loads. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rA2 : Rect S200x10000 := Rect.unit (s := S200x10000) ![0, 0] S200x10000.size inb_S200x10000_S200x10000_0_0
abbrev rH2 : Rect S10000x64 := Rect.unit (s := S10000x64) ![0, 0] S10000x64.size inb_S10000x64_S10000x64_0_0
abbrev rB2 : Rect S400x64 := Rect.unit (s := S400x64) ![0, 0] S400x64.size inb_S400x64_S400x64_0_0
abbrev rW2 : Rect S64x64 := Rect.unit (s := S64x64) ![0, 0] S64x64.size inb_S64x64_S64x64_0_0

/-- What the body leaves in the result window's buffer: its one whole store, the layer's arithmetic of the six
    loaded blocks (the two adjacency halves `a0`, `a1`, the neighbour table `ho`, the self rows `hs`, the two weight
    pieces `ws`, `wn`). -/
def out2_6 (a0 a1 : Vec F S200x10000 .f32) (ho : Vec F S10000x64 .f32) (hs : Vec F S400x64 .f32) (ws wn : Vec F S64x64 .f32) : Vec F S400x64 .f32 :=
  View.canon [⟨rB2, k2_pay1 (View.ld ho rH2) (View.ld a0 rA2) (View.ld a1 rA2) (View.ld hs rB2) (View.ld ws rW2) (View.ld wn rW2)⟩]

/-- The one store covers the buffer. -/
theorem cover2_6 (p0 : Vec F S400x64 .f32) (y : S400x64.Idx) :
    ∃ pc ∈ ([⟨rB2, p0⟩] : List (View.Piece (Elt F) S400x64 .f32)), y ∈ pc.1.set :=
  View.cover_of_tiled [⟨rB2, p0⟩] S400x64.size (by rfl) y

set_option maxHeartbeats 1000000 in
/-- The body on whole staging buffers: the six inputs at read contents, the result's at anything, runs to the inputs
    as they were and the result's buffer at `out2_6` of them. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole)
    (arg3 : Memref sig .tc .vmem S10000x64 .f32) (harg3 : arg3.IsWhole) (arg4 : Memref sig .tc .vmem S400x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S400x64 .f32) (harg7 : arg7.IsWhole)
    (a0 a1 : Vec F S200x10000 .f32) (ho : Vec F S10000x64 .f32) (hs : Vec F S400x64 .f32) (ws wn : Vec F S64x64 .f32) (K : PUnit → sProp 𝕄) :
    iprop(owns (c : Thread nD τ) arg1 fullShare a0 ∗ owns (c : Thread nD τ) arg2 fullShare a1 ∗ owns (c : Thread nD τ) arg3 fullShare ho
        ∗ owns (c : Thread nD τ) arg4 fullShare hs ∗ owns (c : Thread nD τ) arg5 fullShare ws ∗ owns (c : Thread nD τ) arg6 fullShare wn
        ∗ (∃ d, owns (c : Thread nD τ) arg7 fullShare d)
        ∗ (iprop(owns (c : Thread nD τ) arg1 fullShare a0 ∗ owns (c : Thread nD τ) arg2 fullShare a1 ∗ owns (c : Thread nD τ) arg3 fullShare ho
            ∗ owns (c : Thread nD τ) arg4 fullShare hs ∗ owns (c : Thread nD τ) arg5 fullShare ws ∗ owns (c : Thread nD τ) arg6 fullShare wn
            ∗ owns (c : Thread nD τ) arg7 fullShare (out2_6 a0 a1 ho hs ws wn)) -∗ K ⟨⟩))
      ⊢ wp frame (wpE (defs₀ (F := F)) Variants.none c none) E (cc2__layer_side_body i arg1 harg1 arg2 harg2 arg3 harg3 arg4 harg4 arg5 harg5 arg6 harg6 arg7 harg7) K := by
  simp only [cc2__layer_side_body_eq_skeleton]; unfold cc2__layer_side_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_6 _)

/-- The proof data of pipeline 2 on core `c`: the arrays as the region finds them; after the body each input's
    buffer at its block, the result's at `out2_6` of the blocks; the invariant the scoped rest and the generator
    register, untouched; nothing owed; the adjacency matrix, which two windows read, held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- What the body is handed at point `t`: the invariant, what the core owes, and each window's current buffer, the
    inputs' and the result's alike at what they then hold. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it hands back: the same invariant and debt, each buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: each input buffer holds its block there, so the body's triple applies at the six blocks;
    the invariant and the debt are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRun.Region3.lean ====
import proofs.«147371_g55860344651847_cont_9to1c4b_578_10_alg».proof.Proof.Gen.KernelIdeal.Launch
import proofs.«147371_g55860344651847_cont_9to1c4b_578_10_alg».proof.Proof.Gen.KernelIdeal.Skeleton
import proofs.«147371_g55860344651847_cont_9to1c4b_578_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: one layer-side update as a pipeline over 25 row blocks

At a parameter `V`, the buffer contents the region is entered from. Point `t` of the grid reads rows
`400 t … 400 t + 199` of the adjacency matrix through window 0 and rows `400 t + 200 … 400 t + 399` through
window 1 (two windows on ONE array), the whole neighbour table through window 2, rows `400 t … 400 t + 399`
of the self table through window 3, the two 64×64 weight pieces through windows 4 and 5, and writes rows
`400 t … 400 t + 399` of the result through window 6: one whole store of a pure function of the six loads. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev rA3 : Rect S200x10000 := Rect.unit (s := S200x10000) ![0, 0] S200x10000.size inb_S200x10000_S200x10000_0_0
abbrev rH3 : Rect S10000x64 := Rect.unit (s := S10000x64) ![0, 0] S10000x64.size inb_S10000x64_S10000x64_0_0
abbrev rB3 : Rect S400x64 := Rect.unit (s := S400x64) ![0, 0] S400x64.size inb_S400x64_S400x64_0_0
abbrev rW3 : Rect S64x64 := Rect.unit (s := S64x64) ![0, 0] S64x64.size inb_S64x64_S64x64_0_0

/-- What the body leaves in the result window's buffer: its one whole store, the layer's arithmetic of the six
    loaded blocks (the two adjacency halves `a0`, `a1`, the neighbour table `ho`, the self rows `hs`, the two weight
    pieces `ws`, `wn`). -/
def out3_6 (a0 a1 : Vec F S200x10000 .f32) (ho : Vec F S10000x64 .f32) (hs : Vec F S400x64 .f32) (ws wn : Vec F S64x64 .f32) : Vec F S400x64 .f32 :=
  View.canon [⟨rB3, k3_pay1 (View.ld ho rH3) (View.ld a0 rA3) (View.ld a1 rA3) (View.ld hs rB3) (View.ld ws rW3) (View.ld wn rW3)⟩]

/-- The one store covers the buffer. -/
theorem cover3_6 (p0 : Vec F S400x64 .f32) (y : S400x64.Idx) :
    ∃ pc ∈ ([⟨rB3, p0⟩] : List (View.Piece (Elt F) S400x64 .f32)), y ∈ pc.1.set :=
  View.cover_of_tiled [⟨rB3, p0⟩] S400x64.size (by rfl) y

set_option maxHeartbeats 1000000 in
/-- The body on whole staging buffers: the six inputs at read contents, the result's at anything, runs to the inputs
    as they were and the result's buffer at `out3_6` of them. -/
theorem sound_kernel3 (c : Dev nD) (E : Set ℕ) (i : grid3.Coords)
    (arg1 : Memref sig .tc .vmem S200x10000 .f32) (harg1 : arg1.IsWhole) (arg2 : Memref sig .tc .vmem S200x10000 .f32) (harg2 : arg2.IsWhole)
    (arg3 : Memref sig .tc .vmem S10000x64 .f32) (harg3 : arg3.IsWhole) (arg4 : Memref sig .tc .vmem S400x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S400x64 .f32) (harg7 : arg7.IsWhole)
    (a0 a1 : Vec F S200x10000 .f32) (ho : Vec F S10000x64 .f32) (hs : Vec F S400x64 .f32) (ws wn : Vec F S64x64 .f32) (K : PUnit → sProp 𝕄) :
    iprop(owns (c : Thread nD τ) arg1 fullShare a0 ∗ owns (c : Thread nD τ) arg2 fullShare a1 ∗ owns (c : Thread nD τ) arg3 fullShare ho
        ∗ owns (c : Thread nD τ) arg4 fullShare hs ∗ owns (c : Thread nD τ) arg5 fullShare ws ∗ owns (c : Thread nD τ) arg6 fullShare wn
        ∗ (∃ d, owns (c : Thread nD τ) arg7 fullShare d)
        ∗ (iprop(owns (c : Thread nD τ) arg1 fullShare a0 ∗ owns (c : Thread nD τ) arg2 fullShare a1 ∗ owns (c : Thread nD τ) arg3 fullShare ho
            ∗ owns (c : Thread nD τ) arg4 fullShare hs ∗ owns (c : Thread nD τ) arg5 fullShare ws ∗ owns (c : Thread nD τ) arg6 fullShare wn
            ∗ owns (c : Thread nD τ) arg7 fullShare (out3_6 a0 a1 ho hs ws wn)) -∗ K ⟨⟩))
      ⊢ wp frame (wpE (defs₀ (F := F)) Variants.none c none) E (cc3__layer_side_body i arg1 harg1 arg2 harg2 arg3 harg3 arg4 harg4 arg5 harg5 arg6 harg6 arg7 harg7) K := by
  simp only [cc3__layer_side_body_eq_skeleton]; unfold cc3__layer_side_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_6 _)

/-- The proof data of pipeline 3 on core `c`: the arrays as the region finds them; after the body each input's
    buffer at its block, the result's at `out3_6` of the blocks; the invariant the scoped rest and the generator
    register, untouched; nothing owed; the adjacency matrix, which two windows read, held half and half. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

/-- What the body is handed at point `t`: the invariant, what the core owes, and each window's current buffer, the
    inputs' and the result's alike at what they then hold. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- What it hands back: the same invariant and debt, each buffer at what the body leaves there. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: each input buffer holds its block there, so the body's triple applies at the six blocks;
    the invariant and the debt are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRun.Chain.lean ====
import proofs.«147371_g55860344651847_cont_9to1c4b_578_10_alg».proof.Proof.IdealRun.Region0
import proofs.«147371_g55860344651847_cont_9to1c4b_578_10_alg».proof.Proof.IdealRun.Region1
import proofs.«147371_g55860344651847_cont_9to1c4b_578_10_alg».proof.Proof.IdealRun.Region2
import proofs.«147371_g55860344651847_cont_9to1c4b_578_10_alg».proof.Proof.IdealRun.Region3

/-! # The buffers' contents at each boundary of @main

@main is: a host stretch (the two weight pieces of the call's weight matrix, sliced and transposed), a region, and
so four times. Core `c`'s unscoped buffers hold `X0` at launch; after a host stretch what `StableHlo.after` makes
of the valuation before it; after a region the valuation before it with the region's result buffer at what the
25 write-backs of the pipeline leave there (`Dat.arrAt … N`) — a region changes no other unscoped buffer. `TJ` is
`XJ` read at the TensorCore's references, which is what a region's proof data take. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At launch. -/
abbrev X0 (c : Dev nD) : Valuation τ sig (Elt F) := fun b => m (c, b)
/-- After the first host stretch: region 0's entry. -/
abbrev X1 (c : Dev nD) : Valuation τ sig (Elt F) := StableHlo.after hostOps0 (X0 m c)
abbrev T1 : (c : Dev nD) → (b : Ref sig .tc) → Buf (Elt F) ((c : Thread nD τ).loc b) := fun c b => X1 m c b
/-- After region 0: `main_v0` at what pipeline 0 leaves. -/
def X2 (c : Dev nD) : Valuation τ sig (Elt F) := Function.update (X1 m c) main_v0 ((dat0 (T1 m) c).arrAt 6 cfg0.N)
/-- After the second host stretch: region 1's entry. -/
abbrev X3 (c : Dev nD) : Valuation τ sig (Elt F) := StableHlo.after hostOps1 (X2 m c)
abbrev T3 : (c : Dev nD) → (b : Ref sig .tc) → Buf (Elt F) ((c : Thread nD τ).loc b) := fun c b => X3 m c b
/-- After region 1: `main_v1` at what pipeline 1 leaves. -/
def X4 (c : Dev nD) : Valuation τ sig (Elt F) := Function.update (X3 m c) main_v1 ((dat1 (T3 m) c).arrAt 6 cfg1.N)
/-- After the third host stretch: region 2's entry. -/
abbrev X5 (c : Dev nD) : Valuation τ sig (Elt F) := StableHlo.after hostOps2 (X4 m c)
abbrev T5 : (c : Dev nD) → (b : Ref sig .tc) → Buf (Elt F) ((c : Thread nD τ).loc b) := fun c b => X5 m c b
/-- After region 2: `main_v2` at what pipeline 2 leaves. -/
def X6 (c : Dev nD) : Valuation τ sig (Elt F) := Function.update (X5 m c) main_v2 ((dat2 (T5 m) c).arrAt 6 cfg2.N)
/-- After the fourth host stretch: region 3's entry. -/
abbrev X7 (c : Dev nD) : Valuation τ sig (Elt F) := StableHlo.after hostOps3 (X6 m c)
abbrev T7 : (c : Dev nD) → (b : Ref sig .tc) → Buf (Elt F) ((c : Thread nD τ).loc b) := fun c b => X7 m c b
/-- After region 3, at the return: `main_v3` at what pipeline 3 leaves. -/
def X8 (c : Dev nD) : Valuation τ sig (Elt F) := Function.update (X7 m c) main_v3 ((dat3 (T7 m) c).arrAt 6 cfg3.N)

/-- The same read at the TensorCore's references. -/
abbrev T2 : (c : Dev nD) → (b : Ref sig .tc) → Buf (Elt F) ((c : Thread nD τ).loc b) := fun c b => X2 m c b
abbrev T4 : (c : Dev nD) → (b : Ref sig .tc) → Buf (Elt F) ((c : Thread nD τ).loc b) := fun c b => X4 m c b
abbrev T6 : (c : Dev nD) → (b : Ref sig .tc) → Buf (Elt F) ((c : Thread nD τ).loc b) := fun c b => X6 m c b
abbrev T8 : (c : Dev nD) → (b : Ref sig .tc) → Buf (Elt F) ((c : Thread nD τ).loc b) := fun c b => X8 m c b

end Cert.KernelIdeal.Hand

end
-- ==== Proof.IdealRun.Region0Seg.lean ====
import proofs.«147371_g55860344651847_cont_9to1c4b_578_10_alg».proof.Proof.IdealRun.Region0

/-! # Region 0 at its boundaries: the arrays out of the core's unscoped buffers and back

The adjacency matrix is ONE buffer read by two windows, so at the region's entry its whole-buffer ownership is
split into two half shares, one per window, and at the exit the two halves are joined again; every other
window's array is a buffer of its own held whole. The result's array leaves the region at what the write-backs
of the 25 points made of it; every other buffer leaves as it entered. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows are six: window 1's is window 0's, the others pairwise distinct. -/
theorem arrImage0 : Finset.univ.image (Pipeline.arrRef spec0)
    = [Pipeline.arrRef spec0 0, Pipeline.arrRef spec0 2, Pipeline.arrRef spec0 3, Pipeline.arrRef spec0 4,
       Pipeline.arrRef spec0 5, Pipeline.arrRef spec0 6].toFinset := by decide

theorem arrNodup0 : [Pipeline.arrRef spec0 0, Pipeline.arrRef spec0 2, Pipeline.arrRef spec0 3, Pipeline.arrRef spec0 4,
       Pipeline.arrRef spec0 5, Pipeline.arrRef spec0 6].Nodup := by decide

/-- The pipeline's arrays at contents `G`, window by window, each a whole buffer at the window's share: windows 0 and 1
    read one buffer, window 0 holding its left half share and window 1 its right half share; every other window holds
    its own buffer whole. -/
theorem arrays_eq0 (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare.left} G 0)
          ∗ (((c : Thread nD τ).loc (Pipeline.arrRef spec0 1)) ↦{fullShare.right} G 1)
          ∗ (((c : Thread nD τ).loc (Pipeline.arrRef spec0 2)) ↦{fullShare} G 2)
          ∗ (((c : Thread nD τ).loc (Pipeline.arrRef spec0 3)) ↦{fullShare} G 3)
          ∗ (((c : Thread nD τ).loc (Pipeline.arrRef spec0 4)) ↦{fullShare} G 4)
          ∗ (((c : Thread nD τ).loc (Pipeline.arrRef spec0 5)) ↦{fullShare} G 5)
          ∗ (((c : Thread nD τ).loc (Pipeline.arrRef spec0 6)) ↦{fullShare} G 6)) := by
  unfold Dat.arrays
  refine (bigSep_congr (Ψ := fun w => (((c : Thread nD τ).loc (Pipeline.arrRef spec0 w)) ↦{(dat0 V c).share w} G w : sProp 𝕄))
    fun w _ => by rw [(arr_whole0 w).set_eq_univ]).trans ?_
  rw [bigSep_W0]
  rfl

/-- The six buffers behind the windows, each whole at contents `X`, are the seven windows' holdings at `X`: the
    buffer windows 0 and 1 share is cut into its left and right half shares, and two halves at the same contents
    join to the whole again. -/
theorem arrBufs_split0 (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      ⊣⊢ iprop((((c : Thread nD τ).loc (Pipeline.arrRef spec0 0)) ↦{fullShare.left} X (Pipeline.arrRef spec0 0))
          ∗ (((c : Thread nD τ).loc (Pipeline.arrRef spec0 1)) ↦{fullShare.right} X (Pipeline.arrRef spec0 1))
          ∗ (((c : Thread nD τ).loc (Pipeline.arrRef spec0 2)) ↦{fullShare} X (Pipeline.arrRef spec0 2))
          ∗ (((c : Thread nD τ).loc (Pipeline.arrRef spec0 3)) ↦{fullShare} X (Pipeline.arrRef spec0 3))
          ∗ (((c : Thread nD τ).loc (Pipeline.arrRef spec0 4)) ↦{fullShare} X (Pipeline.arrRef spec0 4))
          ∗ (((c : Thread nD τ).loc (Pipeline.arrRef spec0 5)) ↦{fullShare} X (Pipeline.arrRef spec0 5))
          ∗ (((c : Thread nD τ).loc (Pipeline.arrRef spec0 6)) ↦{fullShare} X (Pipeline.arrRef spec0 6))) := by
  unfold Pipeline.arrBufs
  rw [bigSep_eq_bigSepL_of_eq _ arrImage0 arrNodup0]
  constructor
  · show iprop((((c : Thread nD τ).loc (Pipeline.arrRef spec0 0)) ↦{fullShare} X (Pipeline.arrRef spec0 0))
          ∗ (((c : Thread nD τ).loc (Pipeline.arrRef spec0 2)) ↦{fullShare} X (Pipeline.arrRef spec0 2))
          ∗ (((c : Thread nD τ).loc (Pipeline.arrRef spec0 3)) ↦{fullShare} X (Pipeline.arrRef spec0 3))
          ∗ (((c : Thread nD τ).loc (Pipeline.arrRef spec0 4)) ↦{fullShare} X (Pipeline.arrRef spec0 4))
          ∗ (((c : Thread nD τ).loc (Pipeline.arrRef spec0 5)) ↦{fullShare} X (Pipeline.arrRef spec0 5))
          ∗ (((c : Thread nD τ).loc (Pipeline.arrRef spec0 6)) ↦{fullShare} X (Pipeline.arrRef spec0 6))) ⊢ _
    iintro ⟨H0, H2, H3, H4, H5, H6⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    iexact H6
  · show _ ⊢ iprop((((c : Thread nD τ).loc (Pipeline.arrRef spec0 0)) ↦{fullShare} X (Pipeline.arrRef spec0 0))
          ∗ (((c : Thread nD τ).loc (Pipeline.arrRef spec0 2)) ↦{fullShare} X (Pipeline.arrRef spec0 2))
          ∗ (((c : Thread nD τ).loc (Pipeline.arrRef spec0 3)) ↦{fullShare} X (Pipeline.arrRef spec0 3))
          ∗ (((c : Thread nD τ).loc (Pipeline.arrRef spec0 4)) ↦{fullShare} X (Pipeline.arrRef spec0 4))
          ∗ (((c : Thread nD τ).loc (Pipeline.arrRef spec0 5)) ↦{fullShare} X (Pipeline.arrRef spec0 5))
          ∗ (((c : Thread nD τ).loc (Pipeline.arrRef spec0 6)) ↦{fullShare} X (Pipeline.arrRef spec0 6)))
    iintro ⟨Hl, Hr, H2, H3, H4, H5, H6⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    iexact H6

/-- ENTRY: the core's unscoped buffers at `V c` are the pipeline's arrays at the proof data's entry contents — the
    shared adjacency buffer split half and half between windows 0 and 1 — and the unscoped rest at `V c`. -/
theorem entry0 (c : Dev nD) :
    (unscopedBufs c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrays_eq0]
  exact sep_mono (arrBufs_split0 c (V c)).1 .rfl

/-- At the region's end every window's array holds what the valuation `V'` has at its buffer: the result's by
    hypothesis, an input's because no point writes it and `V'` agrees with the entry valuation off the result. -/
theorem arrAt_end0 (c : Dev nD) (V' : (b : Ref sig .tc) → Buf (Elt F) ((c : Thread nD τ).loc b))
    (hF : V' (Pipeline.arrRef spec0 6) = (dat0 V c).arrAt 6 cfg0.N)
    (hrest : ∀ b : Ref sig .tc, b ≠ Pipeline.arrRef spec0 6 → V' b = V c b) :
    ∀ w : Fin cfg0.W, (dat0 V c).arrAt w cfg0.N = V' (Pipeline.arrRef spec0 w)
  | ⟨0, _⟩ => ((dat0 V c).arrAt_in 0 rfl _).trans (hrest _ (by decide)).symm
  | ⟨1, _⟩ => ((dat0 V c).arrAt_in 1 rfl _).trans (hrest _ (by decide)).symm
  | ⟨2, _⟩ => ((dat0 V c).arrAt_in 2 rfl _).trans (hrest _ (by decide)).symm
  | ⟨3, _⟩ => ((dat0 V c).arrAt_in 3 rfl _).trans (hrest _ (by decide)).symm
  | ⟨4, _⟩ => ((dat0 V c).arrAt_in 4 rfl _).trans (hrest _ (by decide)).symm
  | ⟨5, _⟩ => ((dat0 V c).arrAt_in 5 rfl _).trans (hrest _ (by decide)).symm
  | ⟨6, _⟩ => hF.symm

/-- EXIT: the pipeline's arrays at their final contents and the unscoped rest at `V c` are the core's unscoped
    buffers at any valuation `V'` that has the result's array at what the pipeline left and agrees with `V c`
    everywhere else (the two halves of the adjacency buffer, which no point wrote, joined again). -/
theorem exit0 (c : Dev nD) (V' : (b : Ref sig .tc) → Buf (Elt F) ((c : Thread nD τ).loc b))
    (hF : V' (Pipeline.arrRef spec0 6) = (dat0 V c).arrAt 6 cfg0.N)
    (hrest : ∀ b : Ref sig .tc, b ≠ Pipeline.arrRef spec0 6 → V' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs c V' : sProp 𝕄) := by
  rw [Pipeline.unscopedBufs_split₀ cfgs 0 winFacts₀0.arr_unscoped c V', arrays_eq0]
  simp only [arrAt_end0 V c V' hF hrest]
  refine sep_mono (arrBufs_split0 c V').2 (Entails.of_eq ?_)
  unfold Pipeline.unscopedRest
  exact bigSep_congr fun b hb => by
    rw [hrest b fun e => (Finset.mem_sdiff.mp hb).2 (e ▸ Finset.mem_image_of_mem _ (Finset.mem_univ _))]

end Cert.KernelIdeal.Hand

end
-- ==== Proof.IdealRun.Region1Seg.lean ====
import proofs.«147371_g55860344651847_cont_9to1c4b_578_10_alg».proof.Proof.IdealRun.Region1

/-! # Region 1 at its boundaries: the arrays out of the core's unscoped buffers and back

The adjacency matrix is ONE buffer read by two windows, so at the region's entry its whole-buffer ownership is
split into two half shares, one per window, and at the exit the two halves are joined again; every other
window's array is a buffer of its own held whole. The result's array leaves the region at what the write-backs
of the 25 points made of it; every other buffer leaves as it entered. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows are six: window 1's is window 0's, the others pairwise distinct. -/
theorem arrImage1 : Finset.univ.image (Pipeline.arrRef spec1)
    = [Pipeline.arrRef spec1 0, Pipeline.arrRef spec1 2, Pipeline.arrRef spec1 3, Pipeline.arrRef spec1 4,
       Pipeline.arrRef spec1 5, Pipeline.arrRef spec1 6].toFinset := by decide

theorem arrNodup1 : [Pipeline.arrRef spec1 0, Pipeline.arrRef spec1 2, Pipeline.arrRef spec1 3, Pipeline.arrRef spec1 4,
       Pipeline.arrRef spec1 5, Pipeline.arrRef spec1 6].Nodup := by decide

/-- The pipeline's arrays at contents `G`, window by window, each a whole buffer at the window's share: windows 0 and 1
    read one buffer, window 0 holding its left half share and window 1 its right half share; every other window holds
    its own buffer whole. -/
theorem arrays_eq1 (c : Dev nD) (G : (w : Fin cfg1.W) → Buf (Elt F) ((cfg1.win w).arr.view.loc (c : Thread nD τ))) :
    ((dat1 V c).arrays G : sProp 𝕄)
      = iprop((((c : Thread nD τ).loc (Pipeline.arrRef spec1 0)) ↦{fullShare.left} G 0)
          ∗ (((c : Thread nD τ).loc (Pipeline.arrRef spec1 1)) ↦{fullShare.right} G 1)
          ∗ (((c : Thread nD τ).loc (Pipeline.arrRef spec1 2)) ↦{fullShare} G 2)
          ∗ (((c : Thread nD τ).loc (Pipeline.arrRef spec1 3)) ↦{fullShare} G 3)
          ∗ (((c : Thread nD τ).loc (Pipeline.arrRef spec1 4)) ↦{fullShare} G 4)
          ∗ (((c : Thread nD τ).loc (Pipeline.arrRef spec1 5)) ↦{fullShare} G 5)
          ∗ (((c : Thread nD τ).loc (Pipeline.arrRef spec1 6)) ↦{fullShare} G 6)) := by
  unfold Dat.arrays
  refine (bigSep_congr (Ψ := fun w => (((c : Thread nD τ).loc (Pipeline.arrRef spec1 w)) ↦{(dat1 V c).share w} G w : sProp 𝕄))
    fun w _ => by rw [(arr_whole1 w).set_eq_univ]).trans ?_
  rw [bigSep_W1]
  rfl

/-- The six buffers behind the windows, each whole at contents `X`, are the seven windows' holdings at `X`: the
    buffer windows 0 and 1 share is cut into its left and right half shares, and two halves at the same contents
    join to the whole again. -/
theorem arrBufs_split1 (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      ⊣⊢ iprop((((c : Thread nD τ).loc (Pipeline.arrRef spec1 0)) ↦{fullShare.left} X (Pipeline.arrRef spec1 0))
          ∗ (((c : Thread nD τ).loc (Pipeline.arrRef spec1 1)) ↦{fullShare.right} X (Pipeline.arrRef spec1 1))
          ∗ (((c : Thread nD τ).loc (Pipeline.arrRef spec1 2)) ↦{fullShare} X (Pipeline.arrRef spec1 2))
          ∗ (((c : Thread nD τ).loc (Pipeline.arrRef spec1 3)) ↦{fullShare} X (Pipeline.arrRef spec1 3))
          ∗ (((c : Thread nD τ).loc (Pipeline.arrRef spec1 4)) ↦{fullShare} X (Pipeline.arrRef spec1 4))
          ∗ (((c : Thread nD τ).loc (Pipeline.arrRef spec1 5)) ↦{fullShare} X (Pipeline.arrRef spec1 5))
          ∗ (((c : Thread nD τ).loc (Pipeline.arrRef spec1 6)) ↦{fullShare} X (Pipeline.arrRef spec1 6))) := by
  unfold Pipeline.arrBufs
  rw [bigSep_eq_bigSepL_of_eq _ arrImage1 arrNodup1]
  constructor
  · show iprop((((c : Thread nD τ).loc (Pipeline.arrRef spec1 0)) ↦{fullShare} X (Pipeline.arrRef spec1 0))
          ∗ (((c : Thread nD τ).loc (Pipeline.arrRef spec1 2)) ↦{fullShare} X (Pipeline.arrRef spec1 2))
          ∗ (((c : Thread nD τ).loc (Pipeline.arrRef spec1 3)) ↦{fullShare} X (Pipeline.arrRef spec1 3))
          ∗ (((c : Thread nD τ).loc (Pipeline.arrRef spec1 4)) ↦{fullShare} X (Pipeline.arrRef spec1 4))
          ∗ (((c : Thread nD τ).loc (Pipeline.arrRef spec1 5)) ↦{fullShare} X (Pipeline.arrRef spec1 5))
          ∗ (((c : Thread nD τ).loc (Pipeline.arrRef spec1 6)) ↦{fullShare} X (Pipeline.arrRef spec1 6))) ⊢ _
    iintro ⟨H0, H2, H3, H4, H5, H6⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    iexact H6
  · show _ ⊢ iprop((((c : Thread nD τ).loc (Pipeline.arrRef spec1 0)) ↦{fullShare} X (Pipeline.arrRef spec1 0))
          ∗ (((c : Thread nD τ).loc (Pipeline.arrRef spec1 2)) ↦{fullShare} X (Pipeline.arrRef spec1 2))
          ∗ (((c : Thread nD τ).loc (Pipeline.arrRef spec1 3)) ↦{fullShare} X (Pipeline.arrRef spec1 3))
          ∗ (((c : Thread nD τ).loc (Pipeline.arrRef spec1 4)) ↦{fullShare} X (Pipeline.arrRef spec1 4))
          ∗ (((c : Thread nD τ).loc (Pipeline.arrRef spec1 5)) ↦{fullShare} X (Pipeline.arrRef spec1 5))
          ∗ (((c : Thread nD τ).loc (Pipeline.arrRef spec1 6)) ↦{fullShare} X (Pipeline.arrRef spec1 6)))
    iintro ⟨Hl, Hr, H2, H3, H4, H5, H6⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    iexact H6

/-- ENTRY: the core's unscoped buffers at `V c` are the pipeline's arrays at the proof data's entry contents — the
    shared adjacency buffer split half and half between windows 0 and 1 — and the unscoped rest at `V c`. -/
theorem entry1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [Pipeline.unscopedBufs_split₀ cfgs 1 winFacts₀1.arr_unscoped c (V c), arrays_eq1]
  exact sep_mono (arrBufs_split1 c (V c)).1 .rfl

/-- At the region's end every window's array holds what the valuation `V'` has at its buffer: the result's by
    hypothesis, an input's because no point writes it and `V'` agrees with the entry valuation off the result. -/
theorem arrAt_end1 (c : Dev nD) (V' : (b : Ref sig .tc) → Buf (Elt F) ((c : Thread nD τ).loc b))
    (hF : V' (Pipeline.arrRef spec1 6) = (dat1 V c).arrAt 6 cfg1.N)
    (hrest : ∀ b : Ref sig .tc, b ≠ Pipeline.arrRef spec1 6 → V' b = V c b) :
    ∀ w : Fin cfg1.W, (dat1 V c).arrAt w cfg1.N = V' (Pipeline.arrRef spec1 w)
  | ⟨0, _⟩ => ((dat1 V c).arrAt_in 0 rfl _).trans (hrest _ (by decide)).symm
  | ⟨1, _⟩ => ((dat1 V c).arrAt_in 1 rfl _).trans (hrest _ (by decide)).symm
  | ⟨2, _⟩ => ((dat1 V c).arrAt_in 2 rfl _).trans (hrest _ (by decide)).symm
  | ⟨3, _⟩ => ((dat1 V c).arrAt_in 3 rfl _).trans (hrest _ (by decide)).symm
  | ⟨4, _⟩ => ((dat1 V c).arrAt_in 4 rfl _).trans (hrest _ (by decide)).symm
  | ⟨5, _⟩ => ((dat1 V c).arrAt_in 5 rfl _).trans (hrest _ (by decide)).symm
  | ⟨6, _⟩ => hF.symm

/-- EXIT: the pipeline's arrays at their final contents and the unscoped rest at `V c` are the core's unscoped
    buffers at any valuation `V'` that has the result's array at what the pipeline left and agrees with `V c`
    everywhere else (the two halves of the adjacency buffer, which no point wrote, joined again). -/
theorem exit1 (c : Dev nD) (V' : (b : Ref sig .tc) → Buf (Elt F) ((c : Thread nD τ).loc b))
    (hF : V' (Pipeline.arrRef spec1 6) = (dat1 V c).arrAt 6 cfg1.N)
    (hrest : ∀ b : Ref sig .tc, b ≠ Pipeline.arrRef spec1 6 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V', arrays_eq1]
  simp only [arrAt_end1 V c V' hF hrest]
  refine sep_mono (arrBufs_split1 c V').2 (Entails.of_eq ?_)
  unfold Pipeline.unscopedRest
  exact bigSep_congr fun b hb => by
    rw [hrest b fun e => (Finset.mem_sdiff.mp hb).2 (e ▸ Finset.mem_image_of_mem _ (Finset.mem_univ _))]

end Cert.KernelIdeal.Hand

end
-- ==== Proof.IdealRun.Region2Seg.lean ====
import proofs.«147371_g55860344651847_cont_9to1c4b_578_10_alg».proof.Proof.IdealRun.Region2

/-! # Region 2 at its boundaries: the arrays out of the core's unscoped buffers and back

The adjacency matrix is ONE buffer read by two windows, so at the region's entry its whole-buffer ownership is
split into two half shares, one per window, and at the exit the two halves are joined again; every other
window's array is a buffer of its own held whole. The result's array leaves the region at what the write-backs
of the 25 points made of it; every other buffer leaves as it entered. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows are six: window 1's is window 0's, the others pairwise distinct. -/
theorem arrImage2 : Finset.univ.image (Pipeline.arrRef spec2)
    = [Pipeline.arrRef spec2 0, Pipeline.arrRef spec2 2, Pipeline.arrRef spec2 3, Pipeline.arrRef spec2 4,
       Pipeline.arrRef spec2 5, Pipeline.arrRef spec2 6].toFinset := by decide

theorem arrNodup2 : [Pipeline.arrRef spec2 0, Pipeline.arrRef spec2 2, Pipeline.arrRef spec2 3, Pipeline.arrRef spec2 4,
       Pipeline.arrRef spec2 5, Pipeline.arrRef spec2 6].Nodup := by decide

/-- The pipeline's arrays at contents `G`, window by window, each a whole buffer at the window's share: windows 0 and 1
    read one buffer, window 0 holding its left half share and window 1 its right half share; every other window holds
    its own buffer whole. -/
theorem arrays_eq2 (c : Dev nD) (G : (w : Fin cfg2.W) → Buf (Elt F) ((cfg2.win w).arr.view.loc (c : Thread nD τ))) :
    ((dat2 V c).arrays G : sProp 𝕄)
      = iprop((((c : Thread nD τ).loc (Pipeline.arrRef spec2 0)) ↦{fullShare.left} G 0)
          ∗ (((c : Thread nD τ).loc (Pipeline.arrRef spec2 1)) ↦{fullShare.right} G 1)
          ∗ (((c : Thread nD τ).loc (Pipeline.arrRef spec2 2)) ↦{fullShare} G 2)
          ∗ (((c : Thread nD τ).loc (Pipeline.arrRef spec2 3)) ↦{fullShare} G 3)
          ∗ (((c : Thread nD τ).loc (Pipeline.arrRef spec2 4)) ↦{fullShare} G 4)
          ∗ (((c : Thread nD τ).loc (Pipeline.arrRef spec2 5)) ↦{fullShare} G 5)
          ∗ (((c : Thread nD τ).loc (Pipeline.arrRef spec2 6)) ↦{fullShare} G 6)) := by
  unfold Dat.arrays
  refine (bigSep_congr (Ψ := fun w => (((c : Thread nD τ).loc (Pipeline.arrRef spec2 w)) ↦{(dat2 V c).share w} G w : sProp 𝕄))
    fun w _ => by rw [(arr_whole2 w).set_eq_univ]).trans ?_
  rw [bigSep_W2]
  rfl

/-- The six buffers behind the windows, each whole at contents `X`, are the seven windows' holdings at `X`: the
    buffer windows 0 and 1 share is cut into its left and right half shares, and two halves at the same contents
    join to the whole again. -/
theorem arrBufs_split2 (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      ⊣⊢ iprop((((c : Thread nD τ).loc (Pipeline.arrRef spec2 0)) ↦{fullShare.left} X (Pipeline.arrRef spec2 0))
          ∗ (((c : Thread nD τ).loc (Pipeline.arrRef spec2 1)) ↦{fullShare.right} X (Pipeline.arrRef spec2 1))
          ∗ (((c : Thread nD τ).loc (Pipeline.arrRef spec2 2)) ↦{fullShare} X (Pipeline.arrRef spec2 2))
          ∗ (((c : Thread nD τ).loc (Pipeline.arrRef spec2 3)) ↦{fullShare} X (Pipeline.arrRef spec2 3))
          ∗ (((c : Thread nD τ).loc (Pipeline.arrRef spec2 4)) ↦{fullShare} X (Pipeline.arrRef spec2 4))
          ∗ (((c : Thread nD τ).loc (Pipeline.arrRef spec2 5)) ↦{fullShare} X (Pipeline.arrRef spec2 5))
          ∗ (((c : Thread nD τ).loc (Pipeline.arrRef spec2 6)) ↦{fullShare} X (Pipeline.arrRef spec2 6))) := by
  unfold Pipeline.arrBufs
  rw [bigSep_eq_bigSepL_of_eq _ arrImage2 arrNodup2]
  constructor
  · show iprop((((c : Thread nD τ).loc (Pipeline.arrRef spec2 0)) ↦{fullShare} X (Pipeline.arrRef spec2 0))
          ∗ (((c : Thread nD τ).loc (Pipeline.arrRef spec2 2)) ↦{fullShare} X (Pipeline.arrRef spec2 2))
          ∗ (((c : Thread nD τ).loc (Pipeline.arrRef spec2 3)) ↦{fullShare} X (Pipeline.arrRef spec2 3))
          ∗ (((c : Thread nD τ).loc (Pipeline.arrRef spec2 4)) ↦{fullShare} X (Pipeline.arrRef spec2 4))
          ∗ (((c : Thread nD τ).loc (Pipeline.arrRef spec2 5)) ↦{fullShare} X (Pipeline.arrRef spec2 5))
          ∗ (((c : Thread nD τ).loc (Pipeline.arrRef spec2 6)) ↦{fullShare} X (Pipeline.arrRef spec2 6))) ⊢ _
    iintro ⟨H0, H2, H3, H4, H5, H6⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    iexact H6
  · show _ ⊢ iprop((((c : Thread nD τ).loc (Pipeline.arrRef spec2 0)) ↦{fullShare} X (Pipeline.arrRef spec2 0))
          ∗ (((c : Thread nD τ).loc (Pipeline.arrRef spec2 2)) ↦{fullShare} X (Pipeline.arrRef spec2 2))
          ∗ (((c : Thread nD τ).loc (Pipeline.arrRef spec2 3)) ↦{fullShare} X (Pipeline.arrRef spec2 3))
          ∗ (((c : Thread nD τ).loc (Pipeline.arrRef spec2 4)) ↦{fullShare} X (Pipeline.arrRef spec2 4))
          ∗ (((c : Thread nD τ).loc (Pipeline.arrRef spec2 5)) ↦{fullShare} X (Pipeline.arrRef spec2 5))
          ∗ (((c : Thread nD τ).loc (Pipeline.arrRef spec2 6)) ↦{fullShare} X (Pipeline.arrRef spec2 6)))
    iintro ⟨Hl, Hr, H2, H3, H4, H5, H6⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    iexact H6

/-- ENTRY: the core's unscoped buffers at `V c` are the pipeline's arrays at the proof data's entry contents — the
    shared adjacency buffer split half and half between windows 0 and 1 — and the unscoped rest at `V c`. -/
theorem entry2 (c : Dev nD) :
    (unscopedBufs c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [Pipeline.unscopedBufs_split₀ cfgs 2 winFacts₀2.arr_unscoped c (V c), arrays_eq2]
  exact sep_mono (arrBufs_split2 c (V c)).1 .rfl

/-- At the region's end every window's array holds what the valuation `V'` has at its buffer: the result's by
    hypothesis, an input's because no point writes it and `V'` agrees with the entry valuation off the result. -/
theorem arrAt_end2 (c : Dev nD) (V' : (b : Ref sig .tc) → Buf (Elt F) ((c : Thread nD τ).loc b))
    (hF : V' (Pipeline.arrRef spec2 6) = (dat2 V c).arrAt 6 cfg2.N)
    (hrest : ∀ b : Ref sig .tc, b ≠ Pipeline.arrRef spec2 6 → V' b = V c b) :
    ∀ w : Fin cfg2.W, (dat2 V c).arrAt w cfg2.N = V' (Pipeline.arrRef spec2 w)
  | ⟨0, _⟩ => ((dat2 V c).arrAt_in 0 rfl _).trans (hrest _ (by decide)).symm
  | ⟨1, _⟩ => ((dat2 V c).arrAt_in 1 rfl _).trans (hrest _ (by decide)).symm
  | ⟨2, _⟩ => ((dat2 V c).arrAt_in 2 rfl _).trans (hrest _ (by decide)).symm
  | ⟨3, _⟩ => ((dat2 V c).arrAt_in 3 rfl _).trans (hrest _ (by decide)).symm
  | ⟨4, _⟩ => ((dat2 V c).arrAt_in 4 rfl _).trans (hrest _ (by decide)).symm
  | ⟨5, _⟩ => ((dat2 V c).arrAt_in 5 rfl _).trans (hrest _ (by decide)).symm
  | ⟨6, _⟩ => hF.symm

/-- EXIT: the pipeline's arrays at their final contents and the unscoped rest at `V c` are the core's unscoped
    buffers at any valuation `V'` that has the result's array at what the pipeline left and agrees with `V c`
    everywhere else (the two halves of the adjacency buffer, which no point wrote, joined again). -/
theorem exit2 (c : Dev nD) (V' : (b : Ref sig .tc) → Buf (Elt F) ((c : Thread nD τ).loc b))
    (hF : V' (Pipeline.arrRef spec2 6) = (dat2 V c).arrAt 6 cfg2.N)
    (hrest : ∀ b : Ref sig .tc, b ≠ Pipeline.arrRef spec2 6 → V' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs c V' : sProp 𝕄) := by
  rw [Pipeline.unscopedBufs_split₀ cfgs 2 winFacts₀2.arr_unscoped c V', arrays_eq2]
  simp only [arrAt_end2 V c V' hF hrest]
  refine sep_mono (arrBufs_split2 c V').2 (Entails.of_eq ?_)
  unfold Pipeline.unscopedRest
  exact bigSep_congr fun b hb => by
    rw [hrest b fun e => (Finset.mem_sdiff.mp hb).2 (e ▸ Finset.mem_image_of_mem _ (Finset.mem_univ _))]

end Cert.KernelIdeal.Hand

end
-- ==== Proof.IdealRun.Region3Seg.lean ====
import proofs.«147371_g55860344651847_cont_9to1c4b_578_10_alg».proof.Proof.IdealRun.Region3

/-! # Region 3 at its boundaries: the arrays out of the core's unscoped buffers and back

The adjacency matrix is ONE buffer read by two windows, so at the region's entry its whole-buffer ownership is
split into two half shares, one per window, and at the exit the two halves are joined again; every other
window's array is a buffer of its own held whole. The result's array leaves the region at what the write-backs
of the 25 points made of it; every other buffer leaves as it entered. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows are six: window 1's is window 0's, the others pairwise distinct. -/
theorem arrImage3 : Finset.univ.image (Pipeline.arrRef spec3)
    = [Pipeline.arrRef spec3 0, Pipeline.arrRef spec3 2, Pipeline.arrRef spec3 3, Pipeline.arrRef spec3 4,
       Pipeline.arrRef spec3 5, Pipeline.arrRef spec3 6].toFinset := by decide

theorem arrNodup3 : [Pipeline.arrRef spec3 0, Pipeline.arrRef spec3 2, Pipeline.arrRef spec3 3, Pipeline.arrRef spec3 4,
       Pipeline.arrRef spec3 5, Pipeline.arrRef spec3 6].Nodup := by decide

/-- The pipeline's arrays at contents `G`, window by window, each a whole buffer at the window's share: windows 0 and 1
    read one buffer, window 0 holding its left half share and window 1 its right half share; every other window holds
    its own buffer whole. -/
theorem arrays_eq3 (c : Dev nD) (G : (w : Fin cfg3.W) → Buf (Elt F) ((cfg3.win w).arr.view.loc (c : Thread nD τ))) :
    ((dat3 V c).arrays G : sProp 𝕄)
      = iprop((((c : Thread nD τ).loc (Pipeline.arrRef spec3 0)) ↦{fullShare.left} G 0)
          ∗ (((c : Thread nD τ).loc (Pipeline.arrRef spec3 1)) ↦{fullShare.right} G 1)
          ∗ (((c : Thread nD τ).loc (Pipeline.arrRef spec3 2)) ↦{fullShare} G 2)
          ∗ (((c : Thread nD τ).loc (Pipeline.arrRef spec3 3)) ↦{fullShare} G 3)
          ∗ (((c : Thread nD τ).loc (Pipeline.arrRef spec3 4)) ↦{fullShare} G 4)
          ∗ (((c : Thread nD τ).loc (Pipeline.arrRef spec3 5)) ↦{fullShare} G 5)
          ∗ (((c : Thread nD τ).loc (Pipeline.arrRef spec3 6)) ↦{fullShare} G 6)) := by
  unfold Dat.arrays
  refine (bigSep_congr (Ψ := fun w => (((c : Thread nD τ).loc (Pipeline.arrRef spec3 w)) ↦{(dat3 V c).share w} G w : sProp 𝕄))
    fun w _ => by rw [(arr_whole3 w).set_eq_univ]).trans ?_
  rw [bigSep_W3]
  rfl

/-- The six buffers behind the windows, each whole at contents `X`, are the seven windows' holdings at `X`: the
    buffer windows 0 and 1 share is cut into its left and right half shares, and two halves at the same contents
    join to the whole again. -/
theorem arrBufs_split3 (c : Dev nD) (X : (b : Ref sig .tc) → Buf (Elt F) ((c : Thread nD τ).loc b)) :
    (Pipeline.arrBufs (Ix := Unit) (Name := ℕ) (U := UR sig nD τ) (Lvl := ℕ) spec3 c X : sProp 𝕄)
      ⊣⊢ iprop((((c : Thread nD τ).loc (Pipeline.arrRef spec3 0)) ↦{fullShare.left} X (Pipeline.arrRef spec3 0))
          ∗ (((c : Thread nD τ).loc (Pipeline.arrRef spec3 1)) ↦{fullShare.right} X (Pipeline.arrRef spec3 1))
          ∗ (((c : Thread nD τ).loc (Pipeline.arrRef spec3 2)) ↦{fullShare} X (Pipeline.arrRef spec3 2))
          ∗ (((c : Thread nD τ).loc (Pipeline.arrRef spec3 3)) ↦{fullShare} X (Pipeline.arrRef spec3 3))
          ∗ (((c : Thread nD τ).loc (Pipeline.arrRef spec3 4)) ↦{fullShare} X (Pipeline.arrRef spec3 4))
          ∗ (((c : Thread nD τ).loc (Pipeline.arrRef spec3 5)) ↦{fullShare} X (Pipeline.arrRef spec3 5))
          ∗ (((c : Thread nD τ).loc (Pipeline.arrRef spec3 6)) ↦{fullShare} X (Pipeline.arrRef spec3 6))) := by
  unfold Pipeline.arrBufs
  rw [bigSep_eq_bigSepL_of_eq _ arrImage3 arrNodup3]
  constructor
  · show iprop((((c : Thread nD τ).loc (Pipeline.arrRef spec3 0)) ↦{fullShare} X (Pipeline.arrRef spec3 0))
          ∗ (((c : Thread nD τ).loc (Pipeline.arrRef spec3 2)) ↦{fullShare} X (Pipeline.arrRef spec3 2))
          ∗ (((c : Thread nD τ).loc (Pipeline.arrRef spec3 3)) ↦{fullShare} X (Pipeline.arrRef spec3 3))
          ∗ (((c : Thread nD τ).loc (Pipeline.arrRef spec3 4)) ↦{fullShare} X (Pipeline.arrRef spec3 4))
          ∗ (((c : Thread nD τ).loc (Pipeline.arrRef spec3 5)) ↦{fullShare} X (Pipeline.arrRef spec3 5))
          ∗ (((c : Thread nD τ).loc (Pipeline.arrRef spec3 6)) ↦{fullShare} X (Pipeline.arrRef spec3 6))) ⊢ _
    iintro ⟨H0, H2, H3, H4, H5, H6⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    iexact H6
  · show _ ⊢ iprop((((c : Thread nD τ).loc (Pipeline.arrRef spec3 0)) ↦{fullShare} X (Pipeline.arrRef spec3 0))
          ∗ (((c : Thread nD τ).loc (Pipeline.arrRef spec3 2)) ↦{fullShare} X (Pipeline.arrRef spec3 2))
          ∗ (((c : Thread nD τ).loc (Pipeline.arrRef spec3 3)) ↦{fullShare} X (Pipeline.arrRef spec3 3))
          ∗ (((c : Thread nD τ).loc (Pipeline.arrRef spec3 4)) ↦{fullShare} X (Pipeline.arrRef spec3 4))
          ∗ (((c : Thread nD τ).loc (Pipeline.arrRef spec3 5)) ↦{fullShare} X (Pipeline.arrRef spec3 5))
          ∗ (((c : Thread nD τ).loc (Pipeline.arrRef spec3 6)) ↦{fullShare} X (Pipeline.arrRef spec3 6)))
    iintro ⟨Hl, Hr, H2, H3, H4, H5, H6⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    iexact H6

/-- ENTRY: the core's unscoped buffers at `V c` are the pipeline's arrays at the proof data's entry contents — the
    shared adjacency buffer split half and half between windows 0 and 1 — and the unscoped rest at `V c`. -/
theorem entry3 (c : Dev nD) :
    (unscopedBufs c (V c) : sProp 𝕄)
      ⊢ iprop((dat3 V c).arrays ((dat3 V c).arrAt · 0)
          ∗ Pipeline.unscopedRest (Ix := Unit) (Name := ℕ) (U := UR sig nD τ) (Lvl := ℕ) spec3 c (V c)) := by
  rw [Pipeline.unscopedBufs_split₀ cfgs 3 winFacts₀3.arr_unscoped c (V c), arrays_eq3]
  exact sep_mono (arrBufs_split3 c (V c)).1 .rfl

/-- At the region's end every window's array holds what the valuation `V'` has at its buffer: the result's by
    hypothesis, an input's because no point writes it and `V'` agrees with the entry valuation off the result. -/
theorem arrAt_end3 (c : Dev nD) (V' : (b : Ref sig .tc) → Buf (Elt F) ((c : Thread nD τ).loc b))
    (hF : V' (Pipeline.arrRef spec3 6) = (dat3 V c).arrAt 6 cfg3.N)
    (hrest : ∀ b : Ref sig .tc, b ≠ Pipeline.arrRef spec3 6 → V' b = V c b) :
    ∀ w : Fin cfg3.W, (dat3 V c).arrAt w cfg3.N = V' (Pipeline.arrRef spec3 w)
  | ⟨0, _⟩ => ((dat3 V c).arrAt_in 0 rfl _).trans (hrest _ (by decide)).symm
  | ⟨1, _⟩ => ((dat3 V c).arrAt_in 1 rfl _).trans (hrest _ (by decide)).symm
  | ⟨2, _⟩ => ((dat3 V c).arrAt_in 2 rfl _).trans (hrest _ (by decide)).symm
  | ⟨3, _⟩ => ((dat3 V c).arrAt_in 3 rfl _).trans (hrest _ (by decide)).symm
  | ⟨4, _⟩ => ((dat3 V c).arrAt_in 4 rfl _).trans (hrest _ (by decide)).symm
  | ⟨5, _⟩ => ((dat3 V c).arrAt_in 5 rfl _).trans (hrest _ (by decide)).symm
  | ⟨6, _⟩ => hF.symm

/-- EXIT: the pipeline's arrays at their final contents and the unscoped rest at `V c` are the core's unscoped
    buffers at any valuation `V'` that has the result's array at what the pipeline left and agrees with `V c`
    everywhere else (the two halves of the adjacency buffer, which no point wrote, joined again). -/
theorem exit3 (c : Dev nD) (V' : (b : Ref sig .tc) → Buf (Elt F) ((c : Thread nD τ).loc b))
    (hF : V' (Pipeline.arrRef spec3 6) = (dat3 V c).arrAt 6 cfg3.N)
    (hrest : ∀ b : Ref sig .tc, b ≠ Pipeline.arrRef spec3 6 → V' b = V c b) :
    iprop((dat3 V c).arrays ((dat3 V c).arrAt · cfg3.N)
        ∗ Pipeline.unscopedRest (Ix := Unit) (Name := ℕ) (U := UR sig nD τ) (Lvl := ℕ) spec3 c (V c))
      ⊢ (unscopedBufs c V' : sProp 𝕄) := by
  rw [Pipeline.unscopedBufs_split₀ cfgs 3 winFacts₀3.arr_unscoped c V', arrays_eq3]
  simp only [arrAt_end3 V c V' hF hrest]
  refine sep_mono (arrBufs_split3 c V').2 (Entails.of_eq ?_)
  unfold Pipeline.unscopedRest
  exact bigSep_congr fun b hb => by
    rw [hrest b fun e => (Finset.mem_sdiff.mp hb).2 (e ▸ Finset.mem_image_of_mem _ (Finset.mem_univ _))]

end Cert.KernelIdeal.Hand

end
-- ==== Proof.IdealRun.Run.lean ====
import proofs.«147371_g55860344651847_cont_9to1c4b_578_10_alg».proof.Proof.IdealRun.Chain
import proofs.«147371_g55860344651847_cont_9to1c4b_578_10_alg».proof.Proof.IdealRun.Region0Seg
import proofs.«147371_g55860344651847_cont_9to1c4b_578_10_alg».proof.Proof.IdealRun.Region1Seg
import proofs.«147371_g55860344651847_cont_9to1c4b_578_10_alg».proof.Proof.IdealRun.Region2Seg
import proofs.«147371_g55860344651847_cont_9to1c4b_578_10_alg».proof.Proof.IdealRun.Region3Seg
import proofs.«147371_g55860344651847_cont_9to1c4b_578_10_alg».proof.Proof.Gen.KernelIdeal.Regions

/-! # The run of @main: four host stretches and four regions, from the launch to the return

Every weakly fair execution terminates without a fault, and at the return every unscoped buffer of core `c` holds
`X8 m c`: the fold of the chain of boundary contents. The arguments are buffers no host stretch writes and no region
changes, so they end as launched: the frame. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The chain of boundary contents, step by step

A host stretch changes only the buffers its operations write; a region changes only its result's buffer, which it
leaves at what the pipeline's write-backs made of it. -/

/-- A buffer the first host stretch does not write is as launched after it. -/
theorem X1_of_unwritten (c : Dev nD) (r : Ref sig .tc) (h : r ∉ hostOps0_W) : X1 m c r = X0 m c r :=
  StableHlo.after_of_writes_sub hostOps0 _ hostOps0_writes h
/-- Region 0 leaves its result's buffer at what pipeline 0's write-backs made of it, -/
theorem X2_result (c : Dev nD) : T2 m c (Pipeline.arrRef spec0 6) = (dat0 (T1 m) c).arrAt 6 cfg0.N := by
  show X2 m c (Proc.devRef .tc main_v0) = _
  unfold X2; exact Function.update_self _ _ _
/-- and every other buffer as entered. -/
theorem X2_of_ne (c : Dev nD) (r : Ref sig .tc) (h : r ≠ Pipeline.arrRef spec0 6) : T2 m c r = T1 m c r := by
  show X2 m c (Proc.devRef .tc r) = X1 m c (Proc.devRef .tc r)
  unfold X2; exact Function.update_of_ne (StableHlo.devRef_ne_of_ne h) _ _
/-- A buffer the second host stretch does not write is unchanged by it. -/
theorem X3_of_unwritten (c : Dev nD) (r : Ref sig .tc) (h : r ∉ hostOps1_W) : X3 m c r = X2 m c r :=
  StableHlo.after_of_writes_sub hostOps1 _ hostOps1_writes h
/-- Region 1 leaves its result's buffer at what pipeline 1's write-backs made of it, -/
theorem X4_result (c : Dev nD) : T4 m c (Pipeline.arrRef spec1 6) = (dat1 (T3 m) c).arrAt 6 cfg1.N := by
  show X4 m c (Proc.devRef .tc main_v1) = _
  unfold X4; exact Function.update_self _ _ _
/-- and every other buffer as entered. -/
theorem X4_of_ne (c : Dev nD) (r : Ref sig .tc) (h : r ≠ Pipeline.arrRef spec1 6) : T4 m c r = T3 m c r := by
  show X4 m c (Proc.devRef .tc r) = X3 m c (Proc.devRef .tc r)
  unfold X4; exact Function.update_of_ne (StableHlo.devRef_ne_of_ne h) _ _
/-- A buffer the third host stretch does not write is unchanged by it. -/
theorem X5_of_unwritten (c : Dev nD) (r : Ref sig .tc) (h : r ∉ hostOps2_W) : X5 m c r = X4 m c r :=
  StableHlo.after_of_writes_sub hostOps2 _ hostOps2_writes h
/-- Region 2 leaves its result's buffer at what pipeline 2's write-backs made of it, -/
theorem X6_result (c : Dev nD) : T6 m c (Pipeline.arrRef spec2 6) = (dat2 (T5 m) c).arrAt 6 cfg2.N := by
  show X6 m c (Proc.devRef .tc main_v2) = _
  unfold X6; exact Function.update_self _ _ _
/-- and every other buffer as entered. -/
theorem X6_of_ne (c : Dev nD) (r : Ref sig .tc) (h : r ≠ Pipeline.arrRef spec2 6) : T6 m c r = T5 m c r := by
  show X6 m c (Proc.devRef .tc r) = X5 m c (Proc.devRef .tc r)
  unfold X6; exact Function.update_of_ne (StableHlo.devRef_ne_of_ne h) _ _
/-- A buffer the fourth host stretch does not write is unchanged by it. -/
theorem X7_of_unwritten (c : Dev nD) (r : Ref sig .tc) (h : r ∉ hostOps3_W) : X7 m c r = X6 m c r :=
  StableHlo.after_of_writes_sub hostOps3 _ hostOps3_writes h
/-- Region 3 leaves its result's buffer at what pipeline 3's write-backs made of it, -/
theorem X8_result (c : Dev nD) : T8 m c (Pipeline.arrRef spec3 6) = (dat3 (T7 m) c).arrAt 6 cfg3.N := by
  show X8 m c (Proc.devRef .tc main_v3) = _
  unfold X8; exact Function.update_self _ _ _
/-- and every other buffer as entered. -/
theorem X8_of_ne (c : Dev nD) (r : Ref sig .tc) (h : r ≠ Pipeline.arrRef spec3 6) : T8 m c r = T7 m c r := by
  show X8 m c (Proc.devRef .tc r) = X7 m c (Proc.devRef .tc r)
  unfold X8; exact Function.update_of_ne (StableHlo.devRef_ne_of_ne h) _ _

/-! ## The proof data of the four pipelines, and what rides beside the buffers -/

/-- Every pipeline's proof data, each at the contents its region is entered from. -/
def pdats : (p : Fin 4) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
  | ⟨3, _⟩ => fun c => dat3 (T7 m) c
abbrev noVariants : Variants := Variants.none
/-- No core owes another anything: no pair of cores is assigned a level. -/
abbrev noPairs : GSem nD τ sig → Finset Unit := fun _ => ∅
abbrev noLevel : GSem nD τ sig → Unit → ℕ := fun _ _ => 0
/-- Beside the buffers, through every stretch and region: the core's generator register at some state, and the core
    owing nothing. -/
abbrev rideAlong (c : Dev nD) : sProp 𝕄 := iprop((∃ r, prngReg c r) ∗ ∃ W, owes (c : Thread nD τ) (0 : CellTallies nD τ sig Unit) W)
/-- A host stretch from the contents `W`: it runs to the unscoped buffers at `StableHlo.after ops (W c)`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rideAlong
/-- At the return, the core's debt apart: every unscoped buffer at the last boundary's contents, the generator
    register at some state. -/
abbrev lastState (c : Dev nD) : sProp 𝕄 := iprop(StableHlo.held (c : Thread nD τ) (Pipeline.ucRefs τ sig) (X8 m c) ∗ ∃ r, prngReg c r)

/-! ## The regions between their boundaries -/

set_option backward.isDefEq.respectTransparency.types false in
/-- Region 0 between its two boundaries: entered with every unscoped buffer at `X1`, left with them at `X2`.
    The pipeline's arrays are taken out of the unscoped buffers at the entry (the shared adjacency buffer as two
    halves) and put back at the exit with the result's array at what the write-backs made of it; the generator
    register goes into the pipeline's invariant and comes back; nothing is owed. -/
def region0 : Pipeline.RegionSeg (pcfgs (F := F)) adm (pdats m) () defs₀ noVariants noPairs noLevel 0 where
  win := winFacts₀0
  block_pos := block_pos0
  stage_whole := stage_whole0
  K := PEmpty
  osem k := k.elim
  ho := Pipeline.OwnSemFacts.none _
  hbody c := (body_obligation0 (T1 m) c).loose
  hwaits := Pipeline.hwaits_of_owed_zero _ _ _ _ noPairs noLevel 0 fun _ _ => rfl
  pre c := iprop(StableHlo.held (c : Thread nD τ) (Pipeline.ucRefs τ sig) (X1 m c) ∗ rideAlong c)
  post c := iprop(StableHlo.held (c : Thread nD τ) (Pipeline.ucRefs τ sig) (X2 m c) ∗ rideAlong c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := entry0 (T1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (T1 m) c (T2 m c) (X2_result m c) (fun b hb => X2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 between its two boundaries: entered with every unscoped buffer at `X3`, left with them at `X4`.
    The pipeline's arrays are taken out of the unscoped buffers at the entry (the shared adjacency buffer as two
    halves) and put back at the exit with the result's array at what the write-backs made of it; the generator
    register goes into the pipeline's invariant and comes back; nothing is owed. -/
def region1 : Pipeline.RegionSeg (pcfgs (F := F)) adm (pdats m) () defs₀ noVariants noPairs noLevel 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ noPairs noLevel 1 fun _ _ => rfl
  pre c := iprop(StableHlo.held (c : Thread nD τ) (Pipeline.ucRefs τ sig) (X3 m c) ∗ rideAlong c)
  post c := iprop(StableHlo.held (c : Thread nD τ) (Pipeline.ucRefs τ sig) (X4 m c) ∗ rideAlong c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := entry1 (T3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (T3 m) c (T4 m c) (X4_result m c) (fun b hb => X4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 between its two boundaries: entered with every unscoped buffer at `X5`, left with them at `X6`.
    The pipeline's arrays are taken out of the unscoped buffers at the entry (the shared adjacency buffer as two
    halves) and put back at the exit with the result's array at what the write-backs made of it; the generator
    register goes into the pipeline's invariant and comes back; nothing is owed. -/
def region2 : Pipeline.RegionSeg (pcfgs (F := F)) adm (pdats m) () defs₀ noVariants noPairs noLevel 2 where
  win := winFacts₀2
  block_pos := block_pos2
  stage_whole := stage_whole2
  K := PEmpty
  osem k := k.elim
  ho := Pipeline.OwnSemFacts.none _
  hbody c := (body_obligation2 (T5 m) c).loose
  hwaits := Pipeline.hwaits_of_owed_zero _ _ _ _ noPairs noLevel 2 fun _ _ => rfl
  pre c := iprop(StableHlo.held (c : Thread nD τ) (Pipeline.ucRefs τ sig) (X5 m c) ∗ rideAlong c)
  post c := iprop(StableHlo.held (c : Thread nD τ) (Pipeline.ucRefs τ sig) (X6 m c) ∗ rideAlong c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := entry2 (T5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (T5 m) c (T6 m c) (X6_result m c) (fun b hb => X6_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 3 between its two boundaries: entered with every unscoped buffer at `X7`, left with them at `X8`.
    The pipeline's arrays are taken out of the unscoped buffers at the entry (the shared adjacency buffer as two
    halves) and put back at the exit with the result's array at what the write-backs made of it; the generator
    register goes into the pipeline's invariant and comes back; nothing is owed. -/
def region3 : Pipeline.RegionSeg (pcfgs (F := F)) adm (pdats m) () defs₀ noVariants noPairs noLevel 3 where
  win := winFacts₀3
  block_pos := block_pos3
  stage_whole := stage_whole3
  K := PEmpty
  osem k := k.elim
  ho := Pipeline.OwnSemFacts.none _
  hbody c := (body_obligation3 (T7 m) c).loose
  hwaits := Pipeline.hwaits_of_owed_zero _ _ _ _ noPairs noLevel 3 fun _ _ => rfl
  pre c := iprop(StableHlo.held (c : Thread nD τ) (Pipeline.ucRefs τ sig) (X7 m c) ∗ rideAlong c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := entry3 (T7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (T7 m) c (T8 m c) (X8_result m c) (fun b hb => X8_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as its eight items, and the launch -/

/-- @main's items in order: each host stretch from its boundary's contents, each region. -/
abbrev items : List (Pipeline.Seg (pcfgs (F := F)) adm (pdats m) () defs₀ noVariants noPairs noLevel) :=
  [ .host (hostStretch hostOps0 hostOps0_sub hostOps0_fresh (X0 m)),
    .region (region0 m),
    .host (hostStretch hostOps1 hostOps1_sub hostOps1_fresh (X2 m)),
    .region (region1 m),
    .host (hostStretch hostOps2 hostOps2_sub hostOps2_fresh (X4 m)),
    .region (region2 m),
    .host (hostStretch hostOps3 hostOps3_sub hostOps3_fresh (X6 m)),
    .region (region3 m) ]
/-- @main is the run of its items. -/
theorem main_run (c : Dev nD) : main (F := F) c = Pipeline.Seg.run (items m) :=
  main_segs adm (pdats m) () noVariants noPairs noLevel _ _ _ _ _ _ _ _ rfl rfl rfl rfl c

set_option backward.isDefEq.respectTransparency.types false in
/-- THE RUN: at the return every unscoped buffer holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X8 m c b) :=
  Pipeline.θ_run_regions_kit (pcfgs (F := F)) adm (pdats m) () cellOf_inj emb₁ defs₀ noVariants noPairs noLevel m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ rideAlong c)) (Tₙ := lastState m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h => h)

/-- An unscoped TensorCore reference is among those read at the return. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments through the chain -/

/-- A buffer that no host stretch writes and that is no region's result reaches the return as launched: at it the
    chain of boundary contents walks back, step by step, to the launch memory. -/
theorem X8_of_untouched (c : Dev nD) (r : Ref sig .tc)
    (h0 : r ∉ hostOps0_W) (h1 : r ∉ hostOps1_W) (h2 : r ∉ hostOps2_W) (h3 : r ∉ hostOps3_W)
    (hv0 : r ≠ Pipeline.arrRef spec0 6) (hv1 : r ≠ Pipeline.arrRef spec1 6)
    (hv2 : r ≠ Pipeline.arrRef spec2 6) (hv3 : r ≠ Pipeline.arrRef spec3 6) :
    X8 m c r = m ((c : Thread nD τ).loc r) :=
  (X8_of_ne m c r hv3).trans <| (X7_of_unwritten m c r h3).trans <| (X6_of_ne m c r hv2).trans <| (X5_of_unwritten m c r h2).trans <|
    (X4_of_ne m c r hv1).trans <| (X3_of_unwritten m c r h1).trans <| (X2_of_ne m c r hv0).trans <| (X1_of_unwritten m c r h0).trans rfl

/-- Each argument's buffer reaches the return as launched. -/
theorem X8_main_arg0 (c : Dev nD) : X8 m c main_arg0 = m ((c : Thread nD τ).loc main_arg0) :=
  X8_of_untouched m c main_arg0 (by decide) (by decide) (by decide) (by decide) (by decide) (by decide) (by decide) (by decide)
theorem X8_main_arg1 (c : Dev nD) : X8 m c main_arg1 = m ((c : Thread nD τ).loc main_arg1) :=
  X8_of_untouched m c main_arg1 (by decide) (by decide) (by decide) (by decide) (by decide) (by decide) (by decide) (by decide)
theorem X8_main_arg2 (c : Dev nD) : X8 m c main_arg2 = m ((c : Thread nD τ).loc main_arg2) :=
  X8_of_untouched m c main_arg2 (by decide) (by decide) (by decide) (by decide) (by decide) (by decide) (by decide) (by decide)
theorem X8_main_arg3 (c : Dev nD) : X8 m c main_arg3 = m ((c : Thread nD τ).loc main_arg3) :=
  X8_of_untouched m c main_arg3 (by decide) (by decide) (by decide) (by decide) (by decide) (by decide) (by decide) (by decide)
theorem X8_main_arg4 (c : Dev nD) : X8 m c main_arg4 = m ((c : Thread nD τ).loc main_arg4) :=
  X8_of_untouched m c main_arg4 (by decide) (by decide) (by decide) (by decide) (by decide) (by decide) (by decide) (by decide)
theorem X8_main_arg5 (c : Dev nD) : X8 m c main_arg5 = m ((c : Thread nD τ).loc main_arg5) :=
  X8_of_untouched m c main_arg5 (by decide) (by decide) (by decide) (by decide) (by decide) (by decide) (by decide) (by decide)
theorem X8_main_arg6 (c : Dev nD) : X8 m c main_arg6 = m ((c : Thread nD τ).loc main_arg6) :=
  X8_of_untouched m c main_arg6 (by decide) (by decide) (by decide) (by decide) (by decide) (by decide) (by decide) (by decide)
theorem X8_main_arg7 (c : Dev nD) : X8 m c main_arg7 = m ((c : Thread nD τ).loc main_arg7) :=
  X8_of_untouched m c main_arg7 (by decide) (by decide) (by decide) (by decide) (by decide) (by decide) (by decide) (by decide)

/-- THE FRAME: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (X8_main_arg0 m c),
     (h c _ (mem_uc main_arg1 (by decide))).trans (X8_main_arg1 m c),
     (h c _ (mem_uc main_arg2 (by decide))).trans (X8_main_arg2 m c),
     (h c _ (mem_uc main_arg3 (by decide))).trans (X8_main_arg3 m c),
     (h c _ (mem_uc main_arg4 (by decide))).trans (X8_main_arg4 m c),
     (h c _ (mem_uc main_arg5 (by decide))).trans (X8_main_arg5 m c),
     (h c _ (mem_uc main_arg6 (by decide))).trans (X8_main_arg6 m c),
     (h c _ (mem_uc main_arg7 (by decide))).trans (X8_main_arg7 m c)⟩) (run_all m ρ)

end Cert.KernelIdeal.Hand

end
-- ==== Proof.LayerSpec.lean ====
import Idealize.ShloMosaic.PureOps.Ideal
import Idealize.ShloMosaic.PureOps.Ideal.Laws
import Idealize.ShloMosaic.Lib.ValueIdx

/-! # One layer-side update, index by index, over the extended reals

For an adjacency matrix `A` (10000 × 10000), a neighbour table `ho` and a self table `hs` (10000 × 64 each) and a
weight matrix `W` (64 × 128), the update is

    x[r, q]   = Σ_{k<64} hs[r, k] · W[q, k]  +  Σ_{k<64} (Σ_l A[r, l] · ho[l, k]) · W[q, 64 + k]
    y[r, q]   = max (x[r, q], 0)
    out[r, q] = y[r, q] / max (√(Σ_{q'} y[r, q']²), ε)

`outK` states it over the two 64 × 64 weight pieces already transposed (`ws[k, q] = W[q, k]`, `wn[k, q] = W[q, 64 + k]`),
`out` over `W` itself. -/

noncomputable section

namespace Cert.Layer

open Idealize.ShloMosaic Idealize.ShloMosaic.ValueIdx

abbrev SA : Shape := ⟨2, ![10000, 10000]⟩
abbrev SH : Shape := ⟨2, ![10000, 64]⟩
abbrev SW : Shape := ⟨2, ![64, 128]⟩
abbrev SP : Shape := ⟨2, ![64, 64]⟩

/-- The zero the rectifier compares with and the row sum starts from, and the norm's floor `ε`: the programs' literals. -/
abbrev zeroLit : EReal := Ideal.ofBits .f32 0x00000000#32
abbrev epsLit : EReal := Ideal.ofBits .f32 0x2B8CBCCC#32

/-- `(A · ho)[r, k]`: row `r` of the adjacency matrix against column `k` of the neighbour table. -/
def neigh (A : SA.Idx → EReal) (ho : SH.Idx → EReal) (r : Fin 10000) (k : Fin 64) : EReal :=
  ∑ l : Fin 10000, A (ix2 r l) * ho (ix2 l k)

/-- The linear layer before the rectifier, over the two transposed weight pieces. -/
def preK (A : SA.Idx → EReal) (ho hs : SH.Idx → EReal) (ws wn : SP.Idx → EReal) (r : Fin 10000) (q : Fin 64) : EReal :=
  (∑ k : Fin 64, hs (ix2 r k) * ws (ix2 k q)) + ∑ k : Fin 64, neigh A ho r k * wn (ix2 k q)

/-- The rectified activation. -/
def actK (A : SA.Idx → EReal) (ho hs : SH.Idx → EReal) (ws wn : SP.Idx → EReal) (r : Fin 10000) (q : Fin 64) : EReal :=
  max (preK A ho hs ws wn r q) zeroLit

/-- The row's norm, floored at `ε`. -/
def normK (A : SA.Idx → EReal) (ho hs : SH.Idx → EReal) (ws wn : SP.Idx → EReal) (r : Fin 10000) : EReal :=
  max (Ideal.sqrt (zeroLit + ∑ q : Fin 64, actK A ho hs ws wn r q * actK A ho hs ws wn r q)) epsLit

/-- The update's result at row `r`, column `q`. -/
def outAtK (A : SA.Idx → EReal) (ho hs : SH.Idx → EReal) (ws wn : SP.Idx → EReal) (r : Fin 10000) (q : Fin 64) : EReal :=
  Ideal.div (actK A ho hs ws wn r q) (normK A ho hs ws wn r)

/-- The update's result array, over the two transposed weight pieces. -/
def outK (A : SA.Idx → EReal) (ho hs : SH.Idx → EReal) (ws wn : SP.Idx → EReal) : SH.Idx → EReal :=
  fun i => outAtK A ho hs ws wn (i 0) (i 1)

/-- The two weight pieces of `W`, transposed: `wsOf W [k, q] = W[q, k]`, `wnOf W [k, q] = W[q, 64 + k]`. -/
def wsOf (W : SW.Idx → EReal) : SP.Idx → EReal := fun i => W (ix2 (i 1) (⟨(i 0).val, by have h : (i 0).val < 64 := (i 0).isLt; omega⟩ : Fin 128))
def wnOf (W : SW.Idx → EReal) : SP.Idx → EReal := fun i => W (ix2 (i 1) (⟨64 + (i 0).val, by have h : (i 0).val < 64 := (i 0).isLt; omega⟩ : Fin 128))

/-- The update's result array over the weight matrix itself. -/
def out (A : SA.Idx → EReal) (ho hs : SH.Idx → EReal) (W : SW.Idx → EReal) : SH.Idx → EReal :=
  outK A ho hs (wsOf W) (wnOf W)

end Cert.Layer

end
-- ==== Proof.IdealRun.Payload.lean ====
import proofs.«147371_g55860344651847_cont_9to1c4b_578_10_alg».proof.Proof.Gen.KernelIdeal.Skeleton
import proofs.«147371_g55860344651847_cont_9to1c4b_578_10_alg».proof.Proof.LayerSpec
import Idealize.ShloMosaic.PureOps.Ideal.Laws
import Idealize.ShloMosaic.Lib.ValueIdx
import Idealize.ShloMosaic.Lib.ValueLayout
import Idealize.ShloMosaic.Lib.Pipeline.Value

/-! # The kernel body's arithmetic at an index, over the extended reals

One grid point's store as ONE index-by-index function of the six loaded blocks: the two adjacency halves `a0`, `a1`
(rows `0 … 199` and `200 … 399` of the point's 400 rows), the whole neighbour table `ho`, the point's 400 self rows
`hs`, and the two transposed weight pieces `ws`, `wn`. The two matrix products into a zero accumulator are plain sums,
their concatenation along the rows a case split on the row, the lane reduction a sum over the 64 columns; a change
of float format is the identity. -/

noncomputable section

namespace Cert.KernelIdeal.Hand

open Idealize.ShloMosaic Idealize.ShloMosaic.ValueIdx
open Cert.KernelIdeal Cert.KernelIdeal.Gen

/-- Row `p` of the point's neighbour aggregate: the first 200 rows from the first adjacency half, the rest from the second. -/
def neighB (a0 a1 : Vec Ideal S200x10000 .f32) (ho : Vec Ideal S10000x64 .f32) (p : Fin 400) (k : Fin 64) : EReal :=
  if h : p.val < 200 then ∑ l : Fin 10000, a0 (ix2 (⟨p.val, h⟩ : Fin 200) l) * ho (ix2 l k)
  else ∑ l : Fin 10000, a1 (ix2 (⟨p.val - 200, by have := p.isLt; omega⟩ : Fin 200) l) * ho (ix2 l k)

def preB (a0 a1 : Vec Ideal S200x10000 .f32) (ho : Vec Ideal S10000x64 .f32) (hs : Vec Ideal S400x64 .f32) (ws wn : Vec Ideal S64x64 .f32)
    (p : Fin 400) (q : Fin 64) : EReal :=
  (∑ k : Fin 64, hs (ix2 p k) * ws (ix2 k q)) + ∑ k : Fin 64, neighB a0 a1 ho p k * wn (ix2 k q)

def actB (a0 a1 : Vec Ideal S200x10000 .f32) (ho : Vec Ideal S10000x64 .f32) (hs : Vec Ideal S400x64 .f32) (ws wn : Vec Ideal S64x64 .f32)
    (p : Fin 400) (q : Fin 64) : EReal :=
  max (preB a0 a1 ho hs ws wn p q) Cert.Layer.zeroLit

def normB (a0 a1 : Vec Ideal S200x10000 .f32) (ho : Vec Ideal S10000x64 .f32) (hs : Vec Ideal S400x64 .f32) (ws wn : Vec Ideal S64x64 .f32)
    (p : Fin 400) : EReal :=
  max (Ideal.sqrt (Cert.Layer.zeroLit + ∑ q : Fin 64, actB a0 a1 ho hs ws wn p q * actB a0 a1 ho hs ws wn p q)) Cert.Layer.epsLit

/-- The point's result block, index by index. -/
def outB (a0 a1 : Vec Ideal S200x10000 .f32) (ho : Vec Ideal S10000x64 .f32) (hs : Vec Ideal S400x64 .f32) (ws wn : Vec Ideal S64x64 .f32) :
    Vec Ideal S400x64 .f32 :=
  fun i => Ideal.div (actB a0 a1 ho hs ws wn (i 0) (i 1)) (normB a0 a1 ho hs ws wn (i 0))

/-! ## The contraction records, axis by axis

For both products the left operand is read at (row of the result, contraction index) and the right operand at
(contraction index, column of the result). -/

theorem lhsAgg_0 (i : S200x64.Idx) (q : dot_S200x10000_S10000x64_S200x64_1_0_0_1_n_n.contr.Idx) :
    (dot_S200x10000_S10000x64_S200x64_1_0_0_1_n_n.lhsIdx i q 0).val = (i 0).val := by
  unfold DotDims.lhsIdx
  rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
  rfl
theorem lhsAgg_1 (i : S200x64.Idx) (q : dot_S200x10000_S10000x64_S200x64_1_0_0_1_n_n.contr.Idx) :
    (dot_S200x10000_S10000x64_S200x64_1_0_0_1_n_n.lhsIdx i q 1).val = (q ⟨0, by decide⟩).val :=
  dot_S200x10000_S10000x64_S200x64_1_0_0_1_n_n.lhsIdx_val_of_single rfl i q
theorem rhsAgg_0 (i : S200x64.Idx) (q : dot_S200x10000_S10000x64_S200x64_1_0_0_1_n_n.contr.Idx) :
    (dot_S200x10000_S10000x64_S200x64_1_0_0_1_n_n.rhsIdx i q 0).val = (q ⟨0, by decide⟩).val :=
  dot_S200x10000_S10000x64_S200x64_1_0_0_1_n_n.rhsIdx_val_of_single rfl i q
theorem rhsAgg_1 (i : S200x64.Idx) (q : dot_S200x10000_S10000x64_S200x64_1_0_0_1_n_n.contr.Idx) :
    (dot_S200x10000_S10000x64_S200x64_1_0_0_1_n_n.rhsIdx i q 1).val = (i 1).val := by
  unfold DotDims.rhsIdx
  rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
  rfl

theorem lhsLin_0 (i : S400x64.Idx) (q : dot_S400x64_S64x64_S400x64_1_0_0_1_n_n.contr.Idx) :
    (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
theorem lhsLin_1 (i : S400x64.Idx) (q : dot_S400x64_S64x64_S400x64_1_0_0_1_n_n.contr.Idx) :
    (dot_S400x64_S64x64_S400x64_1_0_0_1_n_n.lhsIdx i q 1).val = (q ⟨0, by decide⟩).val :=
  dot_S400x64_S64x64_S400x64_1_0_0_1_n_n.lhsIdx_val_of_single rfl i q
theorem rhsLin_0 (i : S400x64.Idx) (q : dot_S400x64_S64x64_S400x64_1_0_0_1_n_n.contr.Idx) :
    (dot_S400x64_S64x64_S400x64_1_0_0_1_n_n.rhsIdx i q 0).val = (q ⟨0, by decide⟩).val :=
  dot_S400x64_S64x64_S400x64_1_0_0_1_n_n.rhsIdx_val_of_single rfl i q
theorem rhsLin_1 (i : S400x64.Idx) (q : dot_S400x64_S64x64_S400x64_1_0_0_1_n_n.contr.Idx) :
    (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl

/-! ## One lemma per operation that is not pointwise -/

/-- A 200 × 10000 by 10000 × 64 product into the zero accumulator, at row `p` and column `k`: the sum over the
    10000 contraction indices. -/
theorem aggMatmul_apply (a : FVec Ideal S200x10000 .bf16) (h : FVec Ideal S10000x64 .bf16) (p : Fin 200) (k : Fin 64) :
    matmul dot_S200x10000_S10000x64_S200x64_1_0_0_1_n_n none a h (constant (F := Ideal) S200x64 .f32 0x00000000#32) (ix2 p k)
      = ∑ l : Fin 10000, a (ix2 p l) * h (ix2 l k) := by
  refine (Ideal.matmul_constant_zero_apply dot_S200x10000_S10000x64_S200x64_1_0_0_1_n_n none a h (ix2 p k)).trans ?_
  rw [← Equiv.sum_comp (contrEquiv1 dot_S200x10000_S10000x64_S200x64_1_0_0_1_n_n 10000 rfl rfl).symm]
  refine Finset.sum_congr rfl fun l _ => ?_
  have hl := contrEquiv1_symm_val dot_S200x10000_S10000x64_S200x64_1_0_0_1_n_n 10000 rfl rfl l
  have el : dot_S200x10000_S10000x64_S200x64_1_0_0_1_n_n.lhsIdx (ix2 p k) ((contrEquiv1 dot_S200x10000_S10000x64_S200x64_1_0_0_1_n_n 10000 rfl rfl).symm l) = ix2 p l := funext fun a => Fin.ext (by
    match a with
    | ⟨0, _⟩ => exact lhsAgg_0 _ _
    | ⟨1, _⟩ => exact (lhsAgg_1 _ _).trans hl)
  have er : dot_S200x10000_S10000x64_S200x64_1_0_0_1_n_n.rhsIdx (ix2 p k) ((contrEquiv1 dot_S200x10000_S10000x64_S200x64_1_0_0_1_n_n 10000 rfl rfl).symm l) = ix2 l k := funext fun a => Fin.ext (by
    match a with
    | ⟨0, _⟩ => exact (rhsAgg_0 _ _).trans hl
    | ⟨1, _⟩ => exact rhsAgg_1 _ _)
  rw [el, er]

/-- A 400 × 64 by 64 × 64 product into the zero accumulator, at row `p` and column `q`: the sum over the 64
    contraction indices. -/
theorem linMatmul_apply (x : FVec Ideal S400x64 .f32) (w : FVec Ideal S64x64 .f32) (p : Fin 400) (q : Fin 64) :
    matmul dot_S400x64_S64x64_S400x64_1_0_0_1_n_n none x w (constant (F := Ideal) S400x64 .f32 0x00000000#32) (ix2 p q)
      = ∑ k : Fin 64, x (ix2 p k) * w (ix2 k q) := by
  refine (Ideal.matmul_constant_zero_apply dot_S400x64_S64x64_S400x64_1_0_0_1_n_n none x w (ix2 p q)).trans ?_
  rw [← Equiv.sum_comp (contrEquiv1 dot_S400x64_S64x64_S400x64_1_0_0_1_n_n 64 rfl rfl).symm]
  refine Finset.sum_congr rfl fun k _ => ?_
  have hk := contrEquiv1_symm_val dot_S400x64_S64x64_S400x64_1_0_0_1_n_n 64 rfl rfl k
  have el : dot_S400x64_S64x64_S400x64_1_0_0_1_n_n.lhsIdx (ix2 p q) ((contrEquiv1 dot_S400x64_S64x64_S400x64_1_0_0_1_n_n 64 rfl rfl).symm k) = ix2 p k := funext fun a => Fin.ext (by
    match a with
    | ⟨0, _⟩ => exact lhsLin_0 _ _
    | ⟨1, _⟩ => exact (lhsLin_1 _ _).trans hk)
  have er : dot_S400x64_S64x64_S400x64_1_0_0_1_n_n.rhsIdx (ix2 p q) ((contrEquiv1 dot_S400x64_S64x64_S400x64_1_0_0_1_n_n 64 rfl rfl).symm k) = ix2 k q := funext fun a => Fin.ext (by
    match a with
    | ⟨0, _⟩ => exact (rhsLin_0 _ _).trans hk
    | ⟨1, _⟩ => exact rhsLin_1 _ _)
  rw [el, er]

/-- Two 200 × 64 pieces laid one under the other, at row `p`: the first piece's row `p` while `p < 200`, else the
    second piece's row `p - 200`. -/
theorem rowsJoin_apply (x y : FVec Ideal S200x64 .f32) (p : Fin 400) (k : Fin 64) :
    concatenate S400x64 0 [⟨S200x64, x⟩, ⟨S200x64, y⟩] concatenates_S200x64_S200x64_S400x64_d0 (ix2 p k)
      = if h : p.val < 200 then x (ix2 (⟨p.val, h⟩ : Fin 200) k)
        else y (ix2 (⟨p.val - 200, by have := p.isLt; omega⟩ : Fin 200) k) := by
  by_cases h : p.val < 200
  · rw [dif_pos h]
    refine concatenate_pair_apply_left (0 : Fin S400x64.rank) x y _ (ix2 p k) rfl (ix2 (⟨p.val, h⟩ : Fin 200) k) ?_
    intro b
    match b with
    | ⟨0, _⟩ => rfl
    | ⟨1, _⟩ => rfl
  · rw [dif_neg h]
    refine concatenate_pair_apply_right (0 : Fin S400x64.rank) x y _ (ix2 p k) rfl rfl
      (ix2 (⟨p.val - 200, by have := p.isLt; omega⟩ : Fin 200) k) ?_ ?_
    · intro b hb
      match b, hb with
      | ⟨0, _⟩, hb => exact absurd rfl hb
      | ⟨1, _⟩, _ => rfl
    · show (p.val - 200) + 200 = p.val
      omega

/-- The sum along the 64 columns, at row `p`. -/
theorem laneSum_apply (x : FVec Ideal S400x64 .f32) (p : Fin 400) :
    multiReduction (F := Ideal) .add [1] S400 x 0x00000000#32 reduces_S400x64_S400 (.inl rfl) rfl (ix1 p)
      = ∑ q : Fin 64, x (ix2 p q) := by
  refine (Ideal.multiReduction_add_single x _ reduces_S400x64_S400 (.inl rfl) rfl (ix1 p)).trans ?_
  refine Finset.sum_congr rfl fun q _ => congrArg x ?_
  funext a
  apply Fin.ext
  match a with
  | ⟨0, _⟩ => rfl
  | ⟨1, _⟩ => rfl

/-- A length-400 vector viewed as a 400 × 1 column. -/
theorem column_apply (x : FVec Ideal S400 .f32) (p : Fin 400) (z : Fin 1) :
    shapeCast S400x1 x shapeCasts_S400_S400x1 (ix2 p z) = x (ix1 p) := by
  refine shapeCast_apply x _ (ix2 p z) (ix1 p) ?_
  rw [Shape.rowMajor_val_one, Shape.rowMajor_val_two]
  show p.val = p.val * 1 + z.val
  have := z.isLt
  omega

/-- A 400 × 1 column repeated along 64 columns. -/
theorem spread_apply (x : FVec Ideal S400x1 .f32) (p : Fin 400) (q : Fin 64) :
    broadcastTo S400x64 x broadcasts_S400x1_S400x64 (ix2 p q) = x (ix2 p (0 : Fin 1)) := by
  refine broadcastTo_apply x _ (ix2 p q) (ix2 p (0 : Fin 1)) ?_
  intro a
  match a with
  | ⟨0, _⟩ => rfl
  | ⟨1, _⟩ => rfl

/-! ## The body's term, stage by stage

The stored term read as three named stages over the six loads: the neighbour aggregate of the 400 rows, the rectified
linear layer, and the floored row norm as a 400 × 1 column. The stored value is the rectified layer divided, column by
column, by the norm. -/

/-- The neighbour aggregate: the two adjacency halves each times the neighbour table, one under the other. -/
def aggV (a0 a1 : Vec Ideal S200x10000 .f32) (ho : Vec Ideal S10000x64 .f32) : FVec Ideal S400x64 .f32 :=
  concatenate S400x64 0
    [⟨S200x64, matmul dot_S200x10000_S10000x64_S200x64_1_0_0_1_n_n none (truncf .bf16 a0 bitsLt_bf16_f32) (truncf .bf16 ho bitsLt_bf16_f32)
        (constant (F := Ideal) S200x64 .f32 0x00000000#32)⟩,
     ⟨S200x64, matmul dot_S200x10000_S10000x64_S200x64_1_0_0_1_n_n none (truncf .bf16 a1 bitsLt_bf16_f32) (truncf .bf16 ho bitsLt_bf16_f32)
        (constant (F := Ideal) S200x64 .f32 0x00000000#32)⟩]
    concatenates_S200x64_S200x64_S400x64_d0

/-- The rectified linear layer: self rows times the self weights plus the aggregate times the neighbour weights, floored at zero. -/
def actV (a0 a1 : Vec Ideal S200x10000 .f32) (ho : Vec Ideal S10000x64 .f32) (hs : Vec Ideal S400x64 .f32) (ws wn : Vec Ideal S64x64 .f32) :
    FVec Ideal S400x64 .f32 :=
  maximumf
    (addf
      (matmul (φ₁ := .f32) (φ₂ := .f32) dot_S400x64_S64x64_S400x64_1_0_0_1_n_n none hs (shapeCast S64x64 ws shapeCasts_S64x64_S64x64)
        (constant (F := Ideal) S400x64 .f32 0x00000000#32))
      (matmul (φ₁ := .f32) (φ₂ := .f32) dot_S400x64_S64x64_S400x64_1_0_0_1_n_n none (aggV a0 a1 ho) (shapeCast S64x64 wn shapeCasts_S64x64_S64x64)
        (constant (F := Ideal) S400x64 .f32 0x00000000#32)))
    (broadcast S400x64 (Scalar.ofBits (F := Ideal) .f32 0x00000000#32))

/-- The row norm of the rectified layer, floored at `ε`, as a column. -/
def normV (a0 a1 : Vec Ideal S200x10000 .f32) (ho : Vec Ideal S10000x64 .f32) (hs : Vec Ideal S400x64 .f32) (ws wn : Vec Ideal S64x64 .f32) :
    FVec Ideal S400x1 .f32 :=
  maximumf
    (sqrt (shapeCast S400x1
      (multiReduction (F := Ideal) .add [1] S400 (mulf (actV a0 a1 ho hs ws wn) (actV a0 a1 ho hs ws wn)) 0x00000000#32
        reduces_S400x64_S400 (.inl rfl) rfl)
      shapeCasts_S400_S400x1))
    (broadcast S400x1 (Scalar.ofBits (F := Ideal) .f32 0x2B8CBCCC#32))

/-- The stored term is the rectified layer over the spread norm column: the two texts are the same term. -/
theorem pay0_stages (ho : Vec Ideal S10000x64 .f32) (a0 a1 : Vec Ideal S200x10000 .f32) (hs : Vec Ideal S400x64 .f32) (ws wn : Vec Ideal S64x64 .f32) :
    k0_pay1 (F := Ideal) ho a0 a1 hs ws wn
      = divf (actV a0 a1 ho hs ws wn) (broadcastTo S400x64 (normV a0 a1 ho hs ws wn) broadcasts_S400x1_S400x64) := rfl

/-- The aggregate at row `p`, column `k`. -/
theorem aggV_apply (a0 a1 : Vec Ideal S200x10000 .f32) (ho : Vec Ideal S10000x64 .f32) (p : Fin 400) (k : Fin 64) :
    aggV a0 a1 ho (ix2 p k) = neighB a0 a1 ho p k := by
  unfold aggV neighB
  refine (rowsJoin_apply _ _ p k).trans ?_
  by_cases h : p.val < 200
  · rw [dif_pos h, dif_pos h]
    exact aggMatmul_apply _ _ _ k
  · rw [dif_neg h, dif_neg h]
    exact aggMatmul_apply _ _ _ k

/-- The rectified layer at row `p`, column `q`. -/
theorem actV_apply (a0 a1 : Vec Ideal S200x10000 .f32) (ho : Vec Ideal S10000x64 .f32) (hs : Vec Ideal S400x64 .f32) (ws wn : Vec Ideal S64x64 .f32)
    (p : Fin 400) (q : Fin 64) : actV a0 a1 ho hs ws wn (ix2 p q) = actB a0 a1 ho hs ws wn p q := by
  unfold actV actB preB
  rw [shapeCast_self, shapeCast_self]
  show max (matmul (φ₁ := .f32) (φ₂ := .f32) dot_S400x64_S64x64_S400x64_1_0_0_1_n_n none hs ws (constant (F := Ideal) S400x64 .f32 0x00000000#32) (ix2 p q)
      + matmul (φ₁ := .f32) (φ₂ := .f32) dot_S400x64_S64x64_S400x64_1_0_0_1_n_n none (aggV a0 a1 ho) wn (constant (F := Ideal) S400x64 .f32 0x00000000#32) (ix2 p q))
      (Ideal.ofBits .f32 0x00000000#32) = _
  rw [linMatmul_apply, linMatmul_apply]
  simp only [aggV_apply]

/-- The norm column at row `p`. -/
theorem normV_apply (a0 a1 : Vec Ideal S200x10000 .f32) (ho : Vec Ideal S10000x64 .f32) (hs : Vec Ideal S400x64 .f32) (ws wn : Vec Ideal S64x64 .f32)
    (p : Fin 400) (z : Fin 1) : normV a0 a1 ho hs ws wn (ix2 p z) = normB a0 a1 ho hs ws wn p := by
  unfold normV normB
  show max (Ideal.sqrt (shapeCast S400x1
      (multiReduction (F := Ideal) .add [1] S400 (mulf (actV a0 a1 ho hs ws wn) (actV a0 a1 ho hs ws wn)) 0x00000000#32
        reduces_S400x64_S400 (.inl rfl) rfl) shapeCasts_S400_S400x1 (ix2 p z))) (Ideal.ofBits .f32 0x2B8CBCCC#32) = _
  rw [column_apply, laneSum_apply, show Cert.Layer.zeroLit = (0 : EReal) from Ideal.ofBits_zero_f32, zero_add]
  simp only [mulf_apply, actV_apply]

/-- The body's stored value IS that function of its loads. -/
theorem pay0_eq (ho : Vec Ideal S10000x64 .f32) (a0 a1 : Vec Ideal S200x10000 .f32) (hs : Vec Ideal S400x64 .f32) (ws wn : Vec Ideal S64x64 .f32) :
    k0_pay1 (F := Ideal) ho a0 a1 hs ws wn = outB a0 a1 ho hs ws wn := by
  rw [pay0_stages]
  funext i
  obtain ⟨p, q, rfl⟩ : ∃ (p : Fin 400) (q : Fin 64), i = ix2 p q := ⟨i 0, i 1, eq_ix2 i⟩
  show Ideal.div (actV a0 a1 ho hs ws wn (ix2 p q))
      (broadcastTo S400x64 (normV a0 a1 ho hs ws wn) broadcasts_S400x1_S400x64 (ix2 p q)) = _
  rw [spread_apply, actV_apply, normV_apply]
  rfl

/-- The four calls run one body: their stored values are one function. -/
theorem pay1_same (v0 : Vec Ideal S10000x64 .f32) (v2 v5 : Vec Ideal S200x10000 .f32) (v9 : Vec Ideal S400x64 .f32) (v10 v13 : Vec Ideal S64x64 .f32) :
    k1_pay1 (F := Ideal) v0 v2 v5 v9 v10 v13 = k0_pay1 (F := Ideal) v0 v2 v5 v9 v10 v13 := rfl
/-- The third and fourth calls first view the neighbour table and the self rows at their own shapes, which changes nothing. -/
theorem pay2_same (v0 : Vec Ideal S10000x64 .f32) (v2 v5 : Vec Ideal S200x10000 .f32) (v9 : Vec Ideal S400x64 .f32) (v10 v13 : Vec Ideal S64x64 .f32) :
    k2_pay1 (F := Ideal) v0 v2 v5 v9 v10 v13 = k0_pay1 (F := Ideal) v0 v2 v5 v9 v10 v13 := by
  have e : k2_pay1 (F := Ideal) v0 v2 v5 v9 v10 v13
      = k0_pay1 (F := Ideal) (shapeCast S10000x64 v0 shapeCasts_S10000x64_S10000x64) v2 v5
          (shapeCast S400x64 v9 shapeCasts_S400x64_S400x64) v10 v13 := rfl
  rw [e, shapeCast_self, shapeCast_self]
theorem pay3_same (v0 : Vec Ideal S10000x64 .f32) (v2 v5 : Vec Ideal S200x10000 .f32) (v9 : Vec Ideal S400x64 .f32) (v10 v13 : Vec Ideal S64x64 .f32) :
    k3_pay1 (F := Ideal) v0 v2 v5 v9 v10 v13 = k0_pay1 (F := Ideal) v0 v2 v5 v9 v10 v13 := by
  have e : k3_pay1 (F := Ideal) v0 v2 v5 v9 v10 v13
      = k0_pay1 (F := Ideal) (shapeCast S10000x64 v0 shapeCasts_S10000x64_S10000x64) v2 v5
          (shapeCast S400x64 v9 shapeCasts_S400x64_S400x64) v10 v13 := rfl
  rw [e, shapeCast_self, shapeCast_self]

/-- So each of the other three calls stores the same function of its loads. -/
theorem pay1_eq (ho : Vec Ideal S10000x64 .f32) (a0 a1 : Vec Ideal S200x10000 .f32) (hs : Vec Ideal S400x64 .f32) (ws wn : Vec Ideal S64x64 .f32) :
    k1_pay1 (F := Ideal) ho a0 a1 hs ws wn = outB a0 a1 ho hs ws wn :=
  (pay1_same ho a0 a1 hs ws wn).trans (pay0_eq ho a0 a1 hs ws wn)
theorem pay2_eq (ho : Vec Ideal S10000x64 .f32) (a0 a1 : Vec Ideal S200x10000 .f32) (hs : Vec Ideal S400x64 .f32) (ws wn : Vec Ideal S64x64 .f32) :
    k2_pay1 (F := Ideal) ho a0 a1 hs ws wn = outB a0 a1 ho hs ws wn :=
  (pay2_same ho a0 a1 hs ws wn).trans (pay0_eq ho a0 a1 hs ws wn)
theorem pay3_eq (ho : Vec Ideal S10000x64 .f32) (a0 a1 : Vec Ideal S200x10000 .f32) (hs : Vec Ideal S400x64 .f32) (ws wn : Vec Ideal S64x64 .f32) :
    k3_pay1 (F := Ideal) ho a0 a1 hs ws wn = outB a0 a1 ho hs ws wn :=
  (pay3_same ho a0 a1 hs ws wn).trans (pay0_eq ho a0 a1 hs ws wn)

end Cert.KernelIdeal.Hand

end
-- ==== Proof.IdealRun.RegionValue0.lean ====
import proofs.«147371_g55860344651847_cont_9to1c4b_578_10_alg».proof.Proof.IdealRun.Region0
import proofs.«147371_g55860344651847_cont_9to1c4b_578_10_alg».proof.Proof.IdealRun.Payload
import proofs.«147371_g55860344651847_cont_9to1c4b_578_10_alg».proof.Proof.LayerSpec
import Idealize.ShloMosaic.Lib.Pipeline.Value
import Idealize.ShloMosaic.Lib.ValueIdx

/-! # What region 0 leaves in its result array, over the extended reals

Point `t` writes rows `400 t … 400 t + 399` of the result: the body's function of the blocks it loaded, and those
blocks are rows `400 t … 400 t + 199` and `400 t + 200 … 400 t + 399` of the adjacency matrix (block indices `2 t` and
`2 t + 1` of 200 rows each), the whole neighbour table, rows `400 t … 400 t + 399` of the self table and the two weight
pieces whole. So block `t` of the result is block `t` of ONE function of the arrays, the layer-side update; the 25
blocks tile the 10000 rows, so the array ends holding that function. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The update region 0 computes, of the arrays as it finds them: windows 0 and 1 read the adjacency matrix, window 2
    the neighbour table, window 3 the self table, windows 4 and 5 the two transposed weight pieces. -/
def layer0 (c : Dev nD) : Buf (Elt Ideal) ((cfg0.win 6).arr.view.loc (c.tc : Thread nD τ)) :=
  Cert.Layer.outK (V c (Pipeline.arrRef spec0 0)) (V c (Pipeline.arrRef spec0 2)) (V c (Pipeline.arrRef spec0 3))
    (V c (Pipeline.arrRef spec0 4)) (V c (Pipeline.arrRef spec0 5))

/-- The offsets of a whole-buffer rectangle are zero on both axes. -/
theorem region0_offsets_zero : (![0, 0] : Fin 2 → Nat) = fun _ => 0 := funext fun a => by fin_cases a <;> rfl

/-! ## One point's block against the whole-array formula

Over any arrays and any six blocks related to them as a point's loads are: the two adjacency halves are rows
`400 t + x` and `400 t + 200 + x` of the adjacency matrix, the self rows are rows `400 t + x` of the self table, the
neighbour table and the two weight pieces are whole. Row `p` of the block is then row `400 t + p` of the update. -/

/-- Row `p` of the point's neighbour aggregate is row `400 t + p` of the adjacency matrix against the neighbour table:
    below 200 the first half carries the row, from 200 on the second. -/
theorem region0_neigh_row (A : Cert.Layer.SA.Idx → EReal) (HO : Cert.Layer.SH.Idx → EReal) (t : Nat)
    (a0 a1 : Vec Ideal S200x10000 .f32) (ho : Vec Ideal S10000x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO) (p : Fin 400) (r : Fin 10000) (hr : r.val = 400 * t + p.val) (k : Fin 64) :
    neighB a0 a1 ho p k = Cert.Layer.neigh A HO r k := by
  subst hho
  unfold neighB Cert.Layer.neigh
  split
  · next h => exact Finset.sum_congr rfl fun l _ => by rw [h0 ⟨p.val, h⟩ l r hr]
  · next h =>
    have hp := p.isLt
    exact Finset.sum_congr rfl fun l _ => by rw [h1 ⟨p.val - 200, by omega⟩ l r (by show r.val = 400 * t + 200 + (p.val - 200); omega)]

/-- Entry `(p, q)` of the point's block is entry `(400 t + p, q)` of the update of the whole arrays. -/
theorem region0_point_entry (A : Cert.Layer.SA.Idx → EReal) (HO HS : Cert.Layer.SH.Idx → EReal) (WS WN : Cert.Layer.SP.Idx → EReal) (t : Nat)
    (a0 a1 : Vec Ideal S200x10000 .f32) (ho : Vec Ideal S10000x64 .f32) (hs : Vec Ideal S400x64 .f32) (ws wn : Vec Ideal S64x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO)
    (hhs : ∀ (x : Fin 400) (k : Fin 64) (r : Fin 10000), r.val = 400 * t + x.val → hs (ix2 x k) = HS (ix2 r k))
    (hws : ws = WS) (hwn : wn = WN)
    (p : Fin 400) (q : Fin 64) (r : Fin 10000) (hr : r.val = 400 * t + p.val) :
    outB a0 a1 ho hs ws wn (ix2 p q) = Cert.Layer.outAtK A HO HS WS WN r q := by
  have hpre : ∀ q' : Fin 64, preB a0 a1 ho hs ws wn p q' = Cert.Layer.preK A HO HS WS WN r q' := by
    intro q'
    subst hws hwn
    unfold preB Cert.Layer.preK
    congr 1
    · exact Finset.sum_congr rfl fun k _ => by rw [hhs p k r hr]
    · exact Finset.sum_congr rfl fun k _ => by rw [region0_neigh_row A HO t a0 a1 ho h0 h1 hho p r hr k]
  have hact : ∀ q' : Fin 64, actB a0 a1 ho hs ws wn p q' = Cert.Layer.actK A HO HS WS WN r q' := by
    intro q'
    unfold actB Cert.Layer.actK
    rw [hpre q']
  have hnorm : normB a0 a1 ho hs ws wn p = Cert.Layer.normK A HO HS WS WN r := by
    unfold normB Cert.Layer.normK
    simp only [hact]
  show Ideal.div (actB a0 a1 ho hs ws wn p q) (normB a0 a1 ho hs ws wn p) = _
  unfold Cert.Layer.outAtK
  rw [hact, hnorm]

/-- The same at any index `y` of the block and any index `i` of the array 400 t rows further down in the same column. -/
theorem region0_point_index (A : Cert.Layer.SA.Idx → EReal) (HO HS : Cert.Layer.SH.Idx → EReal) (WS WN : Cert.Layer.SP.Idx → EReal) (t : Nat)
    (a0 a1 : Vec Ideal S200x10000 .f32) (ho : Vec Ideal S10000x64 .f32) (hs : Vec Ideal S400x64 .f32) (ws wn : Vec Ideal S64x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO)
    (hhs : ∀ (x : Fin 400) (k : Fin 64) (r : Fin 10000), r.val = 400 * t + x.val → hs (ix2 x k) = HS (ix2 r k))
    (hws : ws = WS) (hwn : wn = WN)
    (y : S400x64.Idx) (i : Cert.Layer.SH.Idx) (hi0 : (i 0).val = 400 * t + (y 0).val) (hi1 : (i 1).val = (y 1).val) :
    outB a0 a1 ho hs ws wn y = Cert.Layer.outK A HO HS WS WN i :=
  (region0_point_entry A HO HS WS WN t a0 a1 ho hs ws wn h0 h1 hho hhs hws hwn (y 0) (y 1) (i 0) hi0).trans
    (congrArg (Cert.Layer.outAtK A HO HS WS WN (i 0)) (Fin.ext hi1.symm : (y 1 : Fin 64) = i 1))

/-! ## The blocks a point loads, as rows of the arrays -/

/-- The block indices of the seven windows at point `t`: the two adjacency windows at `2 t` and `2 t + 1`, the self
    table's and the result's at `t`, the three whole-array windows at zero; the second axis is never split. -/
theorem win0_index_rel : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin cfg0.grid.N, _)

/-- Window 0's block at point `t` is rows `400 t … 400 t + 199` of the adjacency matrix. -/
theorem iblk0_0_entry (c : Dev nD) (t : Fin cfg0.N) (x : Fin 200) (l : Fin 10000) (r : Fin 10000) (hr : r.val = 400 * t.val + x.val) :
    (iblk0 V c 0 t : Vec Ideal S200x10000 .f32) (ix2 x l) = (V c (Pipeline.arrRef spec0 0) : Cert.Layer.SA.Idx → EReal) (ix2 r l) := by
  obtain ⟨e00, e01, -⟩ := win0_index_rel t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 200 + 1 * x.val = r.val; omega
  | ⟨1, _⟩ => show win0_0.index t (1 : Fin 2) * 10000 + 1 * l.val = l.val; omega

/-- Window 1's block at point `t` is rows `400 t + 200 … 400 t + 399` of the same matrix. -/
theorem iblk0_1_entry (c : Dev nD) (t : Fin cfg0.N) (x : Fin 200) (l : Fin 10000) (r : Fin 10000) (hr : r.val = 400 * t.val + 200 + x.val) :
    (iblk0 V c 1 t : Vec Ideal S200x10000 .f32) (ix2 x l) = (V c (Pipeline.arrRef spec0 0) : Cert.Layer.SA.Idx → EReal) (ix2 r l) := by
  obtain ⟨-, -, e10, e11, -⟩ := win0_index_rel t
  unfold iblk0
  rw [View.read_apply]
  show V c (Pipeline.arrRef spec0 0) _ = V c (Pipeline.arrRef spec0 0) _
  congr 1
  funext a
  apply Fin.ext
  match a with
  | ⟨0, _⟩ => show win0_1.index t (0 : Fin 2) * 200 + 1 * x.val = r.val; omega
  | ⟨1, _⟩ => show win0_1.index t (1 : Fin 2) * 10000 + 1 * l.val = l.val; omega

/-- Window 2's block is the whole neighbour table at every point. -/
theorem iblk0_2_whole (c : Dev nD) (t : Fin cfg0.N) :
    (iblk0 V c 2 t : Vec Ideal S10000x64 .f32) = (V c (Pipeline.arrRef spec0 2) : Cert.Layer.SH.Idx → EReal) := by
  obtain ⟨-, -, -, -, e20, e21, -⟩ := win0_index_rel t
  funext j
  unfold iblk0
  rw [View.read_apply]
  show V c (Pipeline.arrRef spec0 2) _ = V c (Pipeline.arrRef spec0 2) j
  congr 1
  funext a
  apply Fin.ext
  match a with
  | ⟨0, _⟩ => show win0_2.index t (0 : Fin 2) * 10000 + 1 * (j 0).val = (j 0).val; omega
  | ⟨1, _⟩ => show win0_2.index t (1 : Fin 2) * 64 + 1 * (j 1).val = (j 1).val; omega

/-- Window 3's block at point `t` is rows `400 t … 400 t + 399` of the self table. -/
theorem iblk0_3_entry (c : Dev nD) (t : Fin cfg0.N) (x : Fin 400) (k : Fin 64) (r : Fin 10000) (hr : r.val = 400 * t.val + x.val) :
    (iblk0 V c 3 t : Vec Ideal S400x64 .f32) (ix2 x k) = (V c (Pipeline.arrRef spec0 3) : Cert.Layer.SH.Idx → EReal) (ix2 r k) := by
  obtain ⟨-, -, -, -, -, -, e30, e31, -⟩ := win0_index_rel t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 400 + 1 * x.val = r.val; omega
  | ⟨1, _⟩ => show win0_3.index t (1 : Fin 2) * 64 + 1 * k.val = k.val; omega

/-- Windows 4 and 5 hold the two weight pieces whole at every point. -/
theorem iblk0_4_whole (c : Dev nD) (t : Fin cfg0.N) :
    (iblk0 V c 4 t : Vec Ideal S64x64 .f32) = (V c (Pipeline.arrRef spec0 4) : Cert.Layer.SP.Idx → EReal) := by
  obtain ⟨-, -, -, -, -, -, -, -, e40, e41, -⟩ := win0_index_rel t
  funext j
  unfold iblk0
  rw [View.read_apply]
  show V c (Pipeline.arrRef spec0 4) _ = V c (Pipeline.arrRef spec0 4) j
  congr 1
  funext a
  apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega

theorem iblk0_5_whole (c : Dev nD) (t : Fin cfg0.N) :
    (iblk0 V c 5 t : Vec Ideal S64x64 .f32) = (V c (Pipeline.arrRef spec0 5) : Cert.Layer.SP.Idx → EReal) := by
  obtain ⟨-, -, -, -, -, -, -, -, -, -, e50, e51, -⟩ := win0_index_rel t
  funext j
  unfold iblk0
  rw [View.read_apply]
  show V c (Pipeline.arrRef spec0 5) _ = V c (Pipeline.arrRef spec0 5) j
  congr 1
  funext a
  apply Fin.ext
  match a with
  | ⟨0, _⟩ => show win0_5.index t (0 : Fin 2) * 64 + 1 * (j 0).val = (j 0).val; omega
  | ⟨1, _⟩ => show win0_5.index t (1 : Fin 2) * 64 + 1 * (j 1).val = (j 1).val; omega

/-! ## What a point writes back, and the cover -/

/-- What point `t` writes back is block `t` of the update of the arrays as the region finds them. -/
theorem dat0_flushed_eq (c : Dev nD) (t : Fin cfg0.N) :
    (dat0 (F := Ideal) V c).flushed 6 t = ((cfg0.win 6).blk t).view.read (Elt Ideal) (layer0 V c) := by
  show (cfg0.win 6).cut (cfg0.grid.coords t) ((dat0 (F := Ideal) V c).after 6 t) = _
  rw [after0_6]
  unfold out0_6
  rw [View.canon_unit_zero region0_offsets_zero]
  simp only [View.ld_unit_zero (S := S200x10000) region0_offsets_zero, View.ld_unit_zero (S := S10000x64) region0_offsets_zero,
    View.ld_unit_zero (S := S400x64) region0_offsets_zero, View.ld_unit_zero (S := S64x64) region0_offsets_zero]
  rw [pay0_eq]
  obtain ⟨-, -, -, -, -, -, -, -, -, -, -, -, e60, e61⟩ := win0_index_rel t
  funext y
  rw [View.read_apply]
  refine region0_point_index (V c (Pipeline.arrRef spec0 0)) (V c (Pipeline.arrRef spec0 2)) (V c (Pipeline.arrRef spec0 3))
    (V c (Pipeline.arrRef spec0 4)) (V c (Pipeline.arrRef spec0 5)) t.val
    (iblk0 V c 0 t) (iblk0 V c 1 t) (iblk0 V c 2 t) (iblk0 V c 3 t) (iblk0 V c 4 t) (iblk0 V c 5 t)
    (iblk0_0_entry V c t) (iblk0_1_entry V c t) (iblk0_2_whole V c t) (iblk0_3_entry V c t) (iblk0_4_whole V c t) (iblk0_5_whole V c t)
    ((cfg0.win 6).xinj (cfg0.grid.coords t) y) (((cfg0.win 6).blk t).view.emb y) ?_ ?_
  · show win0_6.index t (0 : Fin 2) * 400 + 1 * (y 0).val = 400 * t.val + (y 0).val
    omega
  · show win0_6.index t (1 : Fin 2) * 64 + 1 * (y 1).val = (y 1).val
    omega

/-- The grid has 25 points. -/
theorem cfg0_points : cfg0.N = 25 := by decide

/-- An index of the result array is in point `t`'s block iff each coordinate is in the block's range on its axis. -/
theorem win0_6_mem_blk (t : Fin cfg0.N) (i : S10000x64.Idx) :
    i ∈ ((cfg0.win 6).blk t).view.set
      ↔ ∀ a : Fin 2, win0_6.index t a * S400x64.size a ≤ (i a).val ∧ (i a).val < win0_6.index t a * S400x64.size a + S400x64.size a := by
  show i ∈ ((View.whole (Pipeline.arrRef spec0 6)).slice (win0_6.rect t)).set ↔ _
  rw [View.set_slice_whole, Rect.mem_set_unit]
  exact Iff.rfl

/-- Row `r` of the result lies in the block of point `r / 400`, and every point writes its block back: the 25 blocks
    of 400 rows tile the 10000 rows. -/
theorem win0_6_cover (i : S10000x64.Idx) :
    ∃ t : Fin cfg0.N, (cfg0.win 6).flush t = true ∧ i ∈ ((cfg0.win 6).blk t).view.set := by
  have hi0 : (i 0).val < 10000 := (i 0).isLt
  have hi1 : (i 1).val < 64 := (i 1).isLt
  have hN : cfg0.N = 25 := cfg0_points
  have ht : (i 0).val / 400 < cfg0.N := by rw [hN]; omega
  obtain ⟨-, -, -, -, -, -, -, -, -, -, -, -, e60, e61⟩ := win0_index_rel ⟨(i 0).val / 400, ht⟩
  have e60' : win0_6.index ⟨(i 0).val / 400, ht⟩ (0 : Fin 2) = (i 0).val / 400 := e60
  refine ⟨⟨(i 0).val / 400, ht⟩, flush0_6 _, ?_⟩
  rw [win0_6_mem_blk]
  intro a
  match a with
  | ⟨0, _⟩ =>
    show win0_6.index ⟨(i 0).val / 400, ht⟩ (0 : Fin 2) * 400 ≤ (i 0).val
      ∧ (i 0).val < win0_6.index ⟨(i 0).val / 400, ht⟩ (0 : Fin 2) * 400 + 400
    omega
  | ⟨1, _⟩ =>
    show win0_6.index ⟨(i 0).val / 400, ht⟩ (1 : Fin 2) * 64 ≤ (i 1).val
      ∧ (i 1).val < win0_6.index ⟨(i 0).val / 400, ht⟩ (1 : Fin 2) * 64 + 64
    omega

/-- After the 25 points the result array holds the layer-side update of the arrays the region was entered with. -/
theorem region0_value (c : Dev nD) : (dat0 (F := Ideal) V c).arrAt 6 cfg0.N = layer0 V c :=
  (dat0 (F := Ideal) V c).arrAt_eq_of_cover 6 (layer0 V c) (fun t _ => dat0_flushed_eq V c t) win0_6_cover

end Cert.KernelIdeal.Hand

end
-- ==== Proof.IdealRun.RegionValue1.lean ====
import proofs.«147371_g55860344651847_cont_9to1c4b_578_10_alg».proof.Proof.IdealRun.Region1
import proofs.«147371_g55860344651847_cont_9to1c4b_578_10_alg».proof.Proof.IdealRun.Payload
import proofs.«147371_g55860344651847_cont_9to1c4b_578_10_alg».proof.Proof.LayerSpec
import Idealize.ShloMosaic.Lib.Pipeline.Value
import Idealize.ShloMosaic.Lib.ValueIdx

/-! # What region 1 leaves in its result array, over the extended reals

Point `t` writes rows `400 t … 400 t + 399` of the result: the body's function of the blocks it loaded, and those
blocks are rows `400 t … 400 t + 199` and `400 t + 200 … 400 t + 399` of the adjacency matrix (block indices `2 t` and
`2 t + 1` of 200 rows each), the whole neighbour table, rows `400 t … 400 t + 399` of the self table and the two weight
pieces whole. So block `t` of the result is block `t` of ONE function of the arrays, the layer-side update; the 25
blocks tile the 10000 rows, so the array ends holding that function. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The update region 1 computes, of the arrays as it finds them: windows 0 and 1 read the adjacency matrix, window 2
    the neighbour table, window 3 the self table, windows 4 and 5 the two transposed weight pieces. -/
def layer1 (c : Dev nD) : Buf (Elt Ideal) ((cfg1.win 6).arr.view.loc (c.tc : Thread nD τ)) :=
  Cert.Layer.outK (V c (Pipeline.arrRef spec1 0)) (V c (Pipeline.arrRef spec1 2)) (V c (Pipeline.arrRef spec1 3))
    (V c (Pipeline.arrRef spec1 4)) (V c (Pipeline.arrRef spec1 5))

/-- The offsets of a whole-buffer rectangle are zero on both axes. -/
theorem region1_offsets_zero : (![0, 0] : Fin 2 → Nat) = fun _ => 0 := funext fun a => by fin_cases a <;> rfl

/-! ## One point's block against the whole-array formula

Over any arrays and any six blocks related to them as a point's loads are: the two adjacency halves are rows
`400 t + x` and `400 t + 200 + x` of the adjacency matrix, the self rows are rows `400 t + x` of the self table, the
neighbour table and the two weight pieces are whole. Row `p` of the block is then row `400 t + p` of the update. -/

/-- Row `p` of the point's neighbour aggregate is row `400 t + p` of the adjacency matrix against the neighbour table:
    below 200 the first half carries the row, from 200 on the second. -/
theorem region1_neigh_row (A : Cert.Layer.SA.Idx → EReal) (HO : Cert.Layer.SH.Idx → EReal) (t : Nat)
    (a0 a1 : Vec Ideal S200x10000 .f32) (ho : Vec Ideal S10000x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO) (p : Fin 400) (r : Fin 10000) (hr : r.val = 400 * t + p.val) (k : Fin 64) :
    neighB a0 a1 ho p k = Cert.Layer.neigh A HO r k := by
  subst hho
  unfold neighB Cert.Layer.neigh
  split
  · next h => exact Finset.sum_congr rfl fun l _ => by rw [h0 ⟨p.val, h⟩ l r hr]
  · next h =>
    have hp := p.isLt
    exact Finset.sum_congr rfl fun l _ => by rw [h1 ⟨p.val - 200, by omega⟩ l r (by show r.val = 400 * t + 200 + (p.val - 200); omega)]

/-- Entry `(p, q)` of the point's block is entry `(400 t + p, q)` of the update of the whole arrays. -/
theorem region1_point_entry (A : Cert.Layer.SA.Idx → EReal) (HO HS : Cert.Layer.SH.Idx → EReal) (WS WN : Cert.Layer.SP.Idx → EReal) (t : Nat)
    (a0 a1 : Vec Ideal S200x10000 .f32) (ho : Vec Ideal S10000x64 .f32) (hs : Vec Ideal S400x64 .f32) (ws wn : Vec Ideal S64x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO)
    (hhs : ∀ (x : Fin 400) (k : Fin 64) (r : Fin 10000), r.val = 400 * t + x.val → hs (ix2 x k) = HS (ix2 r k))
    (hws : ws = WS) (hwn : wn = WN)
    (p : Fin 400) (q : Fin 64) (r : Fin 10000) (hr : r.val = 400 * t + p.val) :
    outB a0 a1 ho hs ws wn (ix2 p q) = Cert.Layer.outAtK A HO HS WS WN r q := by
  have hpre : ∀ q' : Fin 64, preB a0 a1 ho hs ws wn p q' = Cert.Layer.preK A HO HS WS WN r q' := by
    intro q'
    subst hws hwn
    unfold preB Cert.Layer.preK
    congr 1
    · exact Finset.sum_congr rfl fun k _ => by rw [hhs p k r hr]
    · exact Finset.sum_congr rfl fun k _ => by rw [region1_neigh_row A HO t a0 a1 ho h0 h1 hho p r hr k]
  have hact : ∀ q' : Fin 64, actB a0 a1 ho hs ws wn p q' = Cert.Layer.actK A HO HS WS WN r q' := by
    intro q'
    unfold actB Cert.Layer.actK
    rw [hpre q']
  have hnorm : normB a0 a1 ho hs ws wn p = Cert.Layer.normK A HO HS WS WN r := by
    unfold normB Cert.Layer.normK
    simp only [hact]
  show Ideal.div (actB a0 a1 ho hs ws wn p q) (normB a0 a1 ho hs ws wn p) = _
  unfold Cert.Layer.outAtK
  rw [hact, hnorm]

/-- The same at any index `y` of the block and any index `i` of the array 400 t rows further down in the same column. -/
theorem region1_point_index (A : Cert.Layer.SA.Idx → EReal) (HO HS : Cert.Layer.SH.Idx → EReal) (WS WN : Cert.Layer.SP.Idx → EReal) (t : Nat)
    (a0 a1 : Vec Ideal S200x10000 .f32) (ho : Vec Ideal S10000x64 .f32) (hs : Vec Ideal S400x64 .f32) (ws wn : Vec Ideal S64x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO)
    (hhs : ∀ (x : Fin 400) (k : Fin 64) (r : Fin 10000), r.val = 400 * t + x.val → hs (ix2 x k) = HS (ix2 r k))
    (hws : ws = WS) (hwn : wn = WN)
    (y : S400x64.Idx) (i : Cert.Layer.SH.Idx) (hi0 : (i 0).val = 400 * t + (y 0).val) (hi1 : (i 1).val = (y 1).val) :
    outB a0 a1 ho hs ws wn y = Cert.Layer.outK A HO HS WS WN i :=
  (region1_point_entry A HO HS WS WN t a0 a1 ho hs ws wn h0 h1 hho hhs hws hwn (y 0) (y 1) (i 0) hi0).trans
    (congrArg (Cert.Layer.outAtK A HO HS WS WN (i 0)) (Fin.ext hi1.symm : (y 1 : Fin 64) = i 1))

/-! ## The blocks a point loads, as rows of the arrays -/

/-- The block indices of the seven windows at point `t`: the two adjacency windows at `2 t` and `2 t + 1`, the self
    table's and the result's at `t`, the three whole-array windows at zero; the second axis is never split. -/
theorem win1_index_rel : ∀ t : Fin cfg1.N,
    win1_0.index t (0 : Fin 2) = 2 * t.val ∧ win1_0.index t (1 : Fin 2) = 0
    ∧ win1_1.index t (0 : Fin 2) = 2 * t.val + 1 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin cfg1.grid.N, _)

/-- Window 0's block at point `t` is rows `400 t … 400 t + 199` of the adjacency matrix. -/
theorem iblk1_0_entry (c : Dev nD) (t : Fin cfg1.N) (x : Fin 200) (l : Fin 10000) (r : Fin 10000) (hr : r.val = 400 * t.val + x.val) :
    (iblk1 V c 0 t : Vec Ideal S200x10000 .f32) (ix2 x l) = (V c (Pipeline.arrRef spec1 0) : Cert.Layer.SA.Idx → EReal) (ix2 r l) := by
  obtain ⟨e00, e01, -⟩ := win1_index_rel t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 200 + 1 * x.val = r.val; omega
  | ⟨1, _⟩ => show win1_0.index t (1 : Fin 2) * 10000 + 1 * l.val = l.val; omega

/-- Window 1's block at point `t` is rows `400 t + 200 … 400 t + 399` of the same matrix. -/
theorem iblk1_1_entry (c : Dev nD) (t : Fin cfg1.N) (x : Fin 200) (l : Fin 10000) (r : Fin 10000) (hr : r.val = 400 * t.val + 200 + x.val) :
    (iblk1 V c 1 t : Vec Ideal S200x10000 .f32) (ix2 x l) = (V c (Pipeline.arrRef spec1 0) : Cert.Layer.SA.Idx → EReal) (ix2 r l) := by
  obtain ⟨-, -, e10, e11, -⟩ := win1_index_rel t
  unfold iblk1
  rw [View.read_apply]
  show V c (Pipeline.arrRef spec1 0) _ = V c (Pipeline.arrRef spec1 0) _
  congr 1
  funext a
  apply Fin.ext
  match a with
  | ⟨0, _⟩ => show win1_1.index t (0 : Fin 2) * 200 + 1 * x.val = r.val; omega
  | ⟨1, _⟩ => show win1_1.index t (1 : Fin 2) * 10000 + 1 * l.val = l.val; omega

/-- Window 2's block is the whole neighbour table at every point. -/
theorem iblk1_2_whole (c : Dev nD) (t : Fin cfg1.N) :
    (iblk1 V c 2 t : Vec Ideal S10000x64 .f32) = (V c (Pipeline.arrRef spec1 2) : Cert.Layer.SH.Idx → EReal) := by
  obtain ⟨-, -, -, -, e20, e21, -⟩ := win1_index_rel t
  funext j
  unfold iblk1
  rw [View.read_apply]
  show V c (Pipeline.arrRef spec1 2) _ = V c (Pipeline.arrRef spec1 2) j
  congr 1
  funext a
  apply Fin.ext
  match a with
  | ⟨0, _⟩ => show win1_2.index t (0 : Fin 2) * 10000 + 1 * (j 0).val = (j 0).val; omega
  | ⟨1, _⟩ => show win1_2.index t (1 : Fin 2) * 64 + 1 * (j 1).val = (j 1).val; omega

/-- Window 3's block at point `t` is rows `400 t … 400 t + 399` of the self table. -/
theorem iblk1_3_entry (c : Dev nD) (t : Fin cfg1.N) (x : Fin 400) (k : Fin 64) (r : Fin 10000) (hr : r.val = 400 * t.val + x.val) :
    (iblk1 V c 3 t : Vec Ideal S400x64 .f32) (ix2 x k) = (V c (Pipeline.arrRef spec1 3) : Cert.Layer.SH.Idx → EReal) (ix2 r k) := by
  obtain ⟨-, -, -, -, -, -, e30, e31, -⟩ := win1_index_rel t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 400 + 1 * x.val = r.val; omega
  | ⟨1, _⟩ => show win1_3.index t (1 : Fin 2) * 64 + 1 * k.val = k.val; omega

/-- Windows 4 and 5 hold the two weight pieces whole at every point. -/
theorem iblk1_4_whole (c : Dev nD) (t : Fin cfg1.N) :
    (iblk1 V c 4 t : Vec Ideal S64x64 .f32) = (V c (Pipeline.arrRef spec1 4) : Cert.Layer.SP.Idx → EReal) := by
  obtain ⟨-, -, -, -, -, -, -, -, e40, e41, -⟩ := win1_index_rel t
  funext j
  unfold iblk1
  rw [View.read_apply]
  show V c (Pipeline.arrRef spec1 4) _ = V c (Pipeline.arrRef spec1 4) j
  congr 1
  funext a
  apply Fin.ext
  match a with
  | ⟨0, _⟩ => show win1_4.index t (0 : Fin 2) * 64 + 1 * (j 0).val = (j 0).val; omega
  | ⟨1, _⟩ => show win1_4.index t (1 : Fin 2) * 64 + 1 * (j 1).val = (j 1).val; omega

theorem iblk1_5_whole (c : Dev nD) (t : Fin cfg1.N) :
    (iblk1 V c 5 t : Vec Ideal S64x64 .f32) = (V c (Pipeline.arrRef spec1 5) : Cert.Layer.SP.Idx → EReal) := by
  obtain ⟨-, -, -, -, -, -, -, -, -, -, e50, e51, -⟩ := win1_index_rel t
  funext j
  unfold iblk1
  rw [View.read_apply]
  show V c (Pipeline.arrRef spec1 5) _ = V c (Pipeline.arrRef spec1 5) j
  congr 1
  funext a
  apply Fin.ext
  match a with
  | ⟨0, _⟩ => show win1_5.index t (0 : Fin 2) * 64 + 1 * (j 0).val = (j 0).val; omega
  | ⟨1, _⟩ => show win1_5.index t (1 : Fin 2) * 64 + 1 * (j 1).val = (j 1).val; omega

/-! ## What a point writes back, and the cover -/

/-- What point `t` writes back is block `t` of the update of the arrays as the region finds them. -/
theorem dat1_flushed_eq (c : Dev nD) (t : Fin cfg1.N) :
    (dat1 (F := Ideal) V c).flushed 6 t = ((cfg1.win 6).blk t).view.read (Elt Ideal) (layer1 V c) := by
  show (cfg1.win 6).cut (cfg1.grid.coords t) ((dat1 (F := Ideal) V c).after 6 t) = _
  rw [after1_6]
  unfold out1_6
  rw [View.canon_unit_zero region1_offsets_zero]
  simp only [View.ld_unit_zero (S := S200x10000) region1_offsets_zero, View.ld_unit_zero (S := S10000x64) region1_offsets_zero,
    View.ld_unit_zero (S := S400x64) region1_offsets_zero, View.ld_unit_zero (S := S64x64) region1_offsets_zero]
  rw [pay1_eq]
  obtain ⟨-, -, -, -, -, -, -, -, -, -, -, -, e60, e61⟩ := win1_index_rel t
  funext y
  rw [View.read_apply]
  refine region1_point_index (V c (Pipeline.arrRef spec1 0)) (V c (Pipeline.arrRef spec1 2)) (V c (Pipeline.arrRef spec1 3))
    (V c (Pipeline.arrRef spec1 4)) (V c (Pipeline.arrRef spec1 5)) t.val
    (iblk1 V c 0 t) (iblk1 V c 1 t) (iblk1 V c 2 t) (iblk1 V c 3 t) (iblk1 V c 4 t) (iblk1 V c 5 t)
    (iblk1_0_entry V c t) (iblk1_1_entry V c t) (iblk1_2_whole V c t) (iblk1_3_entry V c t) (iblk1_4_whole V c t) (iblk1_5_whole V c t)
    ((cfg1.win 6).xinj (cfg1.grid.coords t) y) (((cfg1.win 6).blk t).view.emb y) ?_ ?_
  · show win1_6.index t (0 : Fin 2) * 400 + 1 * (y 0).val = 400 * t.val + (y 0).val
    omega
  · show win1_6.index t (1 : Fin 2) * 64 + 1 * (y 1).val = (y 1).val
    omega

/-- The grid has 25 points. -/
theorem cfg1_points : cfg1.N = 25 := by decide

/-- An index of the result array is in point `t`'s block iff each coordinate is in the block's range on its axis. -/
theorem win1_6_mem_blk (t : Fin cfg1.N) (i : S10000x64.Idx) :
    i ∈ ((cfg1.win 6).blk t).view.set
      ↔ ∀ a : Fin 2, win1_6.index t a * S400x64.size a ≤ (i a).val ∧ (i a).val < win1_6.index t a * S400x64.size a + S400x64.size a := by
  show i ∈ ((View.whole (Pipeline.arrRef spec1 6)).slice (win1_6.rect t)).set ↔ _
  rw [View.set_slice_whole, Rect.mem_set_unit]
  exact Iff.rfl

/-- Row `r` of the result lies in the block of point `r / 400`, and every point writes its block back: the 25 blocks
    of 400 rows tile the 10000 rows. -/
theorem win1_6_cover (i : S10000x64.Idx) :
    ∃ t : Fin cfg1.N, (cfg1.win 6).flush t = true ∧ i ∈ ((cfg1.win 6).blk t).view.set := by
  have hi0 : (i 0).val < 10000 := (i 0).isLt
  have hi1 : (i 1).val < 64 := (i 1).isLt
  have hN : cfg1.N = 25 := cfg1_points
  have ht : (i 0).val / 400 < cfg1.N := by rw [hN]; omega
  obtain ⟨-, -, -, -, -, -, -, -, -, -, -, -, e60, e61⟩ := win1_index_rel ⟨(i 0).val / 400, ht⟩
  have e60' : win1_6.index ⟨(i 0).val / 400, ht⟩ (0 : Fin 2) = (i 0).val / 400 := e60
  refine ⟨⟨(i 0).val / 400, ht⟩, flush1_6 _, ?_⟩
  rw [win1_6_mem_blk]
  intro a
  match a with
  | ⟨0, _⟩ =>
    show win1_6.index ⟨(i 0).val / 400, ht⟩ (0 : Fin 2) * 400 ≤ (i 0).val
      ∧ (i 0).val < win1_6.index ⟨(i 0).val / 400, ht⟩ (0 : Fin 2) * 400 + 400
    omega
  | ⟨1, _⟩ =>
    show win1_6.index ⟨(i 0).val / 400, ht⟩ (1 : Fin 2) * 64 ≤ (i 1).val
      ∧ (i 1).val < win1_6.index ⟨(i 0).val / 400, ht⟩ (1 : Fin 2) * 64 + 64
    omega

/-- After the 25 points the result array holds the layer-side update of the arrays the region was entered with. -/
theorem region1_value (c : Dev nD) : (dat1 (F := Ideal) V c).arrAt 6 cfg1.N = layer1 V c :=
  (dat1 (F := Ideal) V c).arrAt_eq_of_cover 6 (layer1 V c) (fun t _ => dat1_flushed_eq V c t) win1_6_cover

end Cert.KernelIdeal.Hand

end
-- ==== Proof.IdealRun.RegionValue2.lean ====
import proofs.«147371_g55860344651847_cont_9to1c4b_578_10_alg».proof.Proof.IdealRun.Region2
import proofs.«147371_g55860344651847_cont_9to1c4b_578_10_alg».proof.Proof.IdealRun.Payload
import proofs.«147371_g55860344651847_cont_9to1c4b_578_10_alg».proof.Proof.LayerSpec
import Idealize.ShloMosaic.Lib.Pipeline.Value
import Idealize.ShloMosaic.Lib.ValueIdx

/-! # What region 2 leaves in its result array, over the extended reals

Point `t` writes rows `400 t … 400 t + 399` of the result: the body's function of the blocks it loaded, and those
blocks are rows `400 t … 400 t + 199` and `400 t + 200 … 400 t + 399` of the adjacency matrix (block indices `2 t` and
`2 t + 1` of 200 rows each), the whole neighbour table, rows `400 t … 400 t + 399` of the self table and the two weight
pieces whole. So block `t` of the result is block `t` of ONE function of the arrays, the layer-side update; the 25
blocks tile the 10000 rows, so the array ends holding that function. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The update region 2 computes, of the arrays as it finds them: windows 0 and 1 read the adjacency matrix, window 2
    the neighbour table, window 3 the self table, windows 4 and 5 the two transposed weight pieces. -/
def layer2 (c : Dev nD) : Buf (Elt Ideal) ((cfg2.win 6).arr.view.loc (c.tc : Thread nD τ)) :=
  Cert.Layer.outK (V c (Pipeline.arrRef spec2 0)) (V c (Pipeline.arrRef spec2 2)) (V c (Pipeline.arrRef spec2 3))
    (V c (Pipeline.arrRef spec2 4)) (V c (Pipeline.arrRef spec2 5))

/-- The offsets of a whole-buffer rectangle are zero on both axes. -/
theorem region2_offsets_zero : (![0, 0] : Fin 2 → Nat) = fun _ => 0 := funext fun a => by fin_cases a <;> rfl

/-! ## One point's block against the whole-array formula

Over any arrays and any six blocks related to them as a point's loads are: the two adjacency halves are rows
`400 t + x` and `400 t + 200 + x` of the adjacency matrix, the self rows are rows `400 t + x` of the self table, the
neighbour table and the two weight pieces are whole. Row `p` of the block is then row `400 t + p` of the update. -/

/-- Row `p` of the point's neighbour aggregate is row `400 t + p` of the adjacency matrix against the neighbour table:
    below 200 the first half carries the row, from 200 on the second. -/
theorem region2_neigh_row (A : Cert.Layer.SA.Idx → EReal) (HO : Cert.Layer.SH.Idx → EReal) (t : Nat)
    (a0 a1 : Vec Ideal S200x10000 .f32) (ho : Vec Ideal S10000x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO) (p : Fin 400) (r : Fin 10000) (hr : r.val = 400 * t + p.val) (k : Fin 64) :
    neighB a0 a1 ho p k = Cert.Layer.neigh A HO r k := by
  subst hho
  unfold neighB Cert.Layer.neigh
  split
  · next h => exact Finset.sum_congr rfl fun l _ => by rw [h0 ⟨p.val, h⟩ l r hr]
  · next h =>
    have hp := p.isLt
    exact Finset.sum_congr rfl fun l _ => by rw [h1 ⟨p.val - 200, by omega⟩ l r (by show r.val = 400 * t + 200 + (p.val - 200); omega)]

/-- Entry `(p, q)` of the point's block is entry `(400 t + p, q)` of the update of the whole arrays. -/
theorem region2_point_entry (A : Cert.Layer.SA.Idx → EReal) (HO HS : Cert.Layer.SH.Idx → EReal) (WS WN : Cert.Layer.SP.Idx → EReal) (t : Nat)
    (a0 a1 : Vec Ideal S200x10000 .f32) (ho : Vec Ideal S10000x64 .f32) (hs : Vec Ideal S400x64 .f32) (ws wn : Vec Ideal S64x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO)
    (hhs : ∀ (x : Fin 400) (k : Fin 64) (r : Fin 10000), r.val = 400 * t + x.val → hs (ix2 x k) = HS (ix2 r k))
    (hws : ws = WS) (hwn : wn = WN)
    (p : Fin 400) (q : Fin 64) (r : Fin 10000) (hr : r.val = 400 * t + p.val) :
    outB a0 a1 ho hs ws wn (ix2 p q) = Cert.Layer.outAtK A HO HS WS WN r q := by
  have hpre : ∀ q' : Fin 64, preB a0 a1 ho hs ws wn p q' = Cert.Layer.preK A HO HS WS WN r q' := by
    intro q'
    subst hws hwn
    unfold preB Cert.Layer.preK
    congr 1
    · exact Finset.sum_congr rfl fun k _ => by rw [hhs p k r hr]
    · exact Finset.sum_congr rfl fun k _ => by rw [region2_neigh_row A HO t a0 a1 ho h0 h1 hho p r hr k]
  have hact : ∀ q' : Fin 64, actB a0 a1 ho hs ws wn p q' = Cert.Layer.actK A HO HS WS WN r q' := by
    intro q'
    unfold actB Cert.Layer.actK
    rw [hpre q']
  have hnorm : normB a0 a1 ho hs ws wn p = Cert.Layer.normK A HO HS WS WN r := by
    unfold normB Cert.Layer.normK
    simp only [hact]
  show Ideal.div (actB a0 a1 ho hs ws wn p q) (normB a0 a1 ho hs ws wn p) = _
  unfold Cert.Layer.outAtK
  rw [hact, hnorm]

/-- The same at any index `y` of the block and any index `i` of the array 400 t rows further down in the same column. -/
theorem region2_point_index (A : Cert.Layer.SA.Idx → EReal) (HO HS : Cert.Layer.SH.Idx → EReal) (WS WN : Cert.Layer.SP.Idx → EReal) (t : Nat)
    (a0 a1 : Vec Ideal S200x10000 .f32) (ho : Vec Ideal S10000x64 .f32) (hs : Vec Ideal S400x64 .f32) (ws wn : Vec Ideal S64x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO)
    (hhs : ∀ (x : Fin 400) (k : Fin 64) (r : Fin 10000), r.val = 400 * t + x.val → hs (ix2 x k) = HS (ix2 r k))
    (hws : ws = WS) (hwn : wn = WN)
    (y : S400x64.Idx) (i : Cert.Layer.SH.Idx) (hi0 : (i 0).val = 400 * t + (y 0).val) (hi1 : (i 1).val = (y 1).val) :
    outB a0 a1 ho hs ws wn y = Cert.Layer.outK A HO HS WS WN i :=
  (region2_point_entry A HO HS WS WN t a0 a1 ho hs ws wn h0 h1 hho hhs hws hwn (y 0) (y 1) (i 0) hi0).trans
    (congrArg (Cert.Layer.outAtK A HO HS WS WN (i 0)) (Fin.ext hi1.symm : (y 1 : Fin 64) = i 1))

/-! ## The blocks a point loads, as rows of the arrays -/

/-- The block indices of the seven windows at point `t`: the two adjacency windows at `2 t` and `2 t + 1`, the self
    table's and the result's at `t`, the three whole-array windows at zero; the second axis is never split. -/
theorem win2_index_rel : ∀ t : Fin cfg2.N,
    win2_0.index t (0 : Fin 2) = 2 * t.val ∧ win2_0.index t (1 : Fin 2) = 0
    ∧ win2_1.index t (0 : Fin 2) = 2 * t.val + 1 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin cfg2.grid.N, _)

/-- Window 0's block at point `t` is rows `400 t … 400 t + 199` of the adjacency matrix. -/
theorem iblk2_0_entry (c : Dev nD) (t : Fin cfg2.N) (x : Fin 200) (l : Fin 10000) (r : Fin 10000) (hr : r.val = 400 * t.val + x.val) :
    (iblk2 V c 0 t : Vec Ideal S200x10000 .f32) (ix2 x l) = (V c (Pipeline.arrRef spec2 0) : Cert.Layer.SA.Idx → EReal) (ix2 r l) := by
  obtain ⟨e00, e01, -⟩ := win2_index_rel t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 200 + 1 * x.val = r.val; omega
  | ⟨1, _⟩ => show win2_0.index t (1 : Fin 2) * 10000 + 1 * l.val = l.val; omega

/-- Window 1's block at point `t` is rows `400 t + 200 … 400 t + 399` of the same matrix. -/
theorem iblk2_1_entry (c : Dev nD) (t : Fin cfg2.N) (x : Fin 200) (l : Fin 10000) (r : Fin 10000) (hr : r.val = 400 * t.val + 200 + x.val) :
    (iblk2 V c 1 t : Vec Ideal S200x10000 .f32) (ix2 x l) = (V c (Pipeline.arrRef spec2 0) : Cert.Layer.SA.Idx → EReal) (ix2 r l) := by
  obtain ⟨-, -, e10, e11, -⟩ := win2_index_rel t
  unfold iblk2
  rw [View.read_apply]
  show V c (Pipeline.arrRef spec2 0) _ = V c (Pipeline.arrRef spec2 0) _
  congr 1
  funext a
  apply Fin.ext
  match a with
  | ⟨0, _⟩ => show win2_1.index t (0 : Fin 2) * 200 + 1 * x.val = r.val; omega
  | ⟨1, _⟩ => show win2_1.index t (1 : Fin 2) * 10000 + 1 * l.val = l.val; omega

/-- Window 2's block is the whole neighbour table at every point. -/
theorem iblk2_2_whole (c : Dev nD) (t : Fin cfg2.N) :
    (iblk2 V c 2 t : Vec Ideal S10000x64 .f32) = (V c (Pipeline.arrRef spec2 2) : Cert.Layer.SH.Idx → EReal) := by
  obtain ⟨-, -, -, -, e20, e21, -⟩ := win2_index_rel t
  funext j
  unfold iblk2
  rw [View.read_apply]
  show V c (Pipeline.arrRef spec2 2) _ = V c (Pipeline.arrRef spec2 2) j
  congr 1
  funext a
  apply Fin.ext
  match a with
  | ⟨0, _⟩ => show win2_2.index t (0 : Fin 2) * 10000 + 1 * (j 0).val = (j 0).val; omega
  | ⟨1, _⟩ => show win2_2.index t (1 : Fin 2) * 64 + 1 * (j 1).val = (j 1).val; omega

/-- Window 3's block at point `t` is rows `400 t … 400 t + 399` of the self table. -/
theorem iblk2_3_entry (c : Dev nD) (t : Fin cfg2.N) (x : Fin 400) (k : Fin 64) (r : Fin 10000) (hr : r.val = 400 * t.val + x.val) :
    (iblk2 V c 3 t : Vec Ideal S400x64 .f32) (ix2 x k) = (V c (Pipeline.arrRef spec2 3) : Cert.Layer.SH.Idx → EReal) (ix2 r k) := by
  obtain ⟨-, -, -, -, -, -, e30, e31, -⟩ := win2_index_rel t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 400 + 1 * x.val = r.val; omega
  | ⟨1, _⟩ => show win2_3.index t (1 : Fin 2) * 64 + 1 * k.val = k.val; omega

/-- Windows 4 and 5 hold the two weight pieces whole at every point. -/
theorem iblk2_4_whole (c : Dev nD) (t : Fin cfg2.N) :
    (iblk2 V c 4 t : Vec Ideal S64x64 .f32) = (V c (Pipeline.arrRef spec2 4) : Cert.Layer.SP.Idx → EReal) := by
  obtain ⟨-, -, -, -, -, -, -, -, e40, e41, -⟩ := win2_index_rel t
  funext j
  unfold iblk2
  rw [View.read_apply]
  show V c (Pipeline.arrRef spec2 4) _ = V c (Pipeline.arrRef spec2 4) j
  congr 1
  funext a
  apply Fin.ext
  match a with
  | ⟨0, _⟩ => show win2_4.index t (0 : Fin 2) * 64 + 1 * (j 0).val = (j 0).val; omega
  | ⟨1, _⟩ => show win2_4.index t (1 : Fin 2) * 64 + 1 * (j 1).val = (j 1).val; omega

theorem iblk2_5_whole (c : Dev nD) (t : Fin cfg2.N) :
    (iblk2 V c 5 t : Vec Ideal S64x64 .f32) = (V c (Pipeline.arrRef spec2 5) : Cert.Layer.SP.Idx → EReal) := by
  obtain ⟨-, -, -, -, -, -, -, -, -, -, e50, e51, -⟩ := win2_index_rel t
  funext j
  unfold iblk2
  rw [View.read_apply]
  show V c (Pipeline.arrRef spec2 5) _ = V c (Pipeline.arrRef spec2 5) j
  congr 1
  funext a
  apply Fin.ext
  match a with
  | ⟨0, _⟩ => show win2_5.index t (0 : Fin 2) * 64 + 1 * (j 0).val = (j 0).val; omega
  | ⟨1, _⟩ => show win2_5.index t (1 : Fin 2) * 64 + 1 * (j 1).val = (j 1).val; omega

/-! ## What a point writes back, and the cover -/

/-- What point `t` writes back is block `t` of the update of the arrays as the region finds them. -/
theorem dat2_flushed_eq (c : Dev nD) (t : Fin cfg2.N) :
    (dat2 (F := Ideal) V c).flushed 6 t = ((cfg2.win 6).blk t).view.read (Elt Ideal) (layer2 V c) := by
  show (cfg2.win 6).cut (cfg2.grid.coords t) ((dat2 (F := Ideal) V c).after 6 t) = _
  rw [after2_6]
  unfold out2_6
  rw [View.canon_unit_zero region2_offsets_zero]
  simp only [View.ld_unit_zero (S := S200x10000) region2_offsets_zero, View.ld_unit_zero (S := S10000x64) region2_offsets_zero,
    View.ld_unit_zero (S := S400x64) region2_offsets_zero, View.ld_unit_zero (S := S64x64) region2_offsets_zero]
  rw [pay2_eq]
  obtain ⟨-, -, -, -, -, -, -, -, -, -, -, -, e60, e61⟩ := win2_index_rel t
  funext y
  rw [View.read_apply]
  refine region2_point_index (V c (Pipeline.arrRef spec2 0)) (V c (Pipeline.arrRef spec2 2)) (V c (Pipeline.arrRef spec2 3))
    (V c (Pipeline.arrRef spec2 4)) (V c (Pipeline.arrRef spec2 5)) t.val
    (iblk2 V c 0 t) (iblk2 V c 1 t) (iblk2 V c 2 t) (iblk2 V c 3 t) (iblk2 V c 4 t) (iblk2 V c 5 t)
    (iblk2_0_entry V c t) (iblk2_1_entry V c t) (iblk2_2_whole V c t) (iblk2_3_entry V c t) (iblk2_4_whole V c t) (iblk2_5_whole V c t)
    ((cfg2.win 6).xinj (cfg2.grid.coords t) y) (((cfg2.win 6).blk t).view.emb y) ?_ ?_
  · show win2_6.index t (0 : Fin 2) * 400 + 1 * (y 0).val = 400 * t.val + (y 0).val
    omega
  · show win2_6.index t (1 : Fin 2) * 64 + 1 * (y 1).val = (y 1).val
    omega

/-- The grid has 25 points. -/
theorem cfg2_points : cfg2.N = 25 := by decide

/-- An index of the result array is in point `t`'s block iff each coordinate is in the block's range on its axis. -/
theorem win2_6_mem_blk (t : Fin cfg2.N) (i : S10000x64.Idx) :
    i ∈ ((cfg2.win 6).blk t).view.set
      ↔ ∀ a : Fin 2, win2_6.index t a * S400x64.size a ≤ (i a).val ∧ (i a).val < win2_6.index t a * S400x64.size a + S400x64.size a := by
  show i ∈ ((View.whole (Pipeline.arrRef spec2 6)).slice (win2_6.rect t)).set ↔ _
  rw [View.set_slice_whole, Rect.mem_set_unit]
  exact Iff.rfl

/-- Row `r` of the result lies in the block of point `r / 400`, and every point writes its block back: the 25 blocks
    of 400 rows tile the 10000 rows. -/
theorem win2_6_cover (i : S10000x64.Idx) :
    ∃ t : Fin cfg2.N, (cfg2.win 6).flush t = true ∧ i ∈ ((cfg2.win 6).blk t).view.set := by
  have hi0 : (i 0).val < 10000 := (i 0).isLt
  have hi1 : (i 1).val < 64 := (i 1).isLt
  have hN : cfg2.N = 25 := cfg2_points
  have ht : (i 0).val / 400 < cfg2.N := by rw [hN]; omega
  obtain ⟨-, -, -, -, -, -, -, -, -, -, -, -, e60, e61⟩ := win2_index_rel ⟨(i 0).val / 400, ht⟩
  have e60' : win2_6.index ⟨(i 0).val / 400, ht⟩ (0 : Fin 2) = (i 0).val / 400 := e60
  refine ⟨⟨(i 0).val / 400, ht⟩, flush2_6 _, ?_⟩
  rw [win2_6_mem_blk]
  intro a
  match a with
  | ⟨0, _⟩ =>
    show win2_6.index ⟨(i 0).val / 400, ht⟩ (0 : Fin 2) * 400 ≤ (i 0).val
      ∧ (i 0).val < win2_6.index ⟨(i 0).val / 400, ht⟩ (0 : Fin 2) * 400 + 400
    omega
  | ⟨1, _⟩ =>
    show win2_6.index ⟨(i 0).val / 400, ht⟩ (1 : Fin 2) * 64 ≤ (i 1).val
      ∧ (i 1).val < win2_6.index ⟨(i 0).val / 400, ht⟩ (1 : Fin 2) * 64 + 64
    omega

/-- After the 25 points the result array holds the layer-side update of the arrays the region was entered with. -/
theorem region2_value (c : Dev nD) : (dat2 (F := Ideal) V c).arrAt 6 cfg2.N = layer2 V c :=
  (dat2 (F := Ideal) V c).arrAt_eq_of_cover 6 (layer2 V c) (fun t _ => dat2_flushed_eq V c t) win2_6_cover

end Cert.KernelIdeal.Hand

end
-- ==== Proof.IdealRun.RegionValue3.lean ====
import proofs.«147371_g55860344651847_cont_9to1c4b_578_10_alg».proof.Proof.IdealRun.Region3
import proofs.«147371_g55860344651847_cont_9to1c4b_578_10_alg».proof.Proof.IdealRun.Payload
import proofs.«147371_g55860344651847_cont_9to1c4b_578_10_alg».proof.Proof.LayerSpec
import Idealize.ShloMosaic.Lib.Pipeline.Value
import Idealize.ShloMosaic.Lib.ValueIdx

/-! # What region 3 leaves in its result array, over the extended reals

Point `t` writes rows `400 t … 400 t + 399` of the result: the body's function of the blocks it loaded, and those
blocks are rows `400 t … 400 t + 199` and `400 t + 200 … 400 t + 399` of the adjacency matrix (block indices `2 t` and
`2 t + 1` of 200 rows each), the whole neighbour table, rows `400 t … 400 t + 399` of the self table and the two weight
pieces whole. So block `t` of the result is block `t` of ONE function of the arrays, the layer-side update; the 25
blocks tile the 10000 rows, so the array ends holding that function. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The update region 3 computes, of the arrays as it finds them: windows 0 and 1 read the adjacency matrix, window 2
    the neighbour table, window 3 the self table, windows 4 and 5 the two transposed weight pieces. -/
def layer3 (c : Dev nD) : Buf (Elt Ideal) ((cfg3.win 6).arr.view.loc (c.tc : Thread nD τ)) :=
  Cert.Layer.outK (V c (Pipeline.arrRef spec3 0)) (V c (Pipeline.arrRef spec3 2)) (V c (Pipeline.arrRef spec3 3))
    (V c (Pipeline.arrRef spec3 4)) (V c (Pipeline.arrRef spec3 5))

/-- The offsets of a whole-buffer rectangle are zero on both axes. -/
theorem region3_offsets_zero : (![0, 0] : Fin 2 → Nat) = fun _ => 0 := funext fun a => by fin_cases a <;> rfl

/-! ## One point's block against the whole-array formula

Over any arrays and any six blocks related to them as a point's loads are: the two adjacency halves are rows
`400 t + x` and `400 t + 200 + x` of the adjacency matrix, the self rows are rows `400 t + x` of the self table, the
neighbour table and the two weight pieces are whole. Row `p` of the block is then row `400 t + p` of the update. -/

/-- Row `p` of the point's neighbour aggregate is row `400 t + p` of the adjacency matrix against the neighbour table:
    below 200 the first half carries the row, from 200 on the second. -/
theorem region3_neigh_row (A : Cert.Layer.SA.Idx → EReal) (HO : Cert.Layer.SH.Idx → EReal) (t : Nat)
    (a0 a1 : Vec Ideal S200x10000 .f32) (ho : Vec Ideal S10000x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO) (p : Fin 400) (r : Fin 10000) (hr : r.val = 400 * t + p.val) (k : Fin 64) :
    neighB a0 a1 ho p k = Cert.Layer.neigh A HO r k := by
  subst hho
  unfold neighB Cert.Layer.neigh
  split
  · next h => exact Finset.sum_congr rfl fun l _ => by rw [h0 ⟨p.val, h⟩ l r hr]
  · next h =>
    have hp := p.isLt
    exact Finset.sum_congr rfl fun l _ => by rw [h1 ⟨p.val - 200, by omega⟩ l r (by show r.val = 400 * t + 200 + (p.val - 200); omega)]

/-- Entry `(p, q)` of the point's block is entry `(400 t + p, q)` of the update of the whole arrays. -/
theorem region3_point_entry (A : Cert.Layer.SA.Idx → EReal) (HO HS : Cert.Layer.SH.Idx → EReal) (WS WN : Cert.Layer.SP.Idx → EReal) (t : Nat)
    (a0 a1 : Vec Ideal S200x10000 .f32) (ho : Vec Ideal S10000x64 .f32) (hs : Vec Ideal S400x64 .f32) (ws wn : Vec Ideal S64x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO)
    (hhs : ∀ (x : Fin 400) (k : Fin 64) (r : Fin 10000), r.val = 400 * t + x.val → hs (ix2 x k) = HS (ix2 r k))
    (hws : ws = WS) (hwn : wn = WN)
    (p : Fin 400) (q : Fin 64) (r : Fin 10000) (hr : r.val = 400 * t + p.val) :
    outB a0 a1 ho hs ws wn (ix2 p q) = Cert.Layer.outAtK A HO HS WS WN r q := by
  have hpre : ∀ q' : Fin 64, preB a0 a1 ho hs ws wn p q' = Cert.Layer.preK A HO HS WS WN r q' := by
    intro q'
    subst hws hwn
    unfold preB Cert.Layer.preK
    congr 1
    · exact Finset.sum_congr rfl fun k _ => by rw [hhs p k r hr]
    · exact Finset.sum_congr rfl fun k _ => by rw [region3_neigh_row A HO t a0 a1 ho h0 h1 hho p r hr k]
  have hact : ∀ q' : Fin 64, actB a0 a1 ho hs ws wn p q' = Cert.Layer.actK A HO HS WS WN r q' := by
    intro q'
    unfold actB Cert.Layer.actK
    rw [hpre q']
  have hnorm : normB a0 a1 ho hs ws wn p = Cert.Layer.normK A HO HS WS WN r := by
    unfold normB Cert.Layer.normK
    simp only [hact]
  show Ideal.div (actB a0 a1 ho hs ws wn p q) (normB a0 a1 ho hs ws wn p) = _
  unfold Cert.Layer.outAtK
  rw [hact, hnorm]

/-- The same at any index `y` of the block and any index `i` of the array 400 t rows further down in the same column. -/
theorem region3_point_index (A : Cert.Layer.SA.Idx → EReal) (HO HS : Cert.Layer.SH.Idx → EReal) (WS WN : Cert.Layer.SP.Idx → EReal) (t : Nat)
    (a0 a1 : Vec Ideal S200x10000 .f32) (ho : Vec Ideal S10000x64 .f32) (hs : Vec Ideal S400x64 .f32) (ws wn : Vec Ideal S64x64 .f32)
    (h0 : ∀ (x : Fin 200) (l : Fin 10000) (r : Fin 10000), r.val = 400 * t + x.val → a0 (ix2 x l) = A (ix2 r l))
    (h1 : ∀ (x : Fin 200) (l : Fin 10000) (r : Fin 10000), r.val = 400 * t + 200 + x.val → a1 (ix2 x l) = A (ix2 r l))
    (hho : ho = HO)
    (hhs : ∀ (x : Fin 400) (k : Fin 64) (r : Fin 10000), r.val = 400 * t + x.val → hs (ix2 x k) = HS (ix2 r k))
    (hws : ws = WS) (hwn : wn = WN)
    (y : S400x64.Idx) (i : Cert.Layer.SH.Idx) (hi0 : (i 0).val = 400 * t + (y 0).val) (hi1 : (i 1).val = (y 1).val) :
    outB a0 a1 ho hs ws wn y = Cert.Layer.outK A HO HS WS WN i :=
  (region3_point_entry A HO HS WS WN t a0 a1 ho hs ws wn h0 h1 hho hhs hws hwn (y 0) (y 1) (i 0) hi0).trans
    (congrArg (Cert.Layer.outAtK A HO HS WS WN (i 0)) (Fin.ext hi1.symm : (y 1 : Fin 64) = i 1))

/-! ## The blocks a point loads, as rows of the arrays -/

/-- The block indices of the seven windows at point `t`: the two adjacency windows at `2 t` and `2 t + 1`, the self
    table's and the result's at `t`, the three whole-array windows at zero; the second axis is never split. -/
theorem win3_index_rel : ∀ t : Fin cfg3.N,
    win3_0.index t (0 : Fin 2) = 2 * t.val ∧ win3_0.index t (1 : Fin 2) = 0
    ∧ win3_1.index t (0 : Fin 2) = 2 * t.val + 1 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin cfg3.grid.N, _)

/-- Window 0's block at point `t` is rows `400 t … 400 t + 199` of the adjacency matrix. -/
theorem iblk3_0_entry (c : Dev nD) (t : Fin cfg3.N) (x : Fin 200) (l : Fin 10000) (r : Fin 10000) (hr : r.val = 400 * t.val + x.val) :
    (iblk3 V c 0 t : Vec Ideal S200x10000 .f32) (ix2 x l) = (V c (Pipeline.arrRef spec3 0) : Cert.Layer.SA.Idx → EReal) (ix2 r l) := by
  obtain ⟨e00, e01, -⟩ := win3_index_rel t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 200 + 1 * x.val = r.val; omega
  | ⟨1, _⟩ => show win3_0.index t (1 : Fin 2) * 10000 + 1 * l.val = l.val; omega

/-- Window 1's block at point `t` is rows `400 t + 200 … 400 t + 399` of the same matrix. -/
theorem iblk3_1_entry (c : Dev nD) (t : Fin cfg3.N) (x : Fin 200) (l : Fin 10000) (r : Fin 10000) (hr : r.val = 400 * t.val + 200 + x.val) :
    (iblk3 V c 1 t : Vec Ideal S200x10000 .f32) (ix2 x l) = (V c (Pipeline.arrRef spec3 0) : Cert.Layer.SA.Idx → EReal) (ix2 r l) := by
  obtain ⟨-, -, e10, e11, -⟩ := win3_index_rel t
  unfold iblk3
  rw [View.read_apply]
  show V c (Pipeline.arrRef spec3 0) _ = V c (Pipeline.arrRef spec3 0) _
  congr 1
  funext a
  apply Fin.ext
  match a with
  | ⟨0, _⟩ => show win3_1.index t (0 : Fin 2) * 200 + 1 * x.val = r.val; omega
  | ⟨1, _⟩ => show win3_1.index t (1 : Fin 2) * 10000 + 1 * l.val = l.val; omega

/-- Window 2's block is the whole neighbour table at every point. -/
theorem iblk3_2_whole (c : Dev nD) (t : Fin cfg3.N) :
    (iblk3 V c 2 t : Vec Ideal S10000x64 .f32) = (V c (Pipeline.arrRef spec3 2) : Cert.Layer.SH.Idx → EReal) := by
  obtain ⟨-, -, -, -, e20, e21, -⟩ := win3_index_rel t
  funext j
  unfold iblk3
  rw [View.read_apply]
  show V c (Pipeline.arrRef spec3 2) _ = V c (Pipeline.arrRef spec3 2) j
  congr 1
  funext a
  apply Fin.ext
  match a with
  | ⟨0, _⟩ => show win3_2.index t (0 : Fin 2) * 10000 + 1 * (j 0).val = (j 0).val; omega
  | ⟨1, _⟩ => show win3_2.index t (1 : Fin 2) * 64 + 1 * (j 1).val = (j 1).val; omega

/-- Window 3's block at point `t` is rows `400 t … 400 t + 399` of the self table. -/
theorem iblk3_3_entry (c : Dev nD) (t : Fin cfg3.N) (x : Fin 400) (k : Fin 64) (r : Fin 10000) (hr : r.val = 400 * t.val + x.val) :
    (iblk3 V c 3 t : Vec Ideal S400x64 .f32) (ix2 x k) = (V c (Pipeline.arrRef spec3 3) : Cert.Layer.SH.Idx → EReal) (ix2 r k) := by
  obtain ⟨-, -, -, -, -, -, e30, e31, -⟩ := win3_index_rel t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 400 + 1 * x.val = r.val; omega
  | ⟨1, _⟩ => show win3_3.index t (1 : Fin 2) * 64 + 1 * k.val = k.val; omega

/-- Windows 4 and 5 hold the two weight pieces whole at every point. -/
theorem iblk3_4_whole (c : Dev nD) (t : Fin cfg3.N) :
    (iblk3 V c 4 t : Vec Ideal S64x64 .f32) = (V c (Pipeline.arrRef spec3 4) : Cert.Layer.SP.Idx → EReal) := by
  obtain ⟨-, -, -, -, -, -, -, -, e40, e41, -⟩ := win3_index_rel t
  funext j
  unfold iblk3
  rw [View.read_apply]
  show V c (Pipeline.arrRef spec3 4) _ = V c (Pipeline.arrRef spec3 4) j
  congr 1
  funext a
  apply Fin.ext
  match a with
  | ⟨0, _⟩ => show win3_4.index t (0 : Fin 2) * 64 + 1 * (j 0).val = (j 0).val; omega
  | ⟨1, _⟩ => show win3_4.index t (1 : Fin 2) * 64 + 1 * (j 1).val = (j 1).val; omega

theorem iblk3_5_whole (c : Dev nD) (t : Fin cfg3.N) :
    (iblk3 V c 5 t : Vec Ideal S64x64 .f32) = (V c (Pipeline.arrRef spec3 5) : Cert.Layer.SP.Idx → EReal) := by
  obtain ⟨-, -, -, -, -, -, -, -, -, -, e50, e51, -⟩ := win3_index_rel t
  funext j
  unfold iblk3
  rw [View.read_apply]
  show V c (Pipeline.arrRef spec3 5) _ = V c (Pipeline.arrRef spec3 5) j
  congr 1
  funext a
  apply Fin.ext
  match a with
  | ⟨0, _⟩ => show win3_5.index t (0 : Fin 2) * 64 + 1 * (j 0).val = (j 0).val; omega
  | ⟨1, _⟩ => show win3_5.index t (1 : Fin 2) * 64 + 1 * (j 1).val = (j 1).val; omega

/-! ## What a point writes back, and the cover -/

/-- What point `t` writes back is block `t` of the update of the arrays as the region finds them. -/
theorem dat3_flushed_eq (c : Dev nD) (t : Fin cfg3.N) :
    (dat3 (F := Ideal) V c).flushed 6 t = ((cfg3.win 6).blk t).view.read (Elt Ideal) (layer3 V c) := by
  show (cfg3.win 6).cut (cfg3.grid.coords t) ((dat3 (F := Ideal) V c).after 6 t) = _
  rw [after3_6]
  unfold out3_6
  rw [View.canon_unit_zero region3_offsets_zero]
  simp only [View.ld_unit_zero (S := S200x10000) region3_offsets_zero, View.ld_unit_zero (S := S10000x64) region3_offsets_zero,
    View.ld_unit_zero (S := S400x64) region3_offsets_zero, View.ld_unit_zero (S := S64x64) region3_offsets_zero]
  rw [pay3_eq]
  obtain ⟨-, -, -, -, -, -, -, -, -, -, -, -, e60, e61⟩ := win3_index_rel t
  funext y
  rw [View.read_apply]
  refine region3_point_index (V c (Pipeline.arrRef spec3 0)) (V c (Pipeline.arrRef spec3 2)) (V c (Pipeline.arrRef spec3 3))
    (V c (Pipeline.arrRef spec3 4)) (V c (Pipeline.arrRef spec3 5)) t.val
    (iblk3 V c 0 t) (iblk3 V c 1 t) (iblk3 V c 2 t) (iblk3 V c 3 t) (iblk3 V c 4 t) (iblk3 V c 5 t)
    (iblk3_0_entry V c t) (iblk3_1_entry V c t) (iblk3_2_whole V c t) (iblk3_3_entry V c t) (iblk3_4_whole V c t) (iblk3_5_whole V c t)
    ((cfg3.win 6).xinj (cfg3.grid.coords t) y) (((cfg3.win 6).blk t).view.emb y) ?_ ?_
  · show win3_6.index t (0 : Fin 2) * 400 + 1 * (y 0).val = 400 * t.val + (y 0).val
    omega
  · show win3_6.index t (1 : Fin 2) * 64 + 1 * (y 1).val = (y 1).val
    omega

/-- The grid has 25 points. -/
theorem cfg3_points : cfg3.N = 25 := by decide

/-- An index of the result array is in point `t`'s block iff each coordinate is in the block's range on its axis. -/
theorem win3_6_mem_blk (t : Fin cfg3.N) (i : S10000x64.Idx) :
    i ∈ ((cfg3.win 6).blk t).view.set
      ↔ ∀ a : Fin 2, win3_6.index t a * S400x64.size a ≤ (i a).val ∧ (i a).val < win3_6.index t a * S400x64.size a + S400x64.size a := by
  show i ∈ ((View.whole (Pipeline.arrRef spec3 6)).slice (win3_6.rect t)).set ↔ _
  rw [View.set_slice_whole, Rect.mem_set_unit]
  exact Iff.rfl

/-- Row `r` of the result lies in the block of point `r / 400`, and every point writes its block back: the 25 blocks
    of 400 rows tile the 10000 rows. -/
theorem win3_6_cover (i : S10000x64.Idx) :
    ∃ t : Fin cfg3.N, (cfg3.win 6).flush t = true ∧ i ∈ ((cfg3.win 6).blk t).view.set := by
  have hi0 : (i 0).val < 10000 := (i 0).isLt
  have hi1 : (i 1).val < 64 := (i 1).isLt
  have hN : cfg3.N = 25 := cfg3_points
  have ht : (i 0).val / 400 < cfg3.N := by rw [hN]; omega
  obtain ⟨-, -, -, -, -, -, -, -, -, -, -, -, e60, e61⟩ := win3_index_rel ⟨(i 0).val / 400, ht⟩
  have e60' : win3_6.index ⟨(i 0).val / 400, ht⟩ (0 : Fin 2) = (i 0).val / 400 := e60
  refine ⟨⟨(i 0).val / 400, ht⟩, flush3_6 _, ?_⟩
  rw [win3_6_mem_blk]
  intro a
  match a with
  | ⟨0, _⟩ =>
    show win3_6.index ⟨(i 0).val / 400, ht⟩ (0 : Fin 2) * 400 ≤ (i 0).val
      ∧ (i 0).val < win3_6.index ⟨(i 0).val / 400, ht⟩ (0 : Fin 2) * 400 + 400
    omega
  | ⟨1, _⟩ =>
    show win3_6.index ⟨(i 0).val / 400, ht⟩ (1 : Fin 2) * 64 ≤ (i 1).val
      ∧ (i 1).val < win3_6.index ⟨(i 0).val / 400, ht⟩ (1 : Fin 2) * 64 + 64
    omega

/-- After the 25 points the result array holds the layer-side update of the arrays the region was entered with. -/
theorem region3_value (c : Dev nD) : (dat3 (F := Ideal) V c).arrAt 6 cfg3.N = layer3 V c :=
  (dat3 (F := Ideal) V c).arrAt_eq_of_cover 6 (layer3 V c) (fun t _ => dat3_flushed_eq V c t) win3_6_cover

end Cert.KernelIdeal.Hand

end
-- ==== Proof.IdealRun.ChainValue.lean ====
import proofs.«147371_g55860344651847_cont_9to1c4b_578_10_alg».proof.Proof.IdealRun.Chain
import proofs.«147371_g55860344651847_cont_9to1c4b_578_10_alg».proof.Proof.IdealRun.RegionValue0
import proofs.«147371_g55860344651847_cont_9to1c4b_578_10_alg».proof.Proof.IdealRun.RegionValue1
import proofs.«147371_g55860344651847_cont_9to1c4b_578_10_alg».proof.Proof.IdealRun.RegionValue2
import proofs.«147371_g55860344651847_cont_9to1c4b_578_10_alg».proof.Proof.IdealRun.RegionValue3
import proofs.«147371_g55860344651847_cont_9to1c4b_578_10_alg».proof.Proof.Gen.KernelIdeal.Regions
import Idealize.ShloMosaic.Lib.StableHlo.Run

/-! # The two results at the return, as functions of the launch arrays

Region 0 updates the user side from the launch tables with the first user weight matrix, region 1 the item side with
the first item matrix; regions 2 and 3 do the same from those two results with the second matrices. Each host
stretch before a region slices its weight matrix into its two 64-column halves and transposes each: the two weight
pieces the region reads. No stretch writes an argument or an earlier result, and a region changes only its own
result buffer, so each region finds the arguments as launched and the earlier results as left. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The first layer's two results. -/
abbrev u1 (c : Dev nD) := (Cert.Layer.out (m ((c : Thread nD τ).loc main_arg0)) (m ((c : Thread nD τ).loc main_arg3)) (m ((c : Thread nD τ).loc main_arg2)) (m ((c : Thread nD τ).loc main_arg4)))
abbrev i1 (c : Dev nD) := (Cert.Layer.out (m ((c : Thread nD τ).loc main_arg1)) (m ((c : Thread nD τ).loc main_arg2)) (m ((c : Thread nD τ).loc main_arg3)) (m ((c : Thread nD τ).loc main_arg6)))

/-! ## The weight pieces a host stretch leaves

A stretch slices columns `0 … 63` and `64 … 127` of its 64 × 128 weight matrix and transposes each slice. Entry
`[k, q]` of a transposed slice is entry `[q, k]` of the slice, which is entry `[q, o + k]` of the matrix for the
slice's column offset `o`. -/

/-- The slice of a 64 × 128 matrix at columns `o … o + 63`, transposed, read at `[k, q]`: the matrix at `[q, o + k]`. -/
theorem transpose_slice_apply (W : S64x128.Idx → EReal) (o : Nat) (hs : S64x128.Slices ![0, o] S64x64)
    (i : S64x64.Idx) (j : Fin 128) (hj : j.val = o + (i 0).val) :
    transpose S64x64 [1, 0] (extractStridedSlice S64x64 ![0, o] W hs) transposes_S64x64_S64x64_1_0 i
      = W (ix2 (n0 := 64) (n1 := 128) (i 1) j) := by
  have e1 : transpose S64x64 [1, 0] (extractStridedSlice S64x64 ![0, o] W hs) transposes_S64x64_S64x64_1_0 i
      = extractStridedSlice S64x64 ![0, o] W hs (ix2 (n0 := 64) (n1 := 64) (i 1) (i 0)) :=
    transpose_apply (s := S64x64) (t := S64x64) [1, 0] _ transposes_S64x64_S64x64_1_0 i (ix2 (n0 := 64) (n1 := 64) (i 1) (i 0)) (fun b => match b with
      | ⟨0, _⟩ => rfl
      | ⟨1, _⟩ => rfl)
  rw [e1]
  exact extractStridedSlice_apply (s := S64x128) (t := S64x64) ![0, o] W hs (ix2 (n0 := 64) (n1 := 64) (i 1) (i 0)) (ix2 (n0 := 64) (n1 := 128) (i 1) j) (fun a => match a with
    | ⟨0, _⟩ => by show (i 1).val = 0 + (i 1).val; omega
    | ⟨1, _⟩ => by show j.val = o + (i 0).val; omega)

open Idealize.ShloMosaic.StableHlo in
/-- After the host stretch before region 0, `main_call0_v1` holds the first 64 columns of `main_arg4`, transposed. -/
theorem after_hostOps0_ws (V : Valuation τ sig (Elt Ideal)) :
    (StableHlo.after hostOps0 V (Proc.devRef .tc main_call0_v1) : Cert.Layer.SP.Idx → EReal)
      = Cert.Layer.wsOf (V (Proc.devRef .tc main_arg4)) := by
  after_results
  show transpose S64x64 [1, 0] (extractStridedSlice S64x64 ![0, 0] (V (Proc.devRef .tc main_arg4) : Cert.Layer.SW.Idx → EReal) slices_S64x128_S64x64_0_0) transposes_S64x64_S64x64_1_0 = _
  funext i
  unfold Cert.Layer.wsOf
  exact transpose_slice_apply _ 0 _ i _ (by show (i 0).val = 0 + (i 0).val; omega)

open Idealize.ShloMosaic.StableHlo in
/-- … and `main_call0_v3` its last 64 columns, transposed. -/
theorem after_hostOps0_wn (V : Valuation τ sig (Elt Ideal)) :
    (StableHlo.after hostOps0 V (Proc.devRef .tc main_call0_v3) : Cert.Layer.SP.Idx → EReal)
      = Cert.Layer.wnOf (V (Proc.devRef .tc main_arg4)) := by
  after_results
  show transpose S64x64 [1, 0] (extractStridedSlice S64x64 ![0, 64] (V (Proc.devRef .tc main_arg4) : Cert.Layer.SW.Idx → EReal) slices_S64x128_S64x64_0_64) transposes_S64x64_S64x64_1_0 = _
  funext i
  unfold Cert.Layer.wnOf
  exact transpose_slice_apply _ 64 _ i _ rfl

open Idealize.ShloMosaic.StableHlo in
/-- After the host stretch before region 1, `main_call1_v1` holds the first 64 columns of `main_arg6`, transposed. -/
theorem after_hostOps1_ws (V : Valuation τ sig (Elt Ideal)) :
    (StableHlo.after hostOps1 V (Proc.devRef .tc main_call1_v1) : Cert.Layer.SP.Idx → EReal)
      = Cert.Layer.wsOf (V (Proc.devRef .tc main_arg6)) := by
  after_results
  show transpose S64x64 [1, 0] (extractStridedSlice S64x64 ![0, 0] (V (Proc.devRef .tc main_arg6) : Cert.Layer.SW.Idx → EReal) slices_S64x128_S64x64_0_0) transposes_S64x64_S64x64_1_0 = _
  funext i
  unfold Cert.Layer.wsOf
  exact transpose_slice_apply _ 0 _ i _ (by show (i 0).val = 0 + (i 0).val; omega)

open Idealize.ShloMosaic.StableHlo in
/-- … and `main_call1_v3` its last 64 columns, transposed. -/
theorem after_hostOps1_wn (V : Valuation τ sig (Elt Ideal)) :
    (StableHlo.after hostOps1 V (Proc.devRef .tc main_call1_v3) : Cert.Layer.SP.Idx → EReal)
      = Cert.Layer.wnOf (V (Proc.devRef .tc main_arg6)) := by
  after_results
  show transpose S64x64 [1, 0] (extractStridedSlice S64x64 ![0, 64] (V (Proc.devRef .tc main_arg6) : Cert.Layer.SW.Idx → EReal) slices_S64x128_S64x64_0_64) transposes_S64x64_S64x64_1_0 = _
  funext i
  unfold Cert.Layer.wnOf
  exact transpose_slice_apply _ 64 _ i _ rfl

open Idealize.ShloMosaic.StableHlo in
/-- After the host stretch before region 2, `main_call2_v1` holds the first 64 columns of `main_arg5`, transposed. -/
theorem after_hostOps2_ws (V : Valuation τ sig (Elt Ideal)) :
    (StableHlo.after hostOps2 V (Proc.devRef .tc main_call2_v1) : Cert.Layer.SP.Idx → EReal)
      = Cert.Layer.wsOf (V (Proc.devRef .tc main_arg5)) := by
  after_results
  show transpose S64x64 [1, 0] (extractStridedSlice S64x64 ![0, 0] (V (Proc.devRef .tc main_arg5) : Cert.Layer.SW.Idx → EReal) slices_S64x128_S64x64_0_0) transposes_S64x64_S64x64_1_0 = _
  funext i
  unfold Cert.Layer.wsOf
  exact transpose_slice_apply _ 0 _ i _ (by show (i 0).val = 0 + (i 0).val; omega)

open Idealize.ShloMosaic.StableHlo in
/-- … and `main_call2_v3` its last 64 columns, transposed. -/
theorem after_hostOps2_wn (V : Valuation τ sig (Elt Ideal)) :
    (StableHlo.after hostOps2 V (Proc.devRef .tc main_call2_v3) : Cert.Layer.SP.Idx → EReal)
      = Cert.Layer.wnOf (V (Proc.devRef .tc main_arg5)) := by
  after_results
  show transpose S64x64 [1, 0] (extractStridedSlice S64x64 ![0, 64] (V (Proc.devRef .tc main_arg5) : Cert.Layer.SW.Idx → EReal) slices_S64x128_S64x64_0_64) transposes_S64x64_S64x64_1_0 = _
  funext i
  unfold Cert.Layer.wnOf
  exact transpose_slice_apply _ 64 _ i _ rfl

open Idealize.ShloMosaic.StableHlo in
/-- After the host stretch before region 3, `main_call3_v1` holds the first 64 columns of `main_arg7`, transposed. -/
theorem after_hostOps3_ws (V : Valuation τ sig (Elt Ideal)) :
    (StableHlo.after hostOps3 V (Proc.devRef .tc main_call3_v1) : Cert.Layer.SP.Idx → EReal)
      = Cert.Layer.wsOf (V (Proc.devRef .tc main_arg7)) := by
  after_results
  show transpose S64x64 [1, 0] (extractStridedSlice S64x64 ![0, 0] (V (Proc.devRef .tc main_arg7) : Cert.Layer.SW.Idx → EReal) slices_S64x128_S64x64_0_0) transposes_S64x64_S64x64_1_0 = _
  funext i
  unfold Cert.Layer.wsOf
  exact transpose_slice_apply _ 0 _ i _ (by show (i 0).val = 0 + (i 0).val; omega)

open Idealize.ShloMosaic.StableHlo in
/-- … and `main_call3_v3` its last 64 columns, transposed. -/
theorem after_hostOps3_wn (V : Valuation τ sig (Elt Ideal)) :
    (StableHlo.after hostOps3 V (Proc.devRef .tc main_call3_v3) : Cert.Layer.SP.Idx → EReal)
      = Cert.Layer.wnOf (V (Proc.devRef .tc main_arg7)) := by
  after_results
  show transpose S64x64 [1, 0] (extractStridedSlice S64x64 ![0, 64] (V (Proc.devRef .tc main_arg7) : Cert.Layer.SW.Idx → EReal) slices_S64x128_S64x64_0_64) transposes_S64x64_S64x64_1_0 = _
  funext i
  unfold Cert.Layer.wnOf
  exact transpose_slice_apply _ 64 _ i _ rfl

/-! ## What each boundary keeps

A host stretch changes only the four buffers it writes; a region changes only its result buffer. -/

theorem X1_of (c : Dev nD) (r : Ref sig .tc) (h : r ∉ (hostOps0_W : List (Ref sig .tc))) : X1 m c r = X0 m c r :=
  StableHlo.after_of_writes_sub hostOps0 _ hostOps0_writes h
theorem X2_of (c : Dev nD) (r : Ref sig .tc) (h : r ≠ main_v0) : X2 m c r = X1 m c r := by
  unfold X2; exact Function.update_of_ne (StableHlo.devRef_ne_of_ne h) _ _
theorem X3_of (c : Dev nD) (r : Ref sig .tc) (h : r ∉ (hostOps1_W : List (Ref sig .tc))) : X3 m c r = X2 m c r :=
  StableHlo.after_of_writes_sub hostOps1 _ hostOps1_writes h
theorem X4_of (c : Dev nD) (r : Ref sig .tc) (h : r ≠ main_v1) : X4 m c r = X3 m c r := by
  unfold X4; exact Function.update_of_ne (StableHlo.devRef_ne_of_ne h) _ _
theorem X5_of (c : Dev nD) (r : Ref sig .tc) (h : r ∉ (hostOps2_W : List (Ref sig .tc))) : X5 m c r = X4 m c r :=
  StableHlo.after_of_writes_sub hostOps2 _ hostOps2_writes h
theorem X6_of (c : Dev nD) (r : Ref sig .tc) (h : r ≠ main_v2) : X6 m c r = X5 m c r := by
  unfold X6; exact Function.update_of_ne (StableHlo.devRef_ne_of_ne h) _ _
theorem X7_of (c : Dev nD) (r : Ref sig .tc) (h : r ∉ (hostOps3_W : List (Ref sig .tc))) : X7 m c r = X6 m c r :=
  StableHlo.after_of_writes_sub hostOps3 _ hostOps3_writes h
theorem X8_of (c : Dev nD) (r : Ref sig .tc) (h : r ≠ main_v3) : X8 m c r = X7 m c r := by
  unfold X8; exact Function.update_of_ne (StableHlo.devRef_ne_of_ne h) _ _

/-- A region's result buffer holds what its pipeline's write-backs leave. -/
theorem X2_main_v0 (c : Dev nD) : X2 m c main_v0 = (dat0 (T1 m) c).arrAt 6 cfg0.N := by
  unfold X2; exact Function.update_self ..
theorem X4_main_v1 (c : Dev nD) : X4 m c main_v1 = (dat1 (T3 m) c).arrAt 6 cfg1.N := by
  unfold X4; exact Function.update_self ..
theorem X6_main_v2 (c : Dev nD) : X6 m c main_v2 = (dat2 (T5 m) c).arrAt 6 cfg2.N := by
  unfold X6; exact Function.update_self ..
theorem X8_main_v3_self (c : Dev nD) : X8 m c main_v3 = (dat3 (T7 m) c).arrAt 6 cfg3.N := by
  unfold X8; exact Function.update_self ..

/-- A buffer that no stretch writes and that is no region's result holds its launch contents at every boundary. -/
theorem X1_launch (c : Dev nD) (r : Ref sig .tc) (h0 : r ∉ (hostOps0_W : List (Ref sig .tc))) :
    X1 m c r = m ((c : Thread nD τ).loc r) := (X1_of m c r h0).trans rfl
theorem X2_launch (c : Dev nD) (r : Ref sig .tc) (h0 : r ∉ (hostOps0_W : List (Ref sig .tc))) (n0 : r ≠ main_v0) :
    X2 m c r = m ((c : Thread nD τ).loc r) := (X2_of m c r n0).trans (X1_launch m c r h0)
theorem X3_launch (c : Dev nD) (r : Ref sig .tc) (h0 : r ∉ (hostOps0_W : List (Ref sig .tc))) (n0 : r ≠ main_v0)
    (h1 : r ∉ (hostOps1_W : List (Ref sig .tc))) :
    X3 m c r = m ((c : Thread nD τ).loc r) := (X3_of m c r h1).trans (X2_launch m c r h0 n0)
theorem X4_launch (c : Dev nD) (r : Ref sig .tc) (h0 : r ∉ (hostOps0_W : List (Ref sig .tc))) (n0 : r ≠ main_v0)
    (h1 : r ∉ (hostOps1_W : List (Ref sig .tc))) (n1 : r ≠ main_v1) :
    X4 m c r = m ((c : Thread nD τ).loc r) := (X4_of m c r n1).trans (X3_launch m c r h0 n0 h1)
theorem X5_launch (c : Dev nD) (r : Ref sig .tc) (h0 : r ∉ (hostOps0_W : List (Ref sig .tc))) (n0 : r ≠ main_v0)
    (h1 : r ∉ (hostOps1_W : List (Ref sig .tc))) (n1 : r ≠ main_v1) (h2 : r ∉ (hostOps2_W : List (Ref sig .tc))) :
    X5 m c r = m ((c : Thread nD τ).loc r) := (X5_of m c r h2).trans (X4_launch m c r h0 n0 h1 n1)
theorem X6_launch (c : Dev nD) (r : Ref sig .tc) (h0 : r ∉ (hostOps0_W : List (Ref sig .tc))) (n0 : r ≠ main_v0)
    (h1 : r ∉ (hostOps1_W : List (Ref sig .tc))) (n1 : r ≠ main_v1) (h2 : r ∉ (hostOps2_W : List (Ref sig .tc))) (n2 : r ≠ main_v2) :
    X6 m c r = m ((c : Thread nD τ).loc r) := (X6_of m c r n2).trans (X5_launch m c r h0 n0 h1 n1 h2)
theorem X7_launch (c : Dev nD) (r : Ref sig .tc) (h0 : r ∉ (hostOps0_W : List (Ref sig .tc))) (n0 : r ≠ main_v0)
    (h1 : r ∉ (hostOps1_W : List (Ref sig .tc))) (n1 : r ≠ main_v1) (h2 : r ∉ (hostOps2_W : List (Ref sig .tc))) (n2 : r ≠ main_v2)
    (h3 : r ∉ (hostOps3_W : List (Ref sig .tc))) :
    X7 m c r = m ((c : Thread nD τ).loc r) := (X7_of m c r h3).trans (X6_launch m c r h0 n0 h1 n1 h2 n2)

/-! ## Each region's result -/

/-- The update is a function of its five arrays. -/
theorem outK_congr {A A' : Cert.Layer.SA.Idx → EReal} {ho ho' hs hs' : Cert.Layer.SH.Idx → EReal} {ws ws' wn wn' : Cert.Layer.SP.Idx → EReal}
    (eA : A = A') (eho : ho = ho') (ehs : hs = hs') (ews : ws = ws') (ewn : wn = wn') :
    Cert.Layer.outK A ho hs ws wn = Cert.Layer.outK A' ho' hs' ws' wn' := by
  subst eA eho ehs ews ewn; rfl

/-- Region 0 reads the launch tables and the two pieces of `main_arg4`: it leaves the first user-side update. -/
theorem region0_out (c : Dev nD) : (dat0 (T1 m) c).arrAt 6 cfg0.N = u1 m c := by
  rw [region0_value]
  show Cert.Layer.outK _ _ _ _ _ = Cert.Layer.outK _ _ _ _ _
  refine outK_congr ?_ ?_ ?_ ?_ ?_
  · exact X1_launch m c main_arg0 (by decide)
  · exact X1_launch m c main_arg3 (by decide)
  · exact X1_launch m c main_arg2 (by decide)
  · exact after_hostOps0_ws _
  · exact after_hostOps0_wn _

/-- Region 1 reads the launch tables and the two pieces of `main_arg6`: it leaves the first item-side update. -/
theorem region1_out (c : Dev nD) : (dat1 (T3 m) c).arrAt 6 cfg1.N = i1 m c := by
  rw [region1_value]
  show Cert.Layer.outK _ _ _ _ _ = Cert.Layer.outK _ _ _ _ _
  refine outK_congr ?_ ?_ ?_ ?_ ?_
  · exact X3_launch m c main_arg1 (by decide) (by decide) (by decide)
  · exact X3_launch m c main_arg2 (by decide) (by decide) (by decide)
  · exact X3_launch m c main_arg3 (by decide) (by decide) (by decide)
  · exact (after_hostOps1_ws _).trans (congrArg Cert.Layer.wsOf (X2_launch m c main_arg6 (by decide) (by decide)))
  · exact (after_hostOps1_wn _).trans (congrArg Cert.Layer.wnOf (X2_launch m c main_arg6 (by decide) (by decide)))

/-- The first layer's results stay where regions 0 and 1 left them. -/
theorem X5_main_v0 (c : Dev nD) : X5 m c main_v0 = u1 m c :=
  (X5_of m c main_v0 (by decide)).trans <| (X4_of m c main_v0 (by decide)).trans <| (X3_of m c main_v0 (by decide)).trans <|
    (X2_main_v0 m c).trans (region0_out m c)
theorem X5_main_v1 (c : Dev nD) : X5 m c main_v1 = i1 m c :=
  (X5_of m c main_v1 (by decide)).trans <| (X4_main_v1 m c).trans (region1_out m c)
theorem X7_main_v0 (c : Dev nD) : X7 m c main_v0 = u1 m c :=
  (X7_of m c main_v0 (by decide)).trans <| (X6_of m c main_v0 (by decide)).trans (X5_main_v0 m c)
theorem X7_main_v1 (c : Dev nD) : X7 m c main_v1 = i1 m c :=
  (X7_of m c main_v1 (by decide)).trans <| (X6_of m c main_v1 (by decide)).trans (X5_main_v1 m c)

/-- Region 2 reads the user adjacency, the two first-layer results and the two pieces of `main_arg5`. -/
theorem region2_out (c : Dev nD) : (dat2 (T5 m) c).arrAt 6 cfg2.N
    = Cert.Layer.out (m ((c : Thread nD τ).loc main_arg0)) (i1 m c) (u1 m c) (m ((c : Thread nD τ).loc main_arg5)) := by
  rw [region2_value]
  show Cert.Layer.outK _ _ _ _ _ = Cert.Layer.outK _ _ _ _ _
  refine outK_congr ?_ ?_ ?_ ?_ ?_
  · exact X5_launch m c main_arg0 (by decide) (by decide) (by decide) (by decide) (by decide)
  · exact X5_main_v1 m c
  · exact X5_main_v0 m c
  · exact (after_hostOps2_ws _).trans (congrArg Cert.Layer.wsOf (X4_launch m c main_arg5 (by decide) (by decide) (by decide) (by decide)))
  · exact (after_hostOps2_wn _).trans (congrArg Cert.Layer.wnOf (X4_launch m c main_arg5 (by decide) (by decide) (by decide) (by decide)))

/-- Region 3 reads the item adjacency, the two first-layer results and the two pieces of `main_arg7`. -/
theorem region3_out (c : Dev nD) : (dat3 (T7 m) c).arrAt 6 cfg3.N
    = Cert.Layer.out (m ((c : Thread nD τ).loc main_arg1)) (u1 m c) (i1 m c) (m ((c : Thread nD τ).loc main_arg7)) := by
  rw [region3_value]
  show Cert.Layer.outK _ _ _ _ _ = Cert.Layer.outK _ _ _ _ _
  refine outK_congr ?_ ?_ ?_ ?_ ?_
  · exact X7_launch m c main_arg1 (by decide) (by decide) (by decide) (by decide) (by decide) (by decide) (by decide)
  · exact X7_main_v0 m c
  · exact X7_main_v1 m c
  · exact (after_hostOps3_ws _).trans (congrArg Cert.Layer.wsOf (X6_launch m c main_arg7 (by decide) (by decide) (by decide) (by decide) (by decide) (by decide)))
  · exact (after_hostOps3_wn _).trans (congrArg Cert.Layer.wnOf (X6_launch m c main_arg7 (by decide) (by decide) (by decide) (by decide) (by decide) (by decide)))

/-! ## The return -/

/-- At the return `main_v2` holds the second user-side update … -/
theorem X8_main_v2 (c : Dev nD) : X8 (F := Ideal) m c main_v2 = Cert.Layer.out (m ((c : Thread nD τ).loc main_arg0)) (i1 m c) (u1 m c) (m ((c : Thread nD τ).loc main_arg5)) :=
  (X8_of m c main_v2 (by decide)).trans <| (X7_of m c main_v2 (by decide)).trans <| (X6_main_v2 m c).trans (region2_out m c)

/-- … and `main_v3` the second item-side update. -/
theorem X8_main_v3 (c : Dev nD) : X8 (F := Ideal) m c main_v3 = Cert.Layer.out (m ((c : Thread nD τ).loc main_arg1)) (u1 m c) (i1 m c) (m ((c : Thread nD τ).loc main_arg7)) :=
  (X8_main_v3_self m c).trans (region3_out m c)

end Cert.KernelIdeal.Hand

end
-- ==== Proof.RefValue.lean ====
import proofs.«147371_g55860344651847_cont_9to1c4b_578_10_alg».proof.Defs
import proofs.«147371_g55860344651847_cont_9to1c4b_578_10_alg».proof.Proof.Gen.ReferenceIdeal.Read
import proofs.«147371_g55860344651847_cont_9to1c4b_578_10_alg».proof.Proof.LayerSpec

/-! The reference's result arrays as functions of its argument arrays, index by index.

The reference applies one chain of operations four times (two layers, two sides): the adjacency matrix times the
neighbour table; the self table and that product joined side by side into rows of 128 columns; the joined row against
the transposed weight matrix; the rectifier; and the division by the row norm floored at `ε`.  Read at an index, the
chain is the layer update `Cert.Layer.out`: the one sum over the 128 joined columns splits, at column 64, into the sum
over the self table's columns plus the sum over the product's columns (a regrouping of one finite sum on the extended
reals; nothing is distributed).  The first instance is read operation by operation; the other three are the same chain
at other arguments, the second layer's at the first layer's two results. -/

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The three kinds of argument array: a 10000 × 10000 adjacency matrix, a 10000 × 64 table, a 64 × 128 weight matrix. -/
abbrev AdjArr := (⟨S10000x10000, .f32⟩ : BufTy).Contents (Elt Ideal)
abbrev TableArr := (⟨S10000x64, .f32⟩ : BufTy).Contents (Elt Ideal)
abbrev WeightArr := (⟨S64x128, .f32⟩ : BufTy).Contents (Elt Ideal)

/-! ## One layer of the reference, index by index -/

/-- The adjacency product at row `r`, column `k`: row `r` of `A` against column `k` of the neighbour table. -/
theorem neigh_at (A : AdjArr) (ho : TableArr) (r : Fin 10000) (k : Fin 64) :
    val_main_v0 (F := Ideal) A ho (ix2 r k) = Cert.Layer.neigh A ho r k := by
  rw [val_main_v0_apply]
  unfold Cert.Layer.neigh
  refine Finset.sum_congr rfl fun l _ => ?_
  have e1 : lidx_main_v0 (ix2 r k) l = ix2 r l := funext fun a => Fin.ext (by match a with | ⟨0, _⟩ => rfl | ⟨1, _⟩ => rfl)
  have e2 : ridx_main_v0 (ix2 r k) l = ix2 l k := funext fun a => Fin.ext (by match a with | ⟨0, _⟩ => rfl | ⟨1, _⟩ => rfl)
  rw [e1, e2]

/-- The joined row at a column below 64 is the self table's row. -/
theorem joined_lo (A : AdjArr) (hs ho : TableArr) (r : Fin 10000) (k : Fin 64) :
    val_main_v2 (F := Ideal) A hs ho (ix2 r (Fin.castAdd 64 k)) = hs (ix2 r k) := by
  unfold val_main_v2
  exact concatenate_pair_apply_left 1 hs _ concatenates_S10000x64_S10000x64_S10000x128_d1 _ rfl _ (fun b => by
    match b with
    | ⟨0, _⟩ => rfl
    | ⟨1, _⟩ => rfl)

/-- The joined row at column `64 + k` is the adjacency product's row at column `k`. -/
theorem joined_hi (A : AdjArr) (hs ho : TableArr) (r : Fin 10000) (k : Fin 64) :
    val_main_v2 (F := Ideal) A hs ho (ix2 r (Fin.natAdd 64 k)) = val_main_v0 (F := Ideal) A ho (ix2 r k) := by
  unfold val_main_v2
  exact concatenate_pair_apply_right 1 hs _ concatenates_S10000x64_S10000x64_S10000x128_d1 _ rfl rfl _
    (fun b hb => by
      match b with
      | ⟨0, _⟩ => rfl
      | ⟨1, _⟩ => exact absurd rfl hb)
    (by show k.val + 64 = 64 + k.val; omega)

/-- The linear layer at row `r`, column `q`: the one sum over the 128 joined columns is the sum over the self table's
    64 columns plus the sum over the adjacency product's 64 columns, each against its half of row `q` of `W`. -/
theorem pre_at (A : AdjArr) (hs ho : TableArr) (W : WeightArr) (r : Fin 10000) (q : Fin 64) :
    val_main_v4 (F := Ideal) A hs ho W (ix2 r q)
      = Cert.Layer.preK A ho hs (Cert.Layer.wsOf W) (Cert.Layer.wnOf W) r q := by
  rw [val_main_v4_apply]
  have e : ∀ k : Fin 128, (val_main_v2 (F := Ideal) A hs ho) (lidx_main_v4 (ix2 r q) k) * (val_main_v3 (F := Ideal) W) (ridx_main_v4 (ix2 r q) k)
      = (val_main_v2 (F := Ideal) A hs ho) (ix2 r k) * W (ix2 q k) := by
    intro k
    rw [val_main_v3_apply]
    have e1 : lidx_main_v4 (ix2 r q) k = ix2 r k := funext fun a => Fin.ext (by match a with | ⟨0, _⟩ => rfl | ⟨1, _⟩ => rfl)
    have e2 : idx_main_v3 (ridx_main_v4 (ix2 r q) k) = ix2 q k := funext fun a => Fin.ext (by match a with | ⟨0, _⟩ => rfl | ⟨1, _⟩ => rfl)
    rw [e1, e2]
  rw [Finset.sum_congr rfl fun k _ => e k]
  refine (Fin.sum_univ_add (a := 64) (b := 64) fun k : Fin (64 + 64) => (val_main_v2 (F := Ideal) A hs ho) (ix2 r k) * W (ix2 q k)).trans ?_
  unfold Cert.Layer.preK
  refine congrArg₂ (· + ·) (Finset.sum_congr rfl fun k _ => ?_) (Finset.sum_congr rfl fun k _ => ?_)
  · rw [joined_lo]; rfl
  · rw [joined_hi, neigh_at]; rfl

/-- The rectified activation at row `r`, column `q`. -/
theorem act_at (A : AdjArr) (hs ho : TableArr) (W : WeightArr) (r : Fin 10000) (q : Fin 64) :
    val_main_v5 (F := Ideal) A hs ho W (ix2 r q)
      = Cert.Layer.actK A ho hs (Cert.Layer.wsOf W) (Cert.Layer.wnOf W) r q := by
  rw [val_main_v5_apply, val_main_call0_v0_apply, val_main_call0_cst_apply, pre_at]
  rfl

/-- The floored row norm, read at any column `q` of row `r` of the array that spreads it along the row. -/
theorem norm_at (A : AdjArr) (hs ho : TableArr) (W : WeightArr) (r : Fin 10000) (q : Fin 64) :
    val_main_v12 (F := Ideal) A hs ho W (ix2 r q)
      = Cert.Layer.normK A ho hs (Cert.Layer.wsOf W) (Cert.Layer.wnOf W) r := by
  rw [val_main_v12_apply, val_main_v11_apply, val_main_v9_apply, val_main_v8_apply, val_main_v7_apply, val_main_v10_apply,
    val_main_cst_apply, val_main_cst_0_apply]
  have e : ∀ k : Fin 64, (val_main_v6 (F := Ideal) A hs ho W) (idx_main_v7 (idx_main_v8 (idx_main_v12 (ix2 r q))) k)
      = Cert.Layer.actK A ho hs (Cert.Layer.wsOf W) (Cert.Layer.wnOf W) r k * Cert.Layer.actK A ho hs (Cert.Layer.wsOf W) (Cert.Layer.wnOf W) r k := by
    intro k
    have e1 : idx_main_v7 (idx_main_v8 (idx_main_v12 (ix2 r q))) k = ix2 r k := funext fun a => Fin.ext (by match a with | ⟨0, _⟩ => rfl | ⟨1, _⟩ => rfl)
    rw [e1, val_main_v6_apply, act_at]
    rfl
  rw [Finset.sum_congr rfl fun k _ => e k]
  rfl

/-- The first instance of the chain is the layer update of its four arguments (the self table is its second
    argument, the neighbour table its third). -/
theorem layer_eq (A : AdjArr) (hs ho : TableArr) (W : WeightArr) :
    val_main_v13 (F := Ideal) A hs ho W = Cert.Layer.out A ho hs W := by
  funext i
  obtain ⟨r, q, rfl⟩ : ∃ (r : Fin 10000) (q : Fin 64), i = ix2 r q := ⟨i 0, i 1, eq_ix2 i⟩
  rw [val_main_v13_apply, act_at, norm_at]
  rfl

/-! ## The four instances and the two results -/

/-- First layer, first side: adjacency `x0`, neighbour table `x3`, self table `x2`, weights `x4`. -/
theorem ref_u1 (x0 : (⟨S10000x10000, .f32⟩ : BufTy).Contents (Elt Ideal)) (x2 x3 : (⟨S10000x64, .f32⟩ : BufTy).Contents (Elt Ideal))
    (x4 : (⟨S64x128, .f32⟩ : BufTy).Contents (Elt Ideal)) :
    val_main_v13 (F := Ideal) x0 x2 x3 x4 = Cert.Layer.out x0 x3 x2 x4 :=
  layer_eq x0 x2 x3 x4

/-- First layer, second side: the same chain with adjacency `x1`, neighbour table `x2`, self table `x3`, weights `x6`. -/
theorem ref_i1 (x1 : (⟨S10000x10000, .f32⟩ : BufTy).Contents (Elt Ideal)) (x2 x3 : (⟨S10000x64, .f32⟩ : BufTy).Contents (Elt Ideal))
    (x6 : (⟨S64x128, .f32⟩ : BufTy).Contents (Elt Ideal)) :
    val_main_v25 (F := Ideal) x1 x2 x3 x6 = Cert.Layer.out x1 x2 x3 x6 :=
  (show val_main_v25 (F := Ideal) x1 x2 x3 x6 = val_main_v13 (F := Ideal) x1 x3 x2 x6 from rfl).trans (layer_eq x1 x3 x2 x6)

/-- Second layer, first side: the chain over the first layer's two results, with adjacency `x0` and weights `x5`. -/
theorem ref_u2 (x0 x1 : (⟨S10000x10000, .f32⟩ : BufTy).Contents (Elt Ideal)) (x2 x3 : (⟨S10000x64, .f32⟩ : BufTy).Contents (Elt Ideal))
    (x4 x5 x6 : (⟨S64x128, .f32⟩ : BufTy).Contents (Elt Ideal)) :
    val_main_v39 (F := Ideal) x0 x1 x2 x3 x4 x5 x6
      = Cert.Layer.out x0 (Cert.Layer.out x1 x2 x3 x6) (Cert.Layer.out x0 x3 x2 x4) x5 := by
  have h : val_main_v39 (F := Ideal) x0 x1 x2 x3 x4 x5 x6
      = val_main_v13 (F := Ideal) x0 (val_main_v13 (F := Ideal) x0 x2 x3 x4) (val_main_v25 (F := Ideal) x1 x2 x3 x6) x5 := rfl
  rw [h, layer_eq, ref_u1, ref_i1]

/-- Second layer, second side: the chain over the first layer's two results, with adjacency `x1` and weights `x7`. -/
theorem ref_i2 (x0 x1 : (⟨S10000x10000, .f32⟩ : BufTy).Contents (Elt Ideal)) (x2 x3 : (⟨S10000x64, .f32⟩ : BufTy).Contents (Elt Ideal))
    (x4 x6 x7 : (⟨S64x128, .f32⟩ : BufTy).Contents (Elt Ideal)) :
    val_main_v51 (F := Ideal) x0 x1 x2 x3 x4 x6 x7
      = Cert.Layer.out x1 (Cert.Layer.out x0 x3 x2 x4) (Cert.Layer.out x1 x2 x3 x6) x7 := by
  have h : val_main_v51 (F := Ideal) x0 x1 x2 x3 x4 x6 x7
      = val_main_v13 (F := Ideal) x1 (val_main_v25 (F := Ideal) x1 x2 x3 x6) (val_main_v13 (F := Ideal) x0 x2 x3 x4) x7 := rfl
  rw [h, layer_eq, ref_u1, ref_i1]

/-- The run's first result is the second layer's first side, as a function of the argument arrays. -/
theorem res_u (m : (ℓ : Loc nD τ sig) → Buf (Elt Ideal) ℓ) (c : Dev nD) :
    Cert.ReferenceIdeal.Value.res_main_v39 m c
      = Cert.Layer.out (m ((c.tc : Thread nD τ).loc main_arg0))
          (Cert.Layer.out (m ((c.tc : Thread nD τ).loc main_arg1)) (m ((c.tc : Thread nD τ).loc main_arg2)) (m ((c.tc : Thread nD τ).loc main_arg3)) (m ((c.tc : Thread nD τ).loc main_arg6)))
          (Cert.Layer.out (m ((c.tc : Thread nD τ).loc main_arg0)) (m ((c.tc : Thread nD τ).loc main_arg3)) (m ((c.tc : Thread nD τ).loc main_arg2)) (m ((c.tc : Thread nD τ).loc main_arg4)))
          (m ((c.tc : Thread nD τ).loc main_arg5)) :=
  (val_main_v39_eq (F := Ideal) m c).trans (ref_u2 _ _ _ _ _ _ _)

/-- The run's second result is the second layer's second side, as a function of the argument arrays. -/
theorem res_i (m : (ℓ : Loc nD τ sig) → Buf (Elt Ideal) ℓ) (c : Dev nD) :
    Cert.ReferenceIdeal.Value.res_main_v51 m c
      = Cert.Layer.out (m ((c.tc : Thread nD τ).loc main_arg1))
          (Cert.Layer.out (m ((c.tc : Thread nD τ).loc main_arg0)) (m ((c.tc : Thread nD τ).loc main_arg3)) (m ((c.tc : Thread nD τ).loc main_arg2)) (m ((c.tc : Thread nD τ).loc main_arg4)))
          (Cert.Layer.out (m ((c.tc : Thread nD τ).loc main_arg1)) (m ((c.tc : Thread nD τ).loc main_arg2)) (m ((c.tc : Thread nD τ).loc main_arg3)) (m ((c.tc : Thread nD τ).loc main_arg6)))
          (m ((c.tc : Thread nD τ).loc main_arg7)) :=
  (val_main_v51_eq (F := Ideal) m c).trans (ref_i2 _ _ _ _ _ _ _)

end Cert.ReferenceIdeal.RefValue

end
-- ==== Proof.lean ====
import proofs.«147371_g55860344651847_cont_9to1c4b_578_10_alg».proof.Defs
import proofs.«147371_g55860344651847_cont_9to1c4b_578_10_alg».proof.Proof.Gen.Kernel
import proofs.«147371_g55860344651847_cont_9to1c4b_578_10_alg».proof.Proof.Gen.KernelIdeal
import proofs.«147371_g55860344651847_cont_9to1c4b_578_10_alg».proof.Proof.Gen.ReferenceIdeal
import proofs.«147371_g55860344651847_cont_9to1c4b_578_10_alg».proof.Proof.Gen.Pre_finite_inputs
import proofs.«147371_g55860344651847_cont_9to1c4b_578_10_alg».proof.Proof.BitsRun.Run
import proofs.«147371_g55860344651847_cont_9to1c4b_578_10_alg».proof.Proof.IdealRun.Run
import proofs.«147371_g55860344651847_cont_9to1c4b_578_10_alg».proof.Proof.IdealRun.ChainValue
import proofs.«147371_g55860344651847_cont_9to1c4b_578_10_alg».proof.Proof.RefValue
import Idealize.ShloMosaic.Adequacy
import Idealize.ShloMosaic.Init

/-! # Two GraphSAGE layers as four fused kernel calls, against the plain reference

Each of the four calls computes one layer-side update
`out[r, q] = y[r, q] / max (√(Σ_q' y[r, q']²), ε)`, `y = max (x, 0)`,
`x[r, q] = Σ_{k<64} hs[r, k] · W[q, k] + Σ_{k<64} (Σ_l A[r, l] · ho[l, k]) · W[q, 64 + k]`:
the kernel splits the linear layer over the two halves of the concatenated row and streams the adjacency matrix
in blocks of 400 rows; the reference concatenates and multiplies once. Over the extended reals the two agree by
splitting a finite sum, which needs no finiteness of the inputs. The frames: every call is a pipeline over 25 row
blocks whose two adjacency windows read ONE array, held half and half; nothing writes an argument. -/

set_option maxRecDepth 16384

noncomputable section

namespace Cert.Proof

open Idealize.ShloMosaic Idealize.ShloMosaic.TcCoe Idealize.SL.Sem

/-- The program as printed runs, and its arguments end as launched. -/
theorem frame_k : Cert.frame_Kernel := fun m ρ _ => Cert.Kernel.Hand.frame (F := Bits) m ρ

/-- The same of its reading over the extended reals. -/
theorem frame_ki : Cert.frame_KernelIdeal := fun m ρ _ => Cert.KernelIdeal.Hand.frame (F := Ideal) m ρ

/-- The reference is host operations only: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the second layer's two updates of the first layer's two, as one function of the arguments. -/
theorem algebraic : Cert.algebraic_KernelIdeal_ReferenceIdeal := by
  intro m ρ m' ρ' _ hagree
  refine ⟨fun c => Cert.Layer.out (m ((c.tc : Thread Cert.KernelIdeal.nD Cert.KernelIdeal.τ).loc Cert.KernelIdeal.main_arg0)) (Cert.KernelIdeal.Hand.i1 m c) (Cert.KernelIdeal.Hand.u1 m c) (m ((c.tc : Thread Cert.KernelIdeal.nD Cert.KernelIdeal.τ).loc Cert.KernelIdeal.main_arg5)),
    fun c => Cert.Layer.out (m ((c.tc : Thread Cert.KernelIdeal.nD Cert.KernelIdeal.τ).loc Cert.KernelIdeal.main_arg1)) (Cert.KernelIdeal.Hand.u1 m c) (Cert.KernelIdeal.Hand.i1 m c) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v2 (by decide))).trans (Cert.KernelIdeal.Hand.X8_main_v2 m c),
      (h c _ (Cert.KernelIdeal.Hand.mem_uc Cert.KernelIdeal.main_v3 (by decide))).trans (Cert.KernelIdeal.Hand.X8_main_v3 m c),
      (h c _ (Cert.KernelIdeal.Hand.mem_uc Cert.KernelIdeal.main_arg0 (by decide))).trans (Cert.KernelIdeal.Hand.X8_main_arg0 m c),
      (h c _ (Cert.KernelIdeal.Hand.mem_uc Cert.KernelIdeal.main_arg1 (by decide))).trans (Cert.KernelIdeal.Hand.X8_main_arg1 m c),
      (h c _ (Cert.KernelIdeal.Hand.mem_uc Cert.KernelIdeal.main_arg2 (by decide))).trans (Cert.KernelIdeal.Hand.X8_main_arg2 m c),
      (h c _ (Cert.KernelIdeal.Hand.mem_uc Cert.KernelIdeal.main_arg3 (by decide))).trans (Cert.KernelIdeal.Hand.X8_main_arg3 m c),
      (h c _ (Cert.KernelIdeal.Hand.mem_uc Cert.KernelIdeal.main_arg4 (by decide))).trans (Cert.KernelIdeal.Hand.X8_main_arg4 m c),
      (h c _ (Cert.KernelIdeal.Hand.mem_uc Cert.KernelIdeal.main_arg5 (by decide))).trans (Cert.KernelIdeal.Hand.X8_main_arg5 m c),
      (h c _ (Cert.KernelIdeal.Hand.mem_uc Cert.KernelIdeal.main_arg6 (by decide))).trans (Cert.KernelIdeal.Hand.X8_main_arg6 m c),
      (h c _ (Cert.KernelIdeal.Hand.mem_uc Cert.KernelIdeal.main_arg7 (by decide))).trans (Cert.KernelIdeal.Hand.X8_main_arg7 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.RefValue.res_u, (hagree c).1, (hagree c).2.1, (hagree c).2.2.1, (hagree c).2.2.2.1, (hagree c).2.2.2.2.1,
        (hagree c).2.2.2.2.2.1, (hagree c).2.2.2.2.2.2.1]
    · rw [Cert.ReferenceIdeal.RefValue.res_i, (hagree c).1, (hagree c).2.1, (hagree c).2.2.1, (hagree c).2.2.2.1, (hagree c).2.2.2.2.1,
        (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
